-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S500000x64 : Shape := ⟨2, ![500000, 64]⟩
abbrev S262144 : Shape := ⟨1, ![262144]⟩
abbrev S2097152 : Shape := ⟨1, ![2097152]⟩
abbrev S64 : Shape := ⟨1, ![64]⟩
abbrev S512x64 : Shape := ⟨2, ![512, 64]⟩
abbrev S64x64 : Shape := ⟨2, ![64, 64]⟩
abbrev S192x64 : Shape := ⟨2, ![192, 64]⟩
abbrev S64x1 : Shape := ⟨2, ![64, 1]⟩
abbrev S1 : Shape := ⟨1, ![1]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S64 : S_.BroadcastsInDim S64 (![] : Fin 0 → Fin S64.rank)
  reducesTo_S64_S_d0 : S64.ReducesTo [0] S_
  bcast_S_S512x64 : S_.BroadcastsInDim S512x64 (![] : Fin 0 → Fin S512x64.rank)
  reducesTo_S512x64_S_d0_1 : S512x64.ReducesTo [0, 1] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg18 : FVec F S64x1 .f32) (main_arg19 : FVec F S1 .f32) (main_v63 : IVec S_ 1) (main_v67 : IVec S_ 1) : IVec S_ 1 :=
  let main_v68 : IVec S_ 1 := andi main_v63 main_v67
  let main_v69 : FVec F S64x1 .f32 := Host.absf main_arg18
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg19
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg15 : FVec F S64 .f32) (main_arg16 : FVec F S192x64 .f32) (main_arg17 : FVec F S64 .f32) (main_arg18 : FVec F S64x1 .f32) (main_arg19 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S192x64 .f32 := Host.absf main_arg16
  let main_cst_22 : FVec F S_ .f32 := constant S_ .f32 0x7F800000#32
  let main_v60 : FVec F S192x64 .f32 := broadcastInDim S192x64 ![] bcast_S_S192x64 main_cst_22
  let main_v61 : IVec S192x64 1 := cmpf .olt main_v59 main_v60
  let main_c_23 : IVec S_ 1 := constantI S_ 1 1#1
  let main_v62 : IVec S_ 1 := (fun x v => Host.reduce IntOp.andi x v reducesTo_S192x64_S_d0_1 h_S_) main_v61 main_c_23
  let main_v63 : IVec S_ 1 := andi main_v58 main_v62
  let main_v64 : FVec F S64 .f32 := Host.absf main_arg17
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg18 main_arg19 main_v63 main_v67

def fn_part2 {F : FTy → Type} [FloatOps F] (main_arg11 : FVec F S64 .f32) (main_arg12 : FVec F S64x64 .f32) (main_arg13 : FVec F S64 .f32) (main_arg14 : FVec F S64x64 .f32) (main_arg15 : FVec F S64 .f32) (main_arg16 : FVec F S192x64 .f32) (main_arg17 : FVec F S64 .f32) (main_arg18 : FVec F S64x1 .f32) (main_arg19 : FVec F S1 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg12
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg14
  let main_cst_18 : FVec F S_ .f32 := constant S_ .f32 0x7F800000#32
  let main_v50 : FVec F S64x64 .f32 := broadcastInDim S64x64 ![] bcast_S_S64x64 main_cst_18
  fn_part3 (F := F) main_arg15 main_arg16 main_arg17 main_arg18 main_arg19 main_v48 main_v49 main_v50

def fn_part1 {F : FTy → Type} [FloatOps F] (main_arg8 : FVec F S512x64 .f32) (main_arg9 : FVec F S64 .f32) (main_arg10 : FVec F S512x64 .f32) (main_arg11 : FVec F S64 .f32) (main_arg12 : FVec F S64x64 .f32) (main_arg13 : FVec F S64 .f32) (main_arg14 : FVec F S64x64 .f32) (main_arg15 : FVec F S64 .f32) (main_arg16 : FVec F S192x64 .f32) (main_arg17 : FVec F S64 .f32) (main_arg18 : FVec F S64x1 .f32) (main_arg19 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S512x64 .f32 := Host.absf main_arg8
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S512x64 .f32 := Host.absf main_arg10
  let main_cst_10 : FVec F S_ .f32 := constant S_ .f32 0x7F800000#32
  let main_v30 : FVec F S512x64 .f32 := broadcastInDim S512x64 ![] bcast_S_S512x64 main_cst_10
  let main_v31 : IVec S512x64 1 := cmpf .olt main_v29 main_v30
  let main_c_11 : IVec S_ 1 := constantI S_ 1 1#1
  let main_v32 : IVec S_ 1 := (fun x v => Host.reduce IntOp.andi x v reducesTo_S512x64_S_d0_1 h_S_) main_v31 main_c_11
  let main_v33 : IVec S_ 1 := andi main_v28 main_v32
  fn_part2 (F := F) main_arg11 main_arg12 main_arg13 main_arg14 main_arg15 main_arg16 main_arg17 main_arg18 main_arg19 main_v33

def fn {F : FTy → Type} [FloatOps F] (main_arg0 : FVec F S64x512 .f32) (main_arg1 : FVec F S64x512 .f32) (main_arg2 : FVec F S500000x64 .f32) (main_arg3 : IVec S262144 32) (main_arg4 : IVec S2097152 32) (main_arg5 : IVec S2097152 32) (main_arg6 : IVec S262144 32) (main_arg7 : FVec F S64 .f32) (main_arg8 : FVec F S512x64 .f32) (main_arg9 : FVec F S64 .f32) (main_arg10 : FVec F S512x64 .f32) (main_arg11 : FVec F S64 .f32) (main_arg12 : FVec F S64x64 .f32) (main_arg13 : FVec F S64 .f32) (main_arg14 : FVec F S64x64 .f32) (main_arg15 : FVec F S64 .f32) (main_arg16 : FVec F S192x64 .f32) (main_arg17 : FVec F S64 .f32) (main_arg18 : FVec F S64x1 .f32) (main_arg19 : FVec F S1 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S500000x64 .f32 := Host.absf main_arg2
  let main_cst_2 : FVec F S_ .f32 := constant S_ .f32 0x7F800000#32
  let main_v10 : FVec F S500000x64 .f32 := broadcastInDim S500000x64 ![] bcast_S_S500000x64 main_cst_2
  let main_v11 : IVec S500000x64 1 := cmpf .olt main_v9 main_v10
  let main_c_3 : IVec S_ 1 := constantI S_ 1 1#1
  let main_v12 : IVec S_ 1 := (fun x v => Host.reduce IntOp.andi x v reducesTo_S500000x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_arg15 main_arg16 main_arg17 main_arg18 main_arg19 main_v13 main_v16
-- ==== Kernel.lean ====
abbrev S64x512 : Shape := ⟨2, ![64, 512]⟩
abbrev S500000x64 : Shape := ⟨2, ![500000, 64]⟩
abbrev S262144 : Shape := ⟨1, ![262144]⟩
abbrev S2097152 : Shape := ⟨1, ![2097152]⟩
abbrev S64 : Shape := ⟨1, ![64]⟩
abbrev S512x64 : Shape := ⟨2, ![512, 64]⟩
abbrev S64x64 : Shape := ⟨2, ![64, 64]⟩
abbrev S192x64 : Shape := ⟨2, ![192, 64]⟩
abbrev S64x1 : Shape := ⟨2, ![64, 1]⟩
abbrev S1 : Shape := ⟨1, ![1]⟩
abbrev S_ : Shape := ⟨0, ![]⟩
abbrev S262144x1 : Shape := ⟨2, ![262144, 1]⟩
abbrev S262144x64 : Shape := ⟨2, ![262144, 64]⟩
abbrev S2097152x1 : Shape := ⟨2, ![2097152, 1]⟩
abbrev S1x64 : Shape := ⟨2, ![1, 64]⟩
abbrev S8192x64 : Shape := ⟨2, ![8192, 64]⟩
abbrev S8192x1 : Shape := ⟨2, ![8192, 1]⟩
abbrev S2097152x64 : Shape := ⟨2, ![2097152, 64]⟩
abbrev S1x1 : Shape := ⟨2, ![1, 1]⟩
abbrev S64x192 : Shape := ⟨2, ![64, 192]⟩

abbrev nBuf : Space → Nat
  | .hbm => 80
  | .vmem => 32
  | .smem => 0
  | _ => 0

abbrev bufTy : (tb : Table) → Fin (tcTables nBuf tb) → BufTy
  | .hbm, ⟨0, _⟩ => ⟨S64x512, .f32⟩
  | .hbm, ⟨1, _⟩ => ⟨S64x512, .f32⟩
  | .hbm, ⟨2, _⟩ => ⟨S500000x64, .f32⟩
  | .hbm, ⟨3, _⟩ => ⟨S262144, .i32⟩
  | .hbm, ⟨4, _⟩ => ⟨S2097152, .i32⟩
  | .hbm, ⟨5, _⟩ => ⟨S2097152, .i32⟩
  | .hbm, ⟨6, _⟩ => ⟨S262144, .i32⟩
  | .hbm, ⟨7, _⟩ => ⟨S64, .f32⟩
  | .hbm, ⟨8, _⟩ => ⟨S512x64, .f32⟩
  | .hbm, ⟨9, _⟩ => ⟨S64, .f32⟩
  | .hbm, ⟨10, _⟩ => ⟨S512x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S192x64, .f32⟩
  | .hbm, ⟨17, _⟩ => ⟨S64, .f32⟩
  | .hbm, ⟨18, _⟩ => ⟨S64x1, .f32⟩
  | .hbm, ⟨19, _⟩ => ⟨S1, .f32⟩
  | .hbm, ⟨20, _⟩ => ⟨S_, .i32⟩
  | .hbm, ⟨21, _⟩ => ⟨S262144, .i32⟩
  | .hbm, ⟨22, _⟩ => ⟨S262144, .i1⟩
  | .hbm, ⟨23, _⟩ => ⟨S_, .i32⟩
  | .hbm, ⟨24, _⟩ => ⟨S262144, .i32⟩
  | .hbm, ⟨25, _⟩ => ⟨S262144, .i32⟩
  | .hbm, ⟨26, _⟩ => ⟨S262144, .i32⟩
  | .hbm, ⟨27, _⟩ => ⟨S262144x1, .i32⟩
  | .hbm, ⟨28, _⟩ => ⟨S262144x64, .f32⟩
  | .hbm, ⟨29, _⟩ => ⟨S_, .f32⟩
  | .hbm, ⟨30, _⟩ => ⟨S2097152, .f32⟩
  | .hbm, ⟨31, _⟩ => ⟨S_, .f32⟩
  | .hbm, ⟨32, _⟩ => ⟨S262144, .f32⟩
  | .hbm, ⟨33, _⟩ => ⟨S2097152x1, .i32⟩
  | .hbm, ⟨34, _⟩ => ⟨S262144, .f32⟩
  | .hbm, ⟨35, _⟩ => ⟨S_, .f32⟩
  | .hbm, ⟨36, _⟩ => ⟨S262144, .f32⟩
  | .hbm, ⟨37, _⟩ => ⟨S262144, .f32⟩
  | .hbm, ⟨38, _⟩ => ⟨S262144, .f32⟩
  | .hbm, ⟨39, _⟩ => ⟨S262144x1, .f32⟩
  | .hbm, ⟨40, _⟩ => ⟨S1x64, .f32⟩
  | .hbm, ⟨41, _⟩ => ⟨S262144x64, .bf16⟩
  | .hbm, ⟨42, _⟩ => ⟨S_, .i32⟩
  | .hbm, ⟨43, _⟩ => ⟨S2097152, .i32⟩
  | .hbm, ⟨44, _⟩ => ⟨S2097152, .i1⟩
  | .hbm, ⟨45, _⟩ => ⟨S_, .i32⟩
  | .hbm, ⟨46, _⟩ => ⟨S2097152, .i32⟩
  | .hbm, ⟨47, _⟩ => ⟨S2097152, .i32⟩
  | .hbm, ⟨48, _⟩ => ⟨S2097152, .i32⟩
  | .hbm, ⟨49, _⟩ => ⟨S2097152x1, .i32⟩
  | .hbm, ⟨50, _⟩ => ⟨S2097152x64, .bf16⟩
  | .hbm, ⟨51, _⟩ => ⟨S2097152x64, .f32⟩
  | .hbm, ⟨52, _⟩ => ⟨S_, .f32⟩
  | .hbm, ⟨53, _⟩ => ⟨S262144x64, .f32⟩
  | .hbm, ⟨54, _⟩ => ⟨S2097152x1, .i32⟩
  | .hbm, ⟨55, _⟩ => ⟨S262144x64, .f32⟩
  | .hbm, ⟨56, _⟩ => ⟨S1x64, .f32⟩
  | .hbm, ⟨57, _⟩ => ⟨S262144x64, .f32⟩
  | .hbm, ⟨58, _⟩ => ⟨S_, .f32⟩
  | .hbm, ⟨59, _⟩ => ⟨S64x64, .f32⟩
  | .hbm, ⟨60, _⟩ => ⟨S262144x1, .i32⟩
  | .hbm, ⟨61, _⟩ => ⟨S64x64, .f32⟩
  | .hbm, ⟨62, _⟩ => ⟨S_, .f32⟩
  | .hbm, ⟨63, _⟩ => ⟨S262144, .f32⟩
  | .hbm, ⟨64, _⟩ => ⟨S_, .f32⟩
  | .hbm, ⟨65, _⟩ => ⟨S64, .f32⟩
  | .hbm, ⟨66, _⟩ => ⟨S262144x1, .i32⟩
  | .hbm, ⟨67, _⟩ => ⟨S64, .f32⟩
  | .hbm, ⟨68, _⟩ => ⟨S64x1, .f32⟩
  | .hbm, ⟨69, _⟩ => ⟨S64x64, .f32⟩
  | .hbm, ⟨70, _⟩ => ⟨S64x64, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S1x1, .f32⟩
  | .hbm, ⟨75, _⟩ => ⟨S64x1, .f32⟩
  | .hbm, ⟨76, _⟩ => ⟨S64x1, .f32⟩
  | .hbm, ⟨77, _⟩ => ⟨S1x1, .f32⟩
  | .hbm, ⟨78, _⟩ => ⟨S64, .f32⟩
  | .hbm, ⟨79, _⟩ => ⟨S_, .f32⟩
  | .local _ .vmem, ⟨0, _⟩ => ⟨S8192x64, .f32⟩
  | .local _ .vmem, ⟨1, _⟩ => ⟨S8192x64, .f32⟩
  | .local _ .vmem, ⟨2, _⟩ => ⟨S8192x1, .f32⟩
  | .local _ .vmem, ⟨3, _⟩ => ⟨S8192x1, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S8192x64, .bf16⟩
  | .local _ .vmem, ⟨8, _⟩ => ⟨S8192x64, .bf16⟩
  | .local _ .vmem, ⟨9, _⟩ => ⟨S8192x64, .f32⟩
  | .local _ .vmem, ⟨10, _⟩ => ⟨S8192x64, .f32⟩
  | .local _ .vmem, ⟨11, _⟩ => ⟨S8192x64, .bf16⟩
  | .local _ .vmem, ⟨12, _⟩ => ⟨S8192x64, .bf16⟩
  | .local _ .vmem, ⟨13, _⟩ => ⟨S8192x1, .f32⟩
  | .local _ .vmem, ⟨14, _⟩ => ⟨S8192x1, .f32⟩
  | .local _ .vmem, ⟨15, _⟩ => ⟨S1x64, .f32⟩
  | .local _ .vmem, ⟨16, _⟩ => ⟨S8192x64, .f32⟩
  | .local _ .vmem, ⟨17, _⟩ => ⟨S8192x64, .f32⟩
  | .local _ .vmem, ⟨18, _⟩ => ⟨S64x512, .f32⟩
  | .local _ .vmem, ⟨19, _⟩ => ⟨S64x512, .f32⟩
  | .local _ .vmem, ⟨20, _⟩ => ⟨S64x64, .f32⟩
  | .local _ .vmem, ⟨21, _⟩ => ⟨S512x64, .f32⟩
  | .local _ .vmem, ⟨22, _⟩ => ⟨S1x64, .f32⟩
  | .local _ .vmem, ⟨23, _⟩ => ⟨S512x64, .f32⟩
  | .local _ .vmem, ⟨24, _⟩ => ⟨S1x64, .f32⟩
  | .local _ .vmem, ⟨25, _⟩ => ⟨S192x64, .f32⟩
  | .local _ .vmem, ⟨26, _⟩ => ⟨S1x64, .f32⟩
  | .local _ .vmem, ⟨27, _⟩ => ⟨S64x1, .f32⟩
  | .local _ .vmem, ⟨28, _⟩ => ⟨S1x1, .f32⟩
  | .local _ .vmem, ⟨29, _⟩ => ⟨S64x1, .f32⟩
  | .local _ .vmem, ⟨30, _⟩ => ⟨S64x1, .f32⟩
  | .local _ .vmem, ⟨31, _⟩ => ⟨S1x1, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_c_4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_7 : Ref sig .tc := ⟨.hbm, 62, rfl⟩
abbrev main_v33 : Ref sig .tc := ⟨.hbm, 63, rfl⟩
abbrev main_cst_8 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45_0 : Ref sig .tc := ⟨.hbm, 76, rfl⟩
abbrev main_v45_1 : Ref sig .tc := ⟨.hbm, 77, rfl⟩
abbrev main_v46 : Ref sig .tc := ⟨.hbm, 78, rfl⟩
abbrev main_v47 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc2_stg11_0 : Ref sig .tc := ⟨.vmem, 29, rfl⟩
abbrev cc2_stg12_0 : Ref sig .tc := ⟨.vmem, 30, rfl⟩
abbrev cc2_stg13_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem11_0 : DmaSem sig := 29
abbrev cc2_sem12_0 : DmaSem sig := 30
abbrev cc2_sem13_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8192x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S192x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64x1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x1 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S262144_S262144x1 : S262144.ShapeCasts S262144x1
  shapeCasts_S64_S1x64 : S64.ShapeCasts S1x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  packedbf16_S8192x64_S8192x64_0_0 : (Rect.unit (s := S8192x64) ![0, 0] S8192x64.size inb_S8192x64_S8192x64_0_0).PackedRows (EltTy.packing .bf16)
  bcast_S_S262144x64 : S_.BroadcastsInDim S262144x64 (![] : Fin 0 → Fin S262144x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S1_S1x1 : S1.ShapeCasts S1x1
  shapeCasts_S64_S64x1 : S64.ShapeCasts S64x1
  inb_S64x512_S64x512_0_0 : ∀ a, (![0, 0] : Fin 2 → Nat) a + S64x512.size a ≤ S64x512.size a
  h_S64x512 : 0 < S64x512.numel
  inb_S512x64_S512x64_0_0 : ∀ a, (![0, 0] : Fin 2 → Nat) a + S512x64.size a ≤ S512x64.size a
  h_S512x64 : 0 < S512x64.numel
  broadcasts_S1x64_S64x64 : S1x64.Broadcasts S64x64
  shapeCasts_S64x64_S64x64 : S64x64.ShapeCasts S64x64
  concatenates_S64x64_S64x64_S64x64_S64x192_d1 : Shape.Concatenates [S64x64, S64x64, S64x64] S64x192 1
  inb_S192x64_S192x64_0_0 : ∀ a, (![0, 0] : Fin 2 → Nat) a + S192x64.size a ≤ S192x64.size a
  h_S192x64 : 0 < S192x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  shapeCasts_S64x1_S64x1 : S64x1.ShapeCasts S64x1
  reduces_S64x1_S1 : S64x1.Reduces [0] S1
  shapeCasts_S64x1_S64 : S64x1.ShapeCasts S64
  shapeCasts_S1x1_S_ : S1x1.ShapeCasts S_
  gather_S500000x64_S262144x1_S262144x64_1_0_n_n_0_1_164_wf : GatherDims.WF S500000x64 S262144x1 S262144x64 [1] [0] [] [0] [] 1 ![1, 64]
  scatter_S262144_S2097152x1_S2097152_n_0_0_1_wf : ScatterDims.WF S262144 S2097152x1 S2097152 [] [0] [0] 1
  dot_S8192x64_S64x64_S8192x64_1_0_0_1_n_n_wf : DotDims.WF S8192x64 S64x64 S8192x64 [1] [0] [0] [1] [] []
  gather_S262144x64_S2097152x1_S2097152x64_1_0_n_n_0_1_164_wf : GatherDims.WF S262144x64 S2097152x1 S2097152x64 [1] [0] [] [0] [] 1 ![1, 64]
  scatter_S262144x64_S2097152x1_S2097152x64_1_0_0_1_wf : ScatterDims.WF S262144x64 S2097152x1 S2097152x64 [1] [0] [0] 1
  scatter_S64x64_S262144x1_S262144x64_1_0_0_1_wf : ScatterDims.WF S64x64 S262144x1 S262144x64 [1] [0] [0] 1
  scatter_S64_S262144x1_S262144_n_0_0_1_wf : ScatterDims.WF S64 S262144x1 S262144 [] [0] [0] 1
  dot_S64x512_S512x64_S64x64_1_0_0_1_n_n_wf : DotDims.WF S64x512 S512x64 S64x64 [1] [0] [0] [1] [] []
  dot_S64x192_S192x64_S64x64_1_0_0_1_n_n_wf : DotDims.WF S64x192 S192x64 S64x64 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S262144x64.size a
  hwx0_0 : ∀ i : grid0.Coords, EltTy.bits .f32 = 32 ∨ (Rect.block (s := S262144x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S262144x1.size a
  hwx0_1 : ∀ i : grid0.Coords, EltTy.bits .f32 = 32 ∨ (Rect.block (s := S262144x1) S8192x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x64.size a ≤ S262144x64.size a
  hwx0_5 : ∀ i : grid0.Coords, EltTy.bits .bf16 = 32 ∨ (Rect.block (s := S262144x64) S8192x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S262144x64.size a
  hwx1_0 : ∀ i : grid1.Coords, EltTy.bits .f32 = 32 ∨ (Rect.block (s := S262144x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S262144x64.size a
  hwx1_1 : ∀ i : grid1.Coords, EltTy.bits .bf16 = 32 ∨ (Rect.block (s := S262144x64) S8192x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x1.size a ≤ S262144x1.size a
  hwx1_2 : ∀ i : grid1.Coords, EltTy.bits .f32 = 32 ∨ (Rect.block (s := S262144x1) S8192x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8192x64.size a ≤ S262144x64.size a
  hwx1_4 : ∀ i : grid1.Coords, EltTy.bits .f32 = 32 ∨ (Rect.block (s := S262144x64) S8192x64.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x512.size a ≤ S64x512.size a
  hwx2_0 : ∀ i : grid2.Coords, EltTy.bits .f32 = 32 ∨ (Rect.block (s := S64x512) S64x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x512.size a ≤ S64x512.size a
  hwx2_1 : ∀ i : grid2.Coords, EltTy.bits .f32 = 32 ∨ (Rect.block (s := S64x512) S64x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S512x64.size a
  hwx2_3 : ∀ i : grid2.Coords, EltTy.bits .f32 = 32 ∨ (Rect.block (s := S512x64) S512x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x64.size a ≤ S512x64.size a
  hwx2_5 : ∀ i : grid2.Coords, EltTy.bits .f32 = 32 ∨ (Rect.block (s := S512x64) S512x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S192x64.size a ≤ S192x64.size a
  hwx2_7 : ∀ i : grid2.Coords, EltTy.bits .f32 = 32 ∨ (Rect.block (s := S192x64) S192x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x1.size a ≤ S64x1.size a
  hwx2_9 : ∀ i : grid2.Coords, EltTy.bits .f32 = 32 ∨ (Rect.block (s := S64x1) S64x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1.size a ≤ S1x1.size a
  hwx2_10 : ∀ i : grid2.Coords, EltTy.bits .f32 = 32 ∨ (Rect.block (s := S1x1) S1x1.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64x1.size a ≤ S64x1.size a
  hwx2_11 : ∀ i : grid2.Coords, EltTy.bits .f32 = 32 ∨ (Rect.block (s := S64x1) S64x1.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S64x1.size a ≤ S64x1.size a
  hwx2_12 : ∀ i : grid2.Coords, EltTy.bits .f32 = 32 ∨ (Rect.block (s := S64x1) S64x1.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x1.size a ≤ S1x1.size a
  hwx2_13 : ∀ i : grid2.Coords, EltTy.bits .f32 = 32 ∨ (Rect.block (s := S1x1) S1x1.size (cc2_transform_13 i) (hinb2_13 i)).WholeWords (EltTy.packing .f32)

variable [Facts₀]

def gather_S500000x64_S262144x1_S262144x64_1_0_n_n_0_1_164 : GatherDims S500000x64 S262144x1 S262144x64 where
  offsetDims := [1]
  collapsedSliceDims := [0]
  operandBatchingDims := []
  startIndicesBatchingDims := []
  startIndexMap := [0]
  indexVectorDim := 1
  sliceSizes := ![1, 64]
  wf := gather_S500000x64_S262144x1_S262144x64_1_0_n_n_0_1_164_wf
def scatter_S262144_S2097152x1_S2097152_n_0_0_1 : ScatterDims S262144 S2097152x1 S2097152 where
  updateWindowDims := []
  insertedWindowDims := [0]
  scatterDimsToOperandDims := [0]
  indexVectorDim := 1
  wf := scatter_S262144_S2097152x1_S2097152_n_0_0_1_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def gather_S262144x64_S2097152x1_S2097152x64_1_0_n_n_0_1_164 : GatherDims S262144x64 S2097152x1 S2097152x64 where
  offsetDims := [1]
  collapsedSliceDims := [0]
  operandBatchingDims := []
  startIndicesBatchingDims := []
  startIndexMap := [0]
  indexVectorDim := 1
  sliceSizes := ![1, 64]
  wf := gather_S262144x64_S2097152x1_S2097152x64_1_0_n_n_0_1_164_wf
def scatter_S262144x64_S2097152x1_S2097152x64_1_0_0_1 : ScatterDims S262144x64 S2097152x1 S2097152x64 where
  updateWindowDims := [1]
  insertedWindowDims := [0]
  scatterDimsToOperandDims := [0]
  indexVectorDim := 1
  wf := scatter_S262144x64_S2097152x1_S2097152x64_1_0_0_1_wf
def scatter_S64x64_S262144x1_S262144x64_1_0_0_1 : ScatterDims S64x64 S262144x1 S262144x64 where
  updateWindowDims := [1]
  insertedWindowDims := [0]
  scatterDimsToOperandDims := [0]
  indexVectorDim := 1
  wf := scatter_S64x64_S262144x1_S262144x64_1_0_0_1_wf
def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf
def dot_S64x512_S512x64_S64x64_1_0_0_1_n_n : DotDims S64x512 S512x64 S64x64 where
  lhsContracting := [1]
  rhsContracting := [0]
  lhsNonContracting := [0]
  rhsNonContracting := [1]
  lhsBatch := []
  rhsBatch := []
  wf := dot_S64x512_S512x64_S64x64_1_0_0_1_n_n_wf
def dot_S64x192_S192x64_S64x64_1_0_0_1_n_n : DotDims S64x192 S192x64 S64x64 where
  lhsContracting := [1]
  rhsContracting := [0]
  lhsNonContracting := [0]
  rhsNonContracting := [1]
  lhsBatch := []
  rhsBatch := []
  wf := dot_S64x192_S192x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_v6) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg12) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg14) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S8192x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S8192x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S8192x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S64x512.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S64x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S512x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S512x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg16) S192x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v42) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg18) S64x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v43) S1x1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v44) S64x1.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v45_0) S64x1.size cc2_transform_12 reads2_12 true true 1 stage2_12 sem2_12
    hrank2 hreads2_12 hinb2_12 nbuf2_12 (Memref.isWhole_whole _) hwx2_12 hstage2_12

abbrev win2_13 : Pipeline.Window sig grid2 :=
  Pipeline.Window.ofSpec (Memref.whole main_v45_1) S1x1.size cc2_transform_13 reads2_13 true true 1 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S64x512 : Shape := ⟨2, ![64, 512]⟩
abbrev S500000x64 : Shape := ⟨2, ![500000, 64]⟩
abbrev S262144 : Shape := ⟨1, ![262144]⟩
abbrev S2097152 : Shape := ⟨1, ![2097152]⟩
abbrev S64 : Shape := ⟨1, ![64]⟩
abbrev S512x64 : Shape := ⟨2, ![512, 64]⟩
abbrev S64x64 : Shape := ⟨2, ![64, 64]⟩
abbrev S192x64 : Shape := ⟨2, ![192, 64]⟩
abbrev S64x1 : Shape := ⟨2, ![64, 1]⟩
abbrev S1 : Shape := ⟨1, ![1]⟩
abbrev S1x64 : Shape := ⟨2, ![1, 64]⟩
abbrev S_ : Shape := ⟨0, ![]⟩
abbrev S262144x1 : Shape := ⟨2, ![262144, 1]⟩
abbrev S262144x64 : Shape := ⟨2, ![262144, 64]⟩
abbrev S2097152x1 : Shape := ⟨2, ![2097152, 1]⟩
abbrev S2097152x64 : Shape := ⟨2, ![2097152, 64]⟩
abbrev S64x192 : Shape := ⟨2, ![64, 192]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S64x512, .f32⟩
  | 1 => ⟨S64x512, .f32⟩
  | 2 => ⟨S500000x64, .f32⟩
  | 3 => ⟨S262144, .i32⟩
  | 4 => ⟨S2097152, .i32⟩
  | 5 => ⟨S2097152, .i32⟩
  | 6 => ⟨S262144, .i32⟩
  | 7 => ⟨S64, .f32⟩
  | 8 => ⟨S512x64, .f32⟩
  | 9 => ⟨S64, .f32⟩
  | 10 => ⟨S512x64, .f32⟩
  | 11 => ⟨S64, .f32⟩
  | 12 => ⟨S64x64, .f32⟩
  | 13 => ⟨S64, .f32⟩
  | 14 => ⟨S64x64, .f32⟩
  | 15 => ⟨S64, .f32⟩
  | 16 => ⟨S192x64, .f32⟩
  | 17 => ⟨S64, .f32⟩
  | 18 => ⟨S64x1, .f32⟩
  | 19 => ⟨S1, .f32⟩
  | 20 => ⟨S64x64, .f32⟩
  | 21 => ⟨S1x64, .f32⟩
  | 22 => ⟨S64x64, .f32⟩
  | 23 => ⟨S64x64, .f32⟩
  | 24 => ⟨S64x64, .f32⟩
  | 25 => ⟨S1x64, .f32⟩
  | 26 => ⟨S64x64, .f32⟩
  | 27 => ⟨S64x64, .f32⟩
  | 28 => ⟨S_, .i32⟩
  | 29 => ⟨S262144, .i32⟩
  | 30 => ⟨S262144, .i1⟩
  | 31 => ⟨S_, .i32⟩
  | 32 => ⟨S262144, .i32⟩
  | 33 => ⟨S262144, .i32⟩
  | 34 => ⟨S262144, .i32⟩
  | 35 => ⟨S262144x1, .i32⟩
  | 36 => ⟨S262144x64, .f32⟩
  | 37 => ⟨S262144x64, .f32⟩
  | 38 => ⟨S1x64, .f32⟩
  | 39 => ⟨S262144x64, .f32⟩
  | 40 => ⟨S262144x64, .f32⟩
  | 41 => ⟨S_, .f32⟩
  | 42 => ⟨S262144x64, .f32⟩
  | 43 => ⟨S262144x64, .f32⟩
  | 44 => ⟨S262144x64, .f32⟩
  | 45 => ⟨S_, .f32⟩
  | 46 => ⟨S2097152, .f32⟩
  | 47 => ⟨S_, .f32⟩
  | 48 => ⟨S262144, .f32⟩
  | 49 => ⟨S2097152x1, .i32⟩
  | 50 => ⟨S262144, .f32⟩
  | 51 => ⟨S_, .f32⟩
  | 52 => ⟨S262144, .f32⟩
  | 53 => ⟨S262144, .f32⟩
  | 54 => ⟨S262144, .f32⟩
  | 55 => ⟨S_, .i32⟩
  | 56 => ⟨S2097152, .i32⟩
  | 57 => ⟨S2097152, .i1⟩
  | 58 => ⟨S_, .i32⟩
  | 59 => ⟨S2097152, .i32⟩
  | 60 => ⟨S2097152, .i32⟩
  | 61 => ⟨S2097152, .i32⟩
  | 62 => ⟨S2097152x1, .i32⟩
  | 63 => ⟨S2097152, .f32⟩
  | 64 => ⟨S_, .i32⟩
  | 65 => ⟨S2097152, .i32⟩
  | 66 => ⟨S2097152, .i1⟩
  | 67 => ⟨S_, .i32⟩
  | 68 => ⟨S2097152, .i32⟩
  | 69 => ⟨S2097152, .i32⟩
  | 70 => ⟨S2097152, .i32⟩
  | 71 => ⟨S2097152x1, .i32⟩
  | 72 => ⟨S2097152, .f32⟩
  | 73 => ⟨S2097152, .f32⟩
  | 74 => ⟨S_, .i32⟩
  | 75 => ⟨S2097152, .i32⟩
  | 76 => ⟨S2097152, .i1⟩
  | 77 => ⟨S_, .i32⟩
  | 78 => ⟨S2097152, .i32⟩
  | 79 => ⟨S2097152, .i32⟩
  | 80 => ⟨S2097152, .i32⟩
  | 81 => ⟨S2097152x1, .i32⟩
  | 82 => ⟨S2097152x64, .f32⟩
  | 83 => ⟨S2097152x1, .f32⟩
  | 84 => ⟨S2097152x64, .f32⟩
  | 85 => ⟨S2097152x64, .f32⟩
  | 86 => ⟨S_, .f32⟩
  | 87 => ⟨S262144x64, .f32⟩
  | 88 => ⟨S2097152x1, .i32⟩
  | 89 => ⟨S262144x64, .f32⟩
  | 90 => ⟨S262144, .f32⟩
  | 91 => ⟨S262144x1, .f32⟩
  | 92 => ⟨S262144x64, .f32⟩
  | 93 => ⟨S262144x64, .f32⟩
  | 94 => ⟨S262144x64, .f32⟩
  | 95 => ⟨S1x64, .f32⟩
  | 96 => ⟨S262144x64, .f32⟩
  | 97 => ⟨S262144x64, .f32⟩
  | 98 => ⟨S_, .f32⟩
  | 99 => ⟨S262144x64, .f32⟩
  | 100 => ⟨S262144x64, .f32⟩
  | 101 => ⟨S_, .f32⟩
  | 102 => ⟨S64x64, .f32⟩
  | 103 => ⟨S262144x1, .i32⟩
  | 104 => ⟨S64x64, .f32⟩
  | 105 => ⟨S_, .f32⟩
  | 106 => ⟨S262144, .f32⟩
  | 107 => ⟨S_, .f32⟩
  | 108 => ⟨S64, .f32⟩
  | 109 => ⟨S262144x1, .i32⟩
  | 110 => ⟨S64, .f32⟩
  | 111 => ⟨S64x1, .f32⟩
  | 112 => ⟨S64x64, .f32⟩
  | 113 => ⟨S64x64, .f32⟩
  | 114 => ⟨S64x192, .f32⟩
  | 115 => ⟨S64x64, .f32⟩
  | 116 => ⟨S1x64, .f32⟩
  | 117 => ⟨S64x64, .f32⟩
  | 118 => ⟨S64x64, .f32⟩
  | 119 => ⟨S_, .f32⟩
  | 120 => ⟨S64x64, .f32⟩
  | 121 => ⟨S64x64, .f32⟩
  | 122 => ⟨S64x1, .f32⟩
  | 123 => ⟨S1x1, .f32⟩
  | 124 => ⟨S64x1, .f32⟩
  | 125 => ⟨S64x1, .f32⟩
  | 126 => ⟨S64, .f32⟩
  | 127 => ⟨S_, .f32⟩
  | _ => ⟨S64x512, .f32⟩

abbrev hbmTy0_1 (i : Nat) : BufTy := match i % 128 with
  | 0 => ⟨S64, .f32⟩
  | 1 => ⟨S64, .f32⟩
  | 2 => ⟨S64, .f32⟩
  | 3 => ⟨S64, .f32⟩
  | 4 => ⟨S64, .f32⟩
  | 5 => ⟨S64, .f32⟩
  | 6 => ⟨S64, .f32⟩
  | 7 => ⟨S64, .f32⟩
  | 8 => ⟨S64, .f32⟩
  | 9 => ⟨S_, .f32⟩
  | 10 => ⟨S_, .f32⟩
  | 11 => ⟨S_, .f32⟩
  | 12 => ⟨S_, .f32⟩
  | _ => ⟨S64x512, .f32⟩

abbrev hbmTy (i : Nat) : BufTy := match i / 128 with
  | 0 => hbmTy0_0 i
  | 1 => hbmTy0_1 i
  | _ => ⟨S64x512, .f32⟩

abbrev bufTy : (tb : Table) → Fin (tcTables nBuf tb) → BufTy
  | .hbm, ⟨i, _⟩ => hbmTy i
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_cst : Ref sig .tc := ⟨.hbm, 41, rfl⟩
abbrev main_call0_v0 : Ref sig .tc := ⟨.hbm, 42, rfl⟩
abbrev main_v19 : Ref sig .tc := ⟨.hbm, 43, rfl⟩
abbrev main_v20 : Ref sig .tc := ⟨.hbm, 44, rfl⟩
abbrev main_cst : Ref sig .tc := ⟨.hbm, 45, rfl⟩
abbrev main_v21 : Ref sig .tc := ⟨.hbm, 46, rfl⟩
abbrev main_cst_1 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_2 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_3 : Ref sig .tc := ⟨.hbm, 55, rfl⟩
abbrev main_v28 : Ref sig .tc := ⟨.hbm, 56, rfl⟩
abbrev main_v29 : Ref sig .tc := ⟨.hbm, 57, rfl⟩
abbrev main_c_4 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_5 : Ref sig .tc := ⟨.hbm, 64, rfl⟩
abbrev main_v35 : Ref sig .tc := ⟨.hbm, 65, rfl⟩
abbrev main_v36 : Ref sig .tc := ⟨.hbm, 66, rfl⟩
abbrev main_c_6 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_7 : Ref sig .tc := ⟨.hbm, 74, rfl⟩
abbrev main_v43 : Ref sig .tc := ⟨.hbm, 75, rfl⟩
abbrev main_v44 : Ref sig .tc := ⟨.hbm, 76, rfl⟩
abbrev main_c_8 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_9 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_call1_cst : Ref sig .tc := ⟨.hbm, 98, rfl⟩
abbrev main_call1_v0 : Ref sig .tc := ⟨.hbm, 99, rfl⟩
abbrev main_v64 : Ref sig .tc := ⟨.hbm, 100, rfl⟩
abbrev main_cst_10 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_11 : Ref sig .tc := ⟨.hbm, 105, rfl⟩
abbrev main_v68 : Ref sig .tc := ⟨.hbm, 106, rfl⟩
abbrev main_cst_12 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_call2_cst : Ref sig .tc := ⟨.hbm, 119, rfl⟩
abbrev main_call2_v0 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_13 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_14 : Ref sig .tc := ⟨.hbm, 137, rfl⟩
abbrev main_v95 : Ref sig .tc := ⟨.hbm, 138, rfl⟩
abbrev main_cst_15 : Ref sig .tc := ⟨.hbm, 139, rfl⟩
abbrev main_v96 : Ref sig .tc := ⟨.hbm, 140, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S262144 : S_.BroadcastsInDim S262144 (![] : Fin 0 → Fin S262144.rank)
  bcast_S262144_S262144x1_0 : S262144.BroadcastsInDim S262144x1 (![0] : Fin 1 → Fin S262144x1.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S2097152x1_S2097152x64_0_1 : S2097152x1.BroadcastsInDim S2097152x64 (![0, 1] : Fin 2 → Fin S2097152x64.rank)
  bcast_S262144x1_S262144x64_0_1 : S262144x1.BroadcastsInDim S262144x64 (![0, 1] : Fin 2 → Fin S262144x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  concatenates_S64x64_S64x64_S64x64_S64x192_d1 : Shape.Concatenates [S64x64, S64x64, S64x64] S64x192 1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  reducesTo_S64_S_d0 : S64.ReducesTo [0] S_
  h_S_ : 0 < S_.numel
  dot_S64x512_S512x64_S64x64_1_0_0_1_n_n_wf : DotDims.WF S64x512 S512x64 S64x64 [1] [0] [0] [1] [] []
  gather_S500000x64_S262144x1_S262144x64_1_0_n_n_0_1_164_wf : GatherDims.WF S500000x64 S262144x1 S262144x64 [1] [0] [] [0] [] 1 ![1, 64]
  dot_S262144x64_S64x64_S262144x64_1_0_0_1_n_n_wf : DotDims.WF S262144x64 S64x64 S262144x64 [1] [0] [0] [1] [] []
  scatter_S262144_S2097152x1_S2097152_n_0_0_1_wf : ScatterDims.WF S262144 S2097152x1 S2097152 [] [0] [0] 1
  gather_S262144_S2097152x1_S2097152_n_0_n_n_0_1_1_wf : GatherDims.WF S262144 S2097152x1 S2097152 [] [0] [] [0] [] 1 ![1]
  gather_S262144x64_S2097152x1_S2097152x64_1_0_n_n_0_1_164_wf : GatherDims.WF S262144x64 S2097152x1 S2097152x64 [1] [0] [] [0] [] 1 ![1, 64]
  scatter_S262144x64_S2097152x1_S2097152x64_1_0_0_1_wf : ScatterDims.WF S262144x64 S2097152x1 S2097152x64 [1] [0] [0] 1
  scatter_S64x64_S262144x1_S262144x64_1_0_0_1_wf : ScatterDims.WF S64x64 S262144x1 S262144x64 [1] [0] [0] 1
  scatter_S64_S262144x1_S262144_n_0_0_1_wf : ScatterDims.WF S64 S262144x1 S262144 [] [0] [0] 1
  dot_S64x192_S192x64_S64x64_1_0_0_1_n_n_wf : DotDims.WF S64x192 S192x64 S64x64 [1] [0] [0] [1] [] []
  dot_S64x64_S64x1_S64x1_1_0_0_1_n_n_wf : DotDims.WF S64x64 S64x1 S64x1 [1] [0] [0] [1] [] []

variable [Facts₀]

def dot_S64x512_S512x64_S64x64_1_0_0_1_n_n : DotDims S64x512 S512x64 S64x64 where
  lhsContracting := [1]
  rhsContracting := [0]
  lhsNonContracting := [0]
  rhsNonContracting := [1]
  lhsBatch := []
  rhsBatch := []
  wf := dot_S64x512_S512x64_S64x64_1_0_0_1_n_n_wf
def gather_S500000x64_S262144x1_S262144x64_1_0_n_n_0_1_164 : GatherDims S500000x64 S262144x1 S262144x64 where
  offsetDims := [1]
  collapsedSliceDims := [0]
  operandBatchingDims := []
  startIndicesBatchingDims := []
  startIndexMap := [0]
  indexVectorDim := 1
  sliceSizes := ![1, 64]
  wf := gather_S500000x64_S262144x1_S262144x64_1_0_n_n_0_1_164_wf
def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf
def scatter_S262144_S2097152x1_S2097152_n_0_0_1 : ScatterDims S262144 S2097152x1 S2097152 where
  updateWindowDims := []
  insertedWindowDims := [0]
  scatterDimsToOperandDims := [0]
  indexVectorDim := 1
  wf := scatter_S262144_S2097152x1_S2097152_n_0_0_1_wf
def gather_S262144_S2097152x1_S2097152_n_0_n_n_0_1_1 : GatherDims S262144 S2097152x1 S2097152 where
  offsetDims := []
  collapsedSliceDims := [0]
  operandBatchingDims := []
  startIndicesBatchingDims := []
  startIndexMap := [0]
  indexVectorDim := 1
  sliceSizes := ![1]
  wf := gather_S262144_S2097152x1_S2097152_n_0_n_n_0_1_1_wf
def gather_S262144x64_S2097152x1_S2097152x64_1_0_n_n_0_1_164 : GatherDims S262144x64 S2097152x1 S2097152x64 where
  offsetDims := [1]
  collapsedSliceDims := [0]
  operandBatchingDims := []
  startIndicesBatchingDims := []
  startIndexMap := [0]
  indexVectorDim := 1
  sliceSizes := ![1, 64]
  wf := gather_S262144x64_S2097152x1_S2097152x64_1_0_n_n_0_1_164_wf
def scatter_S262144x64_S2097152x1_S2097152x64_1_0_0_1 : ScatterDims S262144x64 S2097152x1 S2097152x64 where
  updateWindowDims := [1]
  insertedWindowDims := [0]
  scatterDimsToOperandDims := [0]
  indexVectorDim := 1
  wf := scatter_S262144x64_S2097152x1_S2097152x64_1_0_0_1_wf
def scatter_S64x64_S262144x1_S262144x64_1_0_0_1 : ScatterDims S64x64 S262144x1 S262144x64 where
  updateWindowDims := [1]
  insertedWindowDims := [0]
  scatterDimsToOperandDims := [0]
  indexVectorDim := 1
  wf := scatter_S64x64_S262144x1_S262144x64_1_0_0_1_wf
def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf
def dot_S64x192_S192x64_S64x64_1_0_0_1_n_n : DotDims S64x192 S192x64 S64x64 where
  lhsContracting := [1]
  rhsContracting := [0]
  lhsNonContracting := [0]
  rhsNonContracting := [1]
  lhsBatch := []
  rhsBatch := []
  wf := dot_S64x192_S192x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.Stages.lean ====
/-
  The kernel program's argument arrays under their literal types, and the reference program's intermediate arrays
  — its node features after the two dense layers, the nodes' normalising factors, the nodes' new states, the pooled
  graph features, the logits and the loss — as functions of those arguments.  Every later module states what the
  kernel program's buffers hold against these.
-/
import proofs.«416833_j33122787786760_3_alg».proof.Proof.Gen.KernelIdeal
import proofs.«416833_j33122787786760_3_alg».proof.Proof.Gen.ReferenceIdeal.Read
import Idealize.ShloMosaic.Lib.ValueIdx

noncomputable section

namespace Cert.KernelIdeal.Stages

open Idealize.ShloMosaic Idealize.ShloMosaic.TcCoe Idealize.SL.Sem Idealize.ShloMosaic.ValueIdx
open Cert.KernelIdeal

variable (m : (ℓ : Loc nD τ sig) → Buf (Elt Ideal) ℓ) (c : Dev nD)

/-- Argument 0 as launched. -/
abbrev a0 : S64x512.Idx → EReal := m ((c.tc : Thread nD τ).loc main_arg0)
/-- Argument 1 as launched. -/
abbrev a1 : S64x512.Idx → EReal := m ((c.tc : Thread nD τ).loc main_arg1)
/-- Argument 2 as launched. -/
abbrev a2 : S500000x64.Idx → EReal := m ((c.tc : Thread nD τ).loc main_arg2)
/-- Argument 3 as launched. -/
abbrev a3 : S262144.Idx → BitVec 32 := m ((c.tc : Thread nD τ).loc main_arg3)
/-- Argument 4 as launched. -/
abbrev a4 : S2097152.Idx → BitVec 32 := m ((c.tc : Thread nD τ).loc main_arg4)
/-- Argument 5 as launched. -/
abbrev a5 : S2097152.Idx → BitVec 32 := m ((c.tc : Thread nD τ).loc main_arg5)
/-- Argument 6 as launched. -/
abbrev a6 : S262144.Idx → BitVec 32 := m ((c.tc : Thread nD τ).loc main_arg6)
/-- Argument 7 as launched. -/
abbrev a7 : S64.Idx → EReal := m ((c.tc : Thread nD τ).loc main_arg7)
/-- Argument 8 as launched. -/
abbrev a8 : S512x64.Idx → EReal := m ((c.tc : Thread nD τ).loc main_arg8)
/-- Argument 9 as launched. -/
abbrev a9 : S64.Idx → EReal := m ((c.tc : Thread nD τ).loc main_arg9)
/-- Argument 10 as launched. -/
abbrev a10 : S512x64.Idx → EReal := m ((c.tc : Thread nD τ).loc main_arg10)
/-- Argument 11 as launched. -/
abbrev a11 : S64.Idx → EReal := m ((c.tc : Thread nD τ).loc main_arg11)
/-- Argument 12 as launched. -/
abbrev a12 : S64x64.Idx → EReal := m ((c.tc : Thread nD τ).loc main_arg12)
/-- Argument 13 as launched. -/
abbrev a13 : S64.Idx → EReal := m ((c.tc : Thread nD τ).loc main_arg13)
/-- Argument 14 as launched. -/
abbrev a14 : S64x64.Idx → EReal := m ((c.tc : Thread nD τ).loc main_arg14)
/-- Argument 15 as launched. -/
abbrev a15 : S64.Idx → EReal := m ((c.tc : Thread nD τ).loc main_arg15)
/-- Argument 16 as launched. -/
abbrev a16 : S192x64.Idx → EReal := m ((c.tc : Thread nD τ).loc main_arg16)
/-- Argument 17 as launched. -/
abbrev a17 : S64.Idx → EReal := m ((c.tc : Thread nD τ).loc main_arg17)
/-- Argument 18 as launched. -/
abbrev a18 : S64x1.Idx → EReal := m ((c.tc : Thread nD τ).loc main_arg18)
/-- Argument 19 as launched. -/
abbrev a19 : S1.Idx → EReal := m ((c.tc : Thread nD τ).loc main_arg19)

/-- The reference's node features after the projection, the rectifier and the graph-convolution weight: [nodes × 64]. -/
abbrev refXW : S262144x64.Idx → EReal := Cert.ReferenceIdeal.Read.val_main_v20 (F := Ideal) (a2 m c) (a3 m c) (a12 m c) (a13 m c) (a14 m c)
/-- The reference's normalising factor of each node: the inverse square root of (its in-degree plus one). -/
abbrev refDinv : S262144.Idx → EReal := Cert.ReferenceIdeal.Read.val_main_v27 (F := Ideal) (a5 m c)
/-- The reference's new node states: aggregated messages plus the self term plus the bias, rectified. -/
abbrev refH : S262144x64.Idx → EReal := Cert.ReferenceIdeal.Read.val_main_v64 (F := Ideal) (a2 m c) (a3 m c) (a4 m c) (a5 m c) (a12 m c) (a13 m c) (a14 m c) (a15 m c)
/-- The reference's pooled graph features: each graph's mean node state. -/
abbrev refGF : S64x64.Idx → EReal := Cert.ReferenceIdeal.Read.val_main_v74 (F := Ideal) (a2 m c) (a3 m c) (a4 m c) (a5 m c) (a6 m c) (a12 m c) (a13 m c) (a14 m c) (a15 m c)
/-- The reference's logits, one per graph. -/
abbrev refLogits : S64.Idx → EReal := Cert.ReferenceIdeal.Read.val_main_v85 (F := Ideal) (a0 m c) (a1 m c) (a2 m c) (a3 m c) (a4 m c) (a5 m c) (a6 m c) (a8 m c) (a9 m c) (a10 m c) (a11 m c) (a12 m c) (a13 m c) (a14 m c) (a15 m c) (a16 m c) (a17 m c) (a18 m c) (a19 m c)
/-- The reference's loss. -/
abbrev refLoss : S_.Idx → EReal := Cert.ReferenceIdeal.Read.val_main_v96 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c)

/-- What the kernel program keeps per node instead of the feature: the feature times the node's own factor. -/
def scaled : S262144x64.Idx → EReal := fun i => refXW m c i * refDinv m c (ix1 (i 0))

theorem scaled_apply (p : Fin 262144) (q : Fin 64) : scaled m c (ix2 p q) = refXW m c (ix2 p q) * refDinv m c (ix1 p) := rfl

end Cert.KernelIdeal.Stages

end
-- ==== Proof.LibScatterGather.lean ====
/-
  Three host operations read at one element, for any extents: a gather of whole rows of a matrix at a column of row
  numbers, and an accumulating scatter into a vector or into the rows of a matrix at a column of positions.

  A gather clamps the row number it reads (signed) into the matrix; a scatter reads the position signed and does NOT
  clamp it: an update whose position is outside the target is dropped.  At the exact (extended-real) instance the
  accumulating scatter is the target's entry plus the sum of the updates that land on it.
-/
import Idealize.ShloMosaic.PureOps.Ideal
import Idealize.ShloMosaic.PureOps.Contract
import Idealize.ShloMosaic.Lib.ValueIdx
import Idealize.ShloMosaic.Lib.StableHlo.Predicate

noncomputable section

open scoped BigOperators

namespace Cert.LibSG

open Idealize.ShloMosaic Idealize.ShloMosaic.ValueIdx Idealize.ShloMosaic.StableHlo.Predicate

/-- Rows gathered from an [N × D] matrix at an [n × 1] column of row numbers: entry (p, f) of the result is the matrix's
    entry (row p's number read signed and clamped into [0, N − 1], f). -/
theorem gather_rows {α : Type} {N D n w : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![n, 1]⟩ w) (p : Fin n) (f : Fin D) (hN : 0 < N) :
    Host.gather d x idx (ix2 p f) = x (ix2 (⟨min (idx (ixP p)).toInt.toNat (N - 1), by omega⟩ : Fin N) f) := by
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨2, ![N, D]⟩) (si := ⟨2, ![n, 1]⟩) (t := ⟨2, ![n, D]⟩) [1] [0] [] [] [0] 1 ![1, D] wf).siIdx (ix2 p f) c = ixP p := by
      intro c
      funext b; refine Fin.ext ?_
      match b with
      | ⟨0, _⟩ => rfl
      | ⟨1, _⟩ => exact Nat.lt_one_iff.mp c.isLt
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ [0] by decide)]
    simp only [Nat.zero_add]
    rfl

/-- An update lands on operand index i exactly when, on every axis, its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · next h =>
    constructor
    · intro e a
      have e' := congrArg (fun g : s.Idx => (g a).val) (Option.some.inj e)
      simp only at e'
      have := h a
      omega
    · intro e
      congr 1
      funext a
      refine Fin.ext ?_
      have := e a
      simp only
      omega
  · next h =>
    constructor
    · intro e; cases e
    · intro e
      exfalso
      apply h
      intro a
      have := e a
      have := (i a).isLt
      omega

/-- An accumulating scatter into an [N] vector at an [n × 1] column of positions, at the exact instance: entry i is the
    target's entry plus the sum of the updates whose position, read signed, is i. -/
theorem scatterAdd_flat {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![n, 1]⟩ w) (upd : FVec Ideal ⟨1, ![n]⟩ .f32) (i : Fin N) :
    Host.scatterAdd (F := Ideal) d x idx upd (ix1 i)
      = x (ix1 i) + ∑ e ∈ Finset.univ.filter (fun e : Fin n => (idx (ixP e)).toInt = (i.val : ℤ)), upd (ix1 e) := by
  obtain ⟨uw, iw, sd, iv, wf⟩ := d
  dsimp only at huw hiw hsd hivd
  subst huw hiw hsd hivd
  have hstart : ∀ j : (⟨1, ![n]⟩ : Shape).Idx,
      (ScatterDims.mk (s := ⟨1, ![N]⟩) (si := ⟨2, ![n, 1]⟩) (u := ⟨1, ![n]⟩) [] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hwin : ∀ j : (⟨1, ![n]⟩ : Shape).Idx,
      (ScatterDims.mk (s := ⟨1, ![N]⟩) (si := ⟨2, ![n, 1]⟩) (u := ⟨1, ![n]⟩) [] [0] [0] 1 wf).window j 0 = 0 := by
    intro j
    unfold ScatterDims.window
    exact dif_neg (show (0 : Fin 1) ∉ (List.finRange 1).filter (fun a => a ∉ [(0 : Fin 1)]) by decide)
  have hiff : ∀ j : (⟨1, ![n]⟩ : Shape).Idx,
      (ScatterDims.mk (s := ⟨1, ![N]⟩) (si := ⟨2, ![n, 1]⟩) (u := ⟨1, ![n]⟩) [] [0] [0] 1 wf).resultIdx? j idx = some (ix1 i)
        ↔ (idx (ixP (j 0))).toInt = (i.val : ℤ) := by
    intro j
    rw [resultIdx?_eq_some_iff, Fin.forall_fin_one, hstart, hwin]
    simp
  show x (ix1 i) + _ = _
  congr 1
  refine Finset.sum_nbij' (fun j => j 0) (fun e => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg upd (eq_ix1 j)

/-- An accumulating scatter of [n × D] rows into the rows of an [N × D] matrix at an [n × 1] column of row positions, at
    the exact instance: entry (i, f) is the target's entry plus the sum, over the update rows whose position read signed
    is i, of their entry f. -/
theorem scatterAdd_rows {N D n w : ℕ} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : FVec Ideal ⟨2, ![N, D]⟩ .f32) (idx : IVec ⟨2, ![n, 1]⟩ w) (upd : FVec Ideal ⟨2, ![n, D]⟩ .f32) (i : Fin N) (f : Fin D) :
    Host.scatterAdd (F := Ideal) d x idx upd (ix2 i f)
      = x (ix2 i f) + ∑ e ∈ Finset.univ.filter (fun e : Fin n => (idx (ixP e)).toInt = (i.val : ℤ)), upd (ix2 e f) := by
  obtain ⟨uw, iw, sd, iv, wf⟩ := d
  dsimp only at huw hiw hsd hivd
  subst huw hiw hsd hivd
  have hstart0 : ∀ j : (⟨2, ![n, D]⟩ : Shape).Idx,
      (ScatterDims.mk (s := ⟨2, ![N, D]⟩) (si := ⟨2, ![n, 1]⟩) (u := ⟨2, ![n, D]⟩) [1] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hstart1 : ∀ j : (⟨2, ![n, D]⟩ : Shape).Idx,
      (ScatterDims.mk (s := ⟨2, ![N, D]⟩) (si := ⟨2, ![n, 1]⟩) (u := ⟨2, ![n, D]⟩) [1] [0] [0] 1 wf).start j idx 1 = 0 := by
    intro j
    unfold ScatterDims.start
    rw [dif_neg (show (1 : Fin 2) ∉ [0] by decide)]
  have hwin0 : ∀ j : (⟨2, ![n, D]⟩ : Shape).Idx,
      (ScatterDims.mk (s := ⟨2, ![N, D]⟩) (si := ⟨2, ![n, 1]⟩) (u := ⟨2, ![n, D]⟩) [1] [0] [0] 1 wf).window j 0 = 0 := by
    intro j
    unfold ScatterDims.window
    exact dif_neg (show (0 : Fin 2) ∉ (List.finRange 2).filter (fun a => a ∉ [(0 : Fin 2)]) by decide)
  have hwin1 : ∀ j : (⟨2, ![n, D]⟩ : Shape).Idx,
      (ScatterDims.mk (s := ⟨2, ![N, D]⟩) (si := ⟨2, ![n, 1]⟩) (u := ⟨2, ![n, D]⟩) [1] [0] [0] 1 wf).window j 1 = (j 1).val := by
    intro j
    unfold ScatterDims.window
    exact (dif_pos (show (1 : Fin 2) ∈ (List.finRange 2).filter (fun a => a ∉ [(0 : Fin 2)]) by decide)).trans rfl
  have hiff : ∀ j : (⟨2, ![n, D]⟩ : Shape).Idx,
      (ScatterDims.mk (s := ⟨2, ![N, D]⟩) (si := ⟨2, ![n, 1]⟩) (u := ⟨2, ![n, D]⟩) [1] [0] [0] 1 wf).resultIdx? j idx = some (ix2 i f)
        ↔ (idx (ixP (j 0))).toInt = (i.val : ℤ) ∧ j 1 = f := by
    intro j
    rw [resultIdx?_eq_some_iff, Fin.forall_fin_two, hstart0, hwin0, hstart1, hwin1]
    show (idx (ixP (j 0))).toInt + ((0 : ℕ) : ℤ) = (i.val : ℤ) ∧ (0 : ℤ) + ((j 1).val : ℤ) = (f.val : ℤ) ↔ _
    constructor
    · rintro ⟨h0, h1⟩
      exact ⟨by omega, Fin.ext (by omega)⟩
    · rintro ⟨h0, h1⟩
      subst h1
      exact ⟨by omega, by omega⟩
  show x (ix2 i f) + _ = _
  congr 1
  refine Finset.sum_nbij' (fun j => j 0) (fun e => ix2 e f) ?_ ?_ ?_ ?_ ?_
  · intro j hj
    exact Finset.mem_filter.2 ⟨Finset.mem_univ _, ((hiff j).1 (Finset.mem_filter.1 hj).2).1⟩
  · intro e he
    exact Finset.mem_filter.2 ⟨Finset.mem_univ _, (hiff (ix2 e f)).2 ⟨(Finset.mem_filter.1 he).2, rfl⟩⟩
  · intro j hj
    have h1 := ((hiff j).1 (Finset.mem_filter.1 hj).2).2
    rw [← h1]
    exact (eq_ix2 j).symm
  · intro e _
    rfl
  · intro j hj
    have h1 := ((hiff j).1 (Finset.mem_filter.1 hj).2).2
    rw [← h1]
    exact congrArg upd (eq_ix2 j)

end Cert.LibSG

end
-- ==== Proof.Edges.lean ====
/-
  The edges of the graph as both programs read them.

  An edge's sender word is wrapped (a negative word has the node count added) and then clamped into the node range
  when a row is gathered at it; its receiver word is read as it is by the accumulating scatters, which drop an edge
  whose receiver is outside the node range.  So the edges that contribute to node p are exactly those whose receiver
  word, read signed, is p — and for those the wrapped, clamped receiver is p itself.
-/
import proofs.«416833_j33122787786760_3_alg».proof.Proof.Stages
import proofs.«416833_j33122787786760_3_alg».proof.Proof.LibScatterGather
import Idealize.ShloMosaic.Lib.StableHlo.Predicate

set_option maxRecDepth 16384

noncomputable section

namespace Cert.KernelIdeal.Edges

open Idealize.ShloMosaic Idealize.ShloMosaic.TcCoe Idealize.SL.Sem Idealize.ShloMosaic.ValueIdx
open Idealize.ShloMosaic.StableHlo.Predicate
open Cert.KernelIdeal Cert.KernelIdeal.Stages

variable (m : (ℓ : Loc nD τ sig) → Buf (Elt Ideal) ℓ) (c : Dev nD)

/-- The column of wrapped sender words both programs gather rows with. -/
abbrev srcCol : IVec S2097152x1 32 := Cert.ReferenceIdeal.Read.val_main_v48 (F := Ideal) (a4 m c)
/-- The column of wrapped receiver words the reference gathers the receiver's factor with. -/
abbrev dstColW : IVec S2097152x1 32 := Cert.ReferenceIdeal.Read.val_main_v40 (F := Ideal) (a5 m c)
/-- The column of receiver words, as launched, that the accumulating scatters place an edge's message with. -/
abbrev dstCol : IVec S2097152x1 32 := Cert.ReferenceIdeal.Read.val_main_v54 (F := Ideal) (a5 m c)

/-- The node whose row edge e's sender word gathers: the wrapped word read signed, clamped into the node range. -/
def srow (e : Fin 2097152) : Fin 262144 := ⟨min ((srcCol m c) (ixP e)).toInt.toNat (262144 - 1), by omega⟩
/-- The node whose factor edge e's receiver word gathers. -/
def drow (e : Fin 2097152) : Fin 262144 := ⟨min ((dstColW m c) (ixP e)).toInt.toNat (262144 - 1), by omega⟩
/-- The edges whose message lands on node p. -/
def landing (p : Fin 262144) : Finset (Fin 2097152) :=
  Finset.univ.filter fun e => ((dstCol m c) (ixP e)).toInt = (p.val : ℤ)

/-- An edge that lands on node p gathers node p's factor: its receiver word is non-negative, so the wrap leaves it,
    and it is below the node count, so the clamp leaves it. -/
theorem drow_of_landing {p : Fin 262144} {e : Fin 2097152} (h : e ∈ landing m c p) : drow m c e = p := by
  have hw : ((dstCol m c) (ixP e)).toInt = (p.val : ℤ) := (Finset.mem_filter.mp h).2
  -- the receiver column's entry e is the launched receiver word of edge e
  have hd : (dstCol m c) (ixP e) = a5 m c (ix1 e) := by
    show Cert.ReferenceIdeal.Read.val_main_v54 (F := Ideal) (a5 m c) (ixP e) = _
    rw [Cert.ReferenceIdeal.Read.val_main_v54_apply]
    exact congrArg (a5 m c) (funext fun a => match a with | ⟨0, _⟩ => rfl)
  rw [hd] at hw
  -- read signed, that word is not below zero
  have h0 : (0#32 : BitVec 32).toInt = 0 := by decide
  have hlt : IntOp.cmpi .slt (a5 m c (ix1 e)) 0#32 = 0#1 := by
    show BitVec.ofBool ((a5 m c (ix1 e)).slt 0#32) = 0#1
    have hs : (a5 m c (ix1 e)).slt 0#32 = false := by
      unfold BitVec.slt
      exact decide_eq_false (by rw [h0, hw]; omega)
    rw [hs]; rfl
  -- so the wrap leaves it as it is
  have hdw : (dstColW m c) (ixP e) = a5 m c (ix1 e) := by
    show Cert.ReferenceIdeal.Read.val_main_v40 (F := Ideal) (a5 m c) (ixP e) = _
    rw [Cert.ReferenceIdeal.Read.val_main_v40_apply]
    have hidx : Cert.ReferenceIdeal.Read.idx_main_v40 (ixP e) = ix1 e := funext fun a => match a with | ⟨0, _⟩ => rfl
    rw [hidx, Cert.ReferenceIdeal.Read.val_main_v39_apply, Cert.ReferenceIdeal.Read.val_main_v36_apply,
      Cert.ReferenceIdeal.Read.val_main_v35_apply, Cert.ReferenceIdeal.Read.val_main_c_5_apply, hlt, select_zero]
  -- and the clamp too, the word being a node's number
  apply Fin.ext
  show min ((dstColW m c) (ixP e)).toInt.toNat (262144 - 1) = p.val
  rw [hdw, hw, Int.toNat_natCast]
  have := p.isLt
  omega

end Cert.KernelIdeal.Edges

end
-- ==== Proof.HostValues.lean ====
/-
  What the kernel program's buffers hold at the boundaries between its host stretches and its three regions.

  Between the regions the kernel program runs the same host operations as the reference — the gather of the
  feature rows, the in-degree count and its inverse square root, the accumulating scatter over the edges, the
  per-graph mean — on its own intermediate arrays.  Each buffer a region reads is therefore the reference's
  operation applied to what the kernel program holds at that point, an argument buffer holds what it was launched
  with at every boundary, and a region's output buffer holds what the region's last write-back leaves.
-/
import proofs.«416833_j33122787786760_3_alg».proof.Proof.Stages
import proofs.«416833_j33122787786760_3_alg».proof.Proof.Edges
import proofs.«416833_j33122787786760_3_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostValues

open Idealize.ShloMosaic Idealize.ShloMosaic.TcCoe Idealize.SL.Sem Idealize.ShloMosaic.ValueIdx Idealize.ShloMosaic.StableHlo
open Cert.KernelIdeal Cert.KernelIdeal.Gen Cert.KernelIdeal.Stages

variable (m : (ℓ : Loc nD τ sig) → Buf (Elt Ideal) ℓ) (ρ : Dev nD → PrngReg) (c : Dev nD)

/-- A vector kept as a one-lane column, read at row p: the vector's entry p. -/
theorem col_apply {n : ℕ} (x : (⟨1, ![n]⟩ : Shape).Idx → EReal) (h : (⟨1, ![n]⟩ : Shape).ShapeCasts ⟨2, ![n, 1]⟩) (p : Fin n) (u : Fin 1) :
    shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## Entering the first region -/

/-- The gathered feature rows are the reference's. -/
theorem V1_feat : (V1 m ρ c main_v6 : S262144x64.Idx → EReal) = Cert.ReferenceIdeal.Read.val_main_v14 (F := Ideal) (a2 m c) (a3 m c) := by
  show StableHlo.after hostOps0 (W0 m ρ c) (Proc.devRef .tc main_v6) = _
  after_results
  rfl

/-- The column of factors the regions read: entry p is node p's factor. -/
theorem V1_dcol (p : Fin 262144) : (V1 m ρ c main_v14 : S262144x1.Idx → EReal) (ix2 p 0) = refDinv m c (ix1 p) := by
  have e : (V1 m ρ c main_v14 : S262144x1.Idx → EReal) = shapeCast S262144x1 (refDinv m c) Facts₀.shapeCasts_S262144_S262144x1 := by
    show StableHlo.after hostOps0 (W0 m ρ c) (Proc.devRef .tc main_v14) = _
    after_results
    rfl
  rw [e]
  exact col_apply _ _ p 0

/-- The projection's bias as a row: entry k is the bias vector's entry k. -/
theorem V1_brow (k : Fin 64) : (V1 m ρ c main_v15 : S1x64.Idx → EReal) (ix2 0 k) = a13 m c (ix1 k) := by
  have e : (V1 m ρ c main_v15 : S1x64.Idx → EReal) = shapeCast S1x64 (a13 m c) Facts₀.shapeCasts_S64_S1x64 := by
    show StableHlo.after hostOps0 (W0 m ρ c) (Proc.devRef .tc main_v15) = _
    after_results
    rfl
  rw [e]
  exact shapeCast_a_1a_apply _ _ 0 k

theorem V1_wProj : (V1 m ρ c main_arg12 : S64x64.Idx → EReal) = a12 m c := by
  show StableHlo.after hostOps0 (W0 m ρ c) (Proc.devRef .tc main_arg12) = _
  after_results

theorem V1_wConv : (V1 m ρ c main_arg14 : S64x64.Idx → EReal) = a14 m c := by
  show StableHlo.after hostOps0 (W0 m ρ c) (Proc.devRef .tc main_arg14) = _
  after_results

/-! ## Leaving the first region, entering the second -/

/-- The first region's output buffer holds what its last write-back leaves. -/
theorem V2_xws : (V2 m ρ c main_v16 : S262144x64.Idx → EReal) = (dat0 (V1 m ρ) c).arrAt 5 cfg0.N :=
  W2_arr m ρ c 5

/-- An argument buffer is as launched when the second host stretch starts. -/
theorem W2_arg4 : (W2 m ρ c (Proc.devRef .tc main_arg4) : S2097152.Idx → BitVec 32) = a4 m c :=
  (W2_of_ne m ρ c main_arg4 (by decide)).trans (by
    show StableHlo.after hostOps0 (W0 m ρ c) (Proc.devRef .tc main_arg4) = _
    after_results)
theorem W2_arg5 : (W2 m ρ c (Proc.devRef .tc main_arg5) : S2097152.Idx → BitVec 32) = a5 m c :=
  (W2_of_ne m ρ c main_arg5 (by decide)).trans (by
    show StableHlo.after hostOps0 (W0 m ρ c) (Proc.devRef .tc main_arg5) = _
    after_results)
theorem W2_arg15 : (W2 m ρ c (Proc.devRef .tc main_arg15) : S64.Idx → EReal) = a15 m c :=
  (W2_of_ne m ρ c main_arg15 (by decide)).trans (by
    show StableHlo.after hostOps0 (W0 m ρ c) (Proc.devRef .tc main_arg15) = _
    after_results)

set_option maxHeartbeats 4000000 in
/-- The aggregated messages: the reference's accumulating scatter over the edges, of the rows of the first region's
    output gathered at the senders. -/
theorem V3_agg : (V3 m ρ c main_v27 : S262144x64.Idx → EReal)
    = Host.scatterAdd (F := Ideal) (φ := .f32) Cert.ReferenceIdeal.scatter_S262144x64_S2097152x1_S2097152x64_1_0_0_1 (Cert.ReferenceIdeal.Read.val_main_v53 (F := Ideal))
        (Edges.dstCol m c)
        (Host.gather Cert.ReferenceIdeal.gather_S262144x64_S2097152x1_S2097152x64_1_0_n_n_0_1_164 (V2 m ρ c main_v16 : S262144x64.Idx → EReal) (Edges.srcCol m c)) := by
  show StableHlo.after hostOps1 (W2 m ρ c) (Proc.devRef .tc main_v27) = _
  after_results
  rw [W2_arg4 m ρ c, W2_arg5 m ρ c]
  rfl

/-- The first region's output is still there when the second region starts. -/
theorem V3_xws : (V3 m ρ c main_v16 : S262144x64.Idx → EReal) = V2 m ρ c main_v16 := by
  show StableHlo.after hostOps1 (W2 m ρ c) (Proc.devRef .tc main_v16) = _
  after_results

/-- So is the column of factors. -/
theorem V3_dcol (p : Fin 262144) : (V3 m ρ c main_v14 : S262144x1.Idx → EReal) (ix2 p 0) = refDinv m c (ix1 p) := by
  have e : (V3 m ρ c main_v14 : S262144x1.Idx → EReal) = V1 m ρ c main_v14 := by
    show StableHlo.after hostOps1 (W2 m ρ c) (Proc.devRef .tc main_v14) = _
    after_results
    exact (W2_arr m ρ c 1).trans (((dat0 (V1 m ρ) c).arrAt_in 1 rfl _).trans (A_eq0 (V1 m ρ) c 1))
  rw [e]
  exact V1_dcol m ρ c p

/-- The graph convolution's bias as a row. -/
theorem V3_brow (k : Fin 64) : (V3 m ρ c main_v28 : S1x64.Idx → EReal) (ix2 0 k) = a15 m c (ix1 k) := by
  have e : (V3 m ρ c main_v28 : S1x64.Idx → EReal) = shapeCast S1x64 (a15 m c) Facts₀.shapeCasts_S64_S1x64 := by
    show StableHlo.after hostOps1 (W2 m ρ c) (Proc.devRef .tc main_v28) = _
    after_results
    rw [W2_arg15 m ρ c]
    rfl
  rw [e]
  exact shapeCast_a_1a_apply _ _ 0 k

/-! ## Leaving the second region -/

/-- The second region's output buffer holds what its last write-back leaves. -/
theorem V4_h : (V4 m ρ c main_v29 : S262144x64.Idx → EReal) = (dat1 (V3 m ρ) c).arrAt 4 cfg1.N :=
  W4_arr m ρ c 4

end Cert.KernelIdeal.HostValues

end
-- ==== Proof.HostTail.lean ====
/-
  What the kernel program's buffers hold from the second region's exit to the return.

  The third host stretch pools the node states per graph — an accumulating scatter of the states and of ones at the
  graph numbers, and a quotient — exactly as the reference does, and lays five small arguments out as rows and
  columns for the classifier; the fourth flattens the classifier's two outputs.  Argument buffers are as launched
  throughout.
-/
import proofs.«416833_j33122787786760_3_alg».proof.Proof.Stages
import proofs.«416833_j33122787786760_3_alg».proof.Proof.HostValues
import proofs.«416833_j33122787786760_3_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostTail

open Idealize.ShloMosaic Idealize.ShloMosaic.TcCoe Idealize.SL.Sem Idealize.ShloMosaic.ValueIdx Idealize.ShloMosaic.StableHlo
open Cert.KernelIdeal Cert.KernelIdeal.Gen Cert.KernelIdeal.Stages

variable (m : (ℓ : Loc nD τ sig) → Buf (Elt Ideal) ℓ) (ρ : Dev nD → PrngReg) (c : Dev nD)

/-! ## The argument buffers at the second region's exit

No host operation and no region up to there writes an argument, so each holds what it was launched with. -/

theorem W4_arg0 : (W4 m ρ c (Proc.devRef .tc main_arg0) : S64x512.Idx → EReal) = a0 m c :=
  (W4_of_ne m ρ c main_arg0 (by decide)).trans (by
    show StableHlo.after hostOps1 (W2 m ρ c) (Proc.devRef .tc main_arg0) = _
    after_results
    exact (W2_of_ne m ρ c main_arg0 (by decide)).trans (by
      show StableHlo.after hostOps0 (W0 m ρ c) (Proc.devRef .tc main_arg0) = _
      after_results))

theorem W4_arg1 : (W4 m ρ c (Proc.devRef .tc main_arg1) : S64x512.Idx → EReal) = a1 m c :=
  (W4_of_ne m ρ c main_arg1 (by decide)).trans (by
    show StableHlo.after hostOps1 (W2 m ρ c) (Proc.devRef .tc main_arg1) = _
    after_results
    exact (W2_of_ne m ρ c main_arg1 (by decide)).trans (by
      show StableHlo.after hostOps0 (W0 m ρ c) (Proc.devRef .tc main_arg1) = _
      after_results))

theorem W4_arg6 : (W4 m ρ c (Proc.devRef .tc main_arg6) : S262144.Idx → BitVec 32) = a6 m c :=
  (W4_of_ne m ρ c main_arg6 (by decide)).trans (by
    show StableHlo.after hostOps1 (W2 m ρ c) (Proc.devRef .tc main_arg6) = _
    after_results
    exact (W2_of_ne m ρ c main_arg6 (by decide)).trans (by
      show StableHlo.after hostOps0 (W0 m ρ c) (Proc.devRef .tc main_arg6) = _
      after_results))

theorem W4_arg7 : (W4 m ρ c (Proc.devRef .tc main_arg7) : S64.Idx → EReal) = a7 m c :=
  (W4_of_ne m ρ c main_arg7 (by decide)).trans (by
    show StableHlo.after hostOps1 (W2 m ρ c) (Proc.devRef .tc main_arg7) = _
    after_results
    exact (W2_of_ne m ρ c main_arg7 (by decide)).trans (by
      show StableHlo.after hostOps0 (W0 m ρ c) (Proc.devRef .tc main_arg7) = _
      after_results))

theorem W4_arg8 : (W4 m ρ c (Proc.devRef .tc main_arg8) : S512x64.Idx → EReal) = a8 m c :=
  (W4_of_ne m ρ c main_arg8 (by decide)).trans (by
    show StableHlo.after hostOps1 (W2 m ρ c) (Proc.devRef .tc main_arg8) = _
    after_results
    exact (W2_of_ne m ρ c main_arg8 (by decide)).trans (by
      show StableHlo.after hostOps0 (W0 m ρ c) (Proc.devRef .tc main_arg8) = _
      after_results))

theorem W4_arg9 : (W4 m ρ c (Proc.devRef .tc main_arg9) : S64.Idx → EReal) = a9 m c :=
  (W4_of_ne m ρ c main_arg9 (by decide)).trans (by
    show StableHlo.after hostOps1 (W2 m ρ c) (Proc.devRef .tc main_arg9) = _
    after_results
    exact (W2_of_ne m ρ c main_arg9 (by decide)).trans (by
      show StableHlo.after hostOps0 (W0 m ρ c) (Proc.devRef .tc main_arg9) = _
      after_results))

theorem W4_arg10 : (W4 m ρ c (Proc.devRef .tc main_arg10) : S512x64.Idx → EReal) = a10 m c :=
  (W4_of_ne m ρ c main_arg10 (by decide)).trans (by
    show StableHlo.after hostOps1 (W2 m ρ c) (Proc.devRef .tc main_arg10) = _
    after_results
    exact (W2_of_ne m ρ c main_arg10 (by decide)).trans (by
      show StableHlo.after hostOps0 (W0 m ρ c) (Proc.devRef .tc main_arg10) = _
      after_results))

theorem W4_arg11 : (W4 m ρ c (Proc.devRef .tc main_arg11) : S64.Idx → EReal) = a11 m c :=
  (W4_of_ne m ρ c main_arg11 (by decide)).trans (by
    show StableHlo.after hostOps1 (W2 m ρ c) (Proc.devRef .tc main_arg11) = _
    after_results
    exact (W2_of_ne m ρ c main_arg11 (by decide)).trans (by
      show StableHlo.after hostOps0 (W0 m ρ c) (Proc.devRef .tc main_arg11) = _
      after_results))

theorem W4_arg16 : (W4 m ρ c (Proc.devRef .tc main_arg16) : S192x64.Idx → EReal) = a16 m c :=
  (W4_of_ne m ρ c main_arg16 (by decide)).trans (by
    show StableHlo.after hostOps1 (W2 m ρ c) (Proc.devRef .tc main_arg16) = _
    after_results
    exact (W2_of_ne m ρ c main_arg16 (by decide)).trans (by
      show StableHlo.after hostOps0 (W0 m ρ c) (Proc.devRef .tc main_arg16) = _
      after_results))

theorem W4_arg17 : (W4 m ρ c (Proc.devRef .tc main_arg17) : S64.Idx → EReal) = a17 m c :=
  (W4_of_ne m ρ c main_arg17 (by decide)).trans (by
    show StableHlo.after hostOps1 (W2 m ρ c) (Proc.devRef .tc main_arg17) = _
    after_results
    exact (W2_of_ne m ρ c main_arg17 (by decide)).trans (by
      show StableHlo.after hostOps0 (W0 m ρ c) (Proc.devRef .tc main_arg17) = _
      after_results))

theorem W4_arg18 : (W4 m ρ c (Proc.devRef .tc main_arg18) : S64x1.Idx → EReal) = a18 m c :=
  (W4_of_ne m ρ c main_arg18 (by decide)).trans (by
    show StableHlo.after hostOps1 (W2 m ρ c) (Proc.devRef .tc main_arg18) = _
    after_results
    exact (W2_of_ne m ρ c main_arg18 (by decide)).trans (by
      show StableHlo.after hostOps0 (W0 m ρ c) (Proc.devRef .tc main_arg18) = _
      after_results))

theorem W4_arg19 : (W4 m ρ c (Proc.devRef .tc main_arg19) : S1.Idx → EReal) = a19 m c :=
  (W4_of_ne m ρ c main_arg19 (by decide)).trans (by
    show StableHlo.after hostOps1 (W2 m ρ c) (Proc.devRef .tc main_arg19) = _
    after_results
    exact (W2_of_ne m ρ c main_arg19 (by decide)).trans (by
      show StableHlo.after hostOps0 (W0 m ρ c) (Proc.devRef .tc main_arg19) = _
      after_results))

/-- A rank-0 index has row-major number 0. -/
theorem rowMajor_scalar (i : S_.Idx) : (S_.rowMajor i).val = 0 := by
  show (Shape.rowMajorPi _ _).val = 0
  exact Shape.rowMajorPi_zero _ _

/-- A one-lane column flattened to a vector, read at p: the column's entry (p, 0). -/
theorem uncol_apply {n : ℕ} (x : (⟨2, ![n, 1]⟩ : Shape).Idx → EReal) (h : (⟨2, ![n, 1]⟩ : Shape).ShapeCasts ⟨1, ![n]⟩) (p : Fin n) :
    shapeCast ⟨1, ![n]⟩ x h (ix1 p) = x (ix2 p 0) :=
  shapeCast_apply x h _ _ (by
    rw [Shape.rowMajor_val_two, Shape.rowMajor_val_one]
    show p.val * 1 + 0 = p.val
    omega)

/-- A one-by-one cell as a scalar: the cell's entry. -/
theorem cell_apply (x : S1x1.Idx → EReal) (h : S1x1.ShapeCasts S_) (i : S_.Idx) :
    shapeCast S_ x h i = x (ix2 0 0) :=
  shapeCast_apply x h _ _ (by
    rw [Shape.rowMajor_val_two, rowMajor_scalar]
    show 0 * 1 + 0 = 0
    rfl)

/-! ## Entering the third region -/

set_option maxHeartbeats 4000000 in
/-- THE POOLED GRAPH FEATURES: when the second region's output holds the reference's node states, the pooled
    features are the reference's. -/
theorem V5_gf (hH : (V4 m ρ c main_v29 : S262144x64.Idx → EReal) = refH m c) :
    (V5 m ρ c main_v39 : S64x64.Idx → EReal) = refGF m c := by
  have hH' : W4 m ρ c (Proc.devRef .tc main_v29) = refH m c := hH
  show StableHlo.after hostOps2 (W4 m ρ c) (Proc.devRef .tc main_v39) = _
  after_results
  rw [hH', W4_arg6 m ρ c]
  rfl

/-- The three bias rows, the bias cell and the answers column the classifier reads. -/
theorem V5_bi (k : Fin 64) : (V5 m ρ c main_v40 : S1x64.Idx → EReal) (ix2 0 k) = a9 m c (ix1 k) := by
  have e : (V5 m ρ c main_v40 : S1x64.Idx → EReal) = shapeCast S1x64 (a9 m c) Facts₀.shapeCasts_S64_S1x64 := by
    show StableHlo.after hostOps2 (W4 m ρ c) (Proc.devRef .tc main_v40) = _
    after_results
    rw [W4_arg9 m ρ c]
    rfl
  rw [e]
  exact shapeCast_a_1a_apply _ _ 0 k
theorem V5_bt (k : Fin 64) : (V5 m ρ c main_v41 : S1x64.Idx → EReal) (ix2 0 k) = a11 m c (ix1 k) := by
  have e : (V5 m ρ c main_v41 : S1x64.Idx → EReal) = shapeCast S1x64 (a11 m c) Facts₀.shapeCasts_S64_S1x64 := by
    show StableHlo.after hostOps2 (W4 m ρ c) (Proc.devRef .tc main_v41) = _
    after_results
    rw [W4_arg11 m ρ c]
    rfl
  rw [e]
  exact shapeCast_a_1a_apply _ _ 0 k
theorem V5_bc1 (k : Fin 64) : (V5 m ρ c main_v42 : S1x64.Idx → EReal) (ix2 0 k) = a17 m c (ix1 k) := by
  have e : (V5 m ρ c main_v42 : S1x64.Idx → EReal) = shapeCast S1x64 (a17 m c) Facts₀.shapeCasts_S64_S1x64 := by
    show StableHlo.after hostOps2 (W4 m ρ c) (Proc.devRef .tc main_v42) = _
    after_results
    rw [W4_arg17 m ρ c]
    rfl
  rw [e]
  exact shapeCast_a_1a_apply _ _ 0 k
theorem V5_bc2 (u v : Fin 1) : (V5 m ρ c main_v43 : S1x1.Idx → EReal) (ix2 u v) = a19 m c (ix1 0) := by
  have e : (V5 m ρ c main_v43 : S1x1.Idx → EReal) = shapeCast S1x1 (a19 m c) Facts₀.shapeCasts_S1_S1x1 := by
    show StableHlo.after hostOps2 (W4 m ρ c) (Proc.devRef .tc main_v43) = _
    after_results
    rw [W4_arg19 m ρ c]
    rfl
  rw [e, shapeCast_a_1a_apply _ _ u v, Subsingleton.elim v 0]
theorem V5_ans (b : Fin 64) (u : Fin 1) : (V5 m ρ c main_v44 : S64x1.Idx → EReal) (ix2 b u) = a7 m c (ix1 b) := by
  have e : (V5 m ρ c main_v44 : S64x1.Idx → EReal) = shapeCast S64x1 (a7 m c) Facts₀.shapeCasts_S64_S64x1 := by
    show StableHlo.after hostOps2 (W4 m ρ c) (Proc.devRef .tc main_v44) = _
    after_results
    rw [W4_arg7 m ρ c]
    rfl
  rw [e]
  exact HostValues.col_apply _ _ b u

/-- The six arguments the classifier reads directly are as launched. -/
theorem V5_arg0 : (V5 m ρ c main_arg0 : S64x512.Idx → EReal) = a0 m c := by
  show StableHlo.after hostOps2 (W4 m ρ c) (Proc.devRef .tc main_arg0) = _
  after_results
  exact W4_arg0 m ρ c
theorem V5_arg1 : (V5 m ρ c main_arg1 : S64x512.Idx → EReal) = a1 m c := by
  show StableHlo.after hostOps2 (W4 m ρ c) (Proc.devRef .tc main_arg1) = _
  after_results
  exact W4_arg1 m ρ c
theorem V5_arg8 : (V5 m ρ c main_arg8 : S512x64.Idx → EReal) = a8 m c := by
  show StableHlo.after hostOps2 (W4 m ρ c) (Proc.devRef .tc main_arg8) = _
  after_results
  exact W4_arg8 m ρ c
theorem V5_arg10 : (V5 m ρ c main_arg10 : S512x64.Idx → EReal) = a10 m c := by
  show StableHlo.after hostOps2 (W4 m ρ c) (Proc.devRef .tc main_arg10) = _
  after_results
  exact W4_arg10 m ρ c
theorem V5_arg16 : (V5 m ρ c main_arg16 : S192x64.Idx → EReal) = a16 m c := by
  show StableHlo.after hostOps2 (W4 m ρ c) (Proc.devRef .tc main_arg16) = _
  after_results
  exact W4_arg16 m ρ c
theorem V5_arg18 : (V5 m ρ c main_arg18 : S64x1.Idx → EReal) = a18 m c := by
  show StableHlo.after hostOps2 (W4 m ρ c) (Proc.devRef .tc main_arg18) = _
  after_results
  exact W4_arg18 m ρ c

/-! ## Leaving the third region; the return -/

/-- The third region's two output buffers hold what its write-backs leave. -/
theorem V6_logits : (V6 m ρ c main_v45_0 : S64x1.Idx → EReal) = (dat2 (V5 m ρ) c).arrAt 12 cfg2.N := by
  exact W6_arr m ρ c 12
theorem V6_loss : (V6 m ρ c main_v45_1 : S1x1.Idx → EReal) = (dat2 (V5 m ρ) c).arrAt 13 cfg2.N := by
  exact W6_arr m ρ c 13

/-- THE TWO RESULTS at the return: the logits column flattened, the loss cell as a scalar. -/
theorem W7_logits (b : Fin 64) :
    (W7 m ρ c (Proc.devRef .tc main_v46) : S64.Idx → EReal) (ix1 b) = (V6 m ρ c main_v45_0 : S64x1.Idx → EReal) (ix2 b 0) := by
  have e : (W7 m ρ c (Proc.devRef .tc main_v46) : S64.Idx → EReal)
      = shapeCast S64 (V6 m ρ c main_v45_0 : S64x1.Idx → EReal) Facts₀.shapeCasts_S64x1_S64 := by
    show StableHlo.after hostOps3 (W6 m ρ c) (Proc.devRef .tc main_v46) = _
    after_results
    rfl
  rw [e]
  exact uncol_apply _ _ b
theorem W7_loss :
    (W7 m ρ c (Proc.devRef .tc main_v47) : S_.Idx → EReal) ix0 = (V6 m ρ c main_v45_1 : S1x1.Idx → EReal) (ix2 0 0) := by
  have e : (W7 m ρ c (Proc.devRef .tc main_v47) : S_.Idx → EReal)
      = shapeCast S_ (V6 m ρ c main_v45_1 : S1x1.Idx → EReal) Facts₀.shapeCasts_S1x1_S_ := by
    show StableHlo.after hostOps3 (W6 m ρ c) (Proc.devRef .tc main_v47) = _
    after_results
    rfl
  rw [e]
  exact cell_apply _ _ ix0

end Cert.KernelIdeal.HostTail

end
-- ==== Proof.Region0.lean ====
/-
  The node-projection region's output array, as one function of the arrays the region finds.

  The region walks the nodes in 32 blocks of 8192 rows.  At each point the body multiplies the block of gathered
  features by the projection weight, adds the bias row, rectifies, multiplies by the graph-convolution weight, and
  scales every row by that node's normalising factor.  Row r of a block depends on row r of the gathered features
  and on the block's column entry r only, so every block is the restriction of one whole-array function to its rows;
  the blocks tile the array.
-/
import proofs.«416833_j33122787786760_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- A column [8192 × 1] broadcast along the lanes, read at (p, q): the column's entry p. -/
theorem bcast_col (x : FVec Ideal S8192x1 .f32) (h : S8192x1.Broadcasts S8192x64) (p : Fin 8192) (q : Fin 64) :
    broadcastTo S8192x64 x h (ix2 p q) = x (ix2 p 0) := by
  refine broadcastTo_apply x h (ix2 p q) (ix2 p 0) fun a => ?_
  match a with
  | ⟨0, _⟩ => show p.val = if (8192 : ℕ) = 1 then 0 else p.val; rw [if_neg (by decide)]
  | ⟨1, _⟩ => show (0 : ℕ) = if (1 : ℕ) = 1 then 0 else q.val; rw [if_pos rfl]

/-- A row [1 × 64] broadcast along the sublanes, read at (p, q): the row's entry q. -/
theorem bcast_row (x : FVec Ideal S1x64 .f32) (h : S1x64.Broadcasts S8192x64) (p : Fin 8192) (q : Fin 64) :
    broadcastTo S8192x64 x h (ix2 p q) = x (ix2 0 q) := by
  refine broadcastTo_apply x h (ix2 p q) (ix2 0 q) fun a => ?_
  match a with
  | ⟨0, _⟩ => show (0 : ℕ) = if (1 : ℕ) = 1 then 0 else p.val; rw [if_pos rfl]
  | ⟨1, _⟩ => show q.val = if (64 : ℕ) = 1 then 0 else q.val; rw [if_neg (by decide)]

/-! ## The block product [8192 × 64] · [64 × 64]: its operand indices, axis by axis -/

theorem lhs_ax0 (i : S8192x64.Idx) (r : dot_S8192x64_S64x64_S8192x64_1_0_0_1_n_n.contr.Idx) :
    (dot_S8192x64_S64x64_S8192x64_1_0_0_1_n_n.lhsIdx i r 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem lhs_ax1 (i : S8192x64.Idx) (r : dot_S8192x64_S64x64_S8192x64_1_0_0_1_n_n.contr.Idx) :
    (dot_S8192x64_S64x64_S8192x64_1_0_0_1_n_n.lhsIdx i r 1).val = (r ⟨0, by decide⟩).val :=
  dot_S8192x64_S64x64_S8192x64_1_0_0_1_n_n.lhsIdx_val_of_single rfl i r
theorem rhs_ax0 (i : S8192x64.Idx) (r : dot_S8192x64_S64x64_S8192x64_1_0_0_1_n_n.contr.Idx) :
    (dot_S8192x64_S64x64_S8192x64_1_0_0_1_n_n.rhsIdx i r 0).val = (r ⟨0, by decide⟩).val :=
  dot_S8192x64_S64x64_S8192x64_1_0_0_1_n_n.rhsIdx_val_of_single rfl i r
theorem rhs_ax1 (i : S8192x64.Idx) (r : dot_S8192x64_S64x64_S8192x64_1_0_0_1_n_n.contr.Idx) :
    (dot_S8192x64_S64x64_S8192x64_1_0_0_1_n_n.rhsIdx i r 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- The block product into a zero accumulator, read at (p, q): row p of the left operand against column q of the
    right one. -/
theorem mm_apply {φ₁ φ₂ : FTy} (A : FVec Ideal S8192x64 φ₁) (B : FVec Ideal S64x64 φ₂) (p : Fin 8192) (q : Fin 64) :
    matmul dot_S8192x64_S64x64_S8192x64_1_0_0_1_n_n none A B (constant S8192x64 .f32 0x00000000#32) (ix2 p q)
      = ∑ k : Fin 64, A (ix2 p k) * B (ix2 k q) := by
  simp only [matmul]
  rw [Ideal.matmul_constant_zero_apply, ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 p q) ((contrEquiv1 dot_S8192x64_S64x64_S8192x64_1_0_0_1_n_n 64 rfl rfl).symm k) = ix2 p k := funext fun a => Fin.ext (by
    match a with
    | ⟨0, _⟩ => exact lhs_ax0 _ _
    | ⟨1, _⟩ => exact (lhs_ax1 _ _).trans hk)
  have er : dot_S8192x64_S64x64_S8192x64_1_0_0_1_n_n.rhsIdx (ix2 p q) ((contrEquiv1 dot_S8192x64_S64x64_S8192x64_1_0_0_1_n_n 64 rfl rfl).symm k) = ix2 k q := funext fun a => Fin.ext (by
    match a with
    | ⟨0, _⟩ => exact (rhs_ax0 _ _).trans hk
    | ⟨1, _⟩ => exact rhs_ax1 _ _)
  rw [el, er]

/-- The body's stored value at row p, lane q of the block. -/
theorem pay_apply (x0 : Vec Ideal S8192x64 .f32) (x2 : Vec Ideal S64x64 .f32) (x3 : Vec Ideal S1x64 .f32)
    (x4 : Vec Ideal S64x64 .f32) (x1 : Vec Ideal S8192x1 .f32) (p : Fin 8192) (q : Fin 64) :
    (k0_pay1 (F := Ideal) x0 x2 x3 x4 x1) (ix2 p q)
      = (∑ k : Fin 64, max ((∑ j : Fin 64, x0 (ix2 p j) * x2 (ix2 j k)) + x3 (ix2 0 k)) (Ideal.ofBits .f32 0x00000000#32)
          * x4 (ix2 k q)) * x1 (ix2 p 0) := by
  unfold k0_pay1
  simp only [shapeCast_self]
  rw [truncf_apply, mulf_apply, mm_apply, bcast_col]
  refine congrArg (· * x1 (ix2 p 0)) (Finset.sum_congr rfl fun k _ => ?_)
  rw [truncf_apply, truncf_apply, maximumf_apply, addf_apply, mm_apply, bcast_row]
  rfl

variable (V : (c : Dev nD) → (b : Ref sig .tc) → Buf (Elt Ideal) ((c : Thread nD τ).loc b))

/-- The region's arrays as it finds them, under their literal types: the gathered features, the column of factors,
    the projection weight, the bias row, the graph-convolution weight. -/
abbrev featArr (c : Dev nD) : S262144x64.Idx → EReal := V c main_v6
abbrev dcolArr (c : Dev nD) : S262144x1.Idx → EReal := V c main_v14
abbrev wProj (c : Dev nD) : S64x64.Idx → EReal := V c main_arg12
abbrev biasRow (c : Dev nD) : S1x64.Idx → EReal := V c main_v15
abbrev wConv (c : Dev nD) : S64x64.Idx → EReal := V c main_arg14

/-- The scaled node features as one function of those arrays. -/
def scaledFeat (c : Dev nD) : S262144x64.Idx → EReal := fun i =>
  (∑ k : Fin 64, max ((∑ j : Fin 64, featArr V c (ix2 (i 0) j) * wProj V c (ix2 j k)) + biasRow V c (ix2 0 k))
      (Ideal.ofBits .f32 0x00000000#32) * wConv V c (ix2 k (i 1))) * dcolArr V c (ix2 (i 0) 0)

/-! ## From the blocks to the array -/

/-- The printed index maps over the grid: the gathered features, the column of factors and the output sit at row
    block t; the two weights and the bias row at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of `scaledFeat`. -/
theorem flushed_eq (c : Dev nD) (t : Fin cfg0.N) :
    (dat0 V c).flushed 5 t = ((cfg0.win 5).blk t).view.read (Elt Ideal) (scaledFeat V c) := by
  show (cfg0.win 5).cut (grid0.coords t) ((dat0 V c).after 5 t) = _
  rw [after0_5]
  unfold out0_5
  rw [View.canon_unit_zero hz]
  simp only [View.ld_unit_zero (S := S8192x64) hz, View.ld_unit_zero (S := S8192x1) hz, View.ld_unit_zero (S := S1x64) hz, View.ld_unit_zero (S := S64x64) hz]
  obtain ⟨e00, e01, e10, e11, e20, e21, e30, e31, e40, e41, e50, e51⟩ := idx_facts t
  funext j
  obtain ⟨p, q, rfl⟩ : ∃ (p : Fin 8192) (q : Fin 64), j = ix2 p q := ⟨j 0, j 1, eq_ix2 j⟩
  refine (pay_apply (iblk0 V c 0 t) (iblk0 V c 2 t) (iblk0 V c 3 t) (iblk0 V c 4 t) (iblk0 V c 1 t) p q).trans ?_
  show (∑ k : Fin 64, max ((∑ j : Fin 64, featArr V c (((cfg0.win 0).blk t).view.emb (ix2 p j)) * wProj V c (((cfg0.win 2).blk t).view.emb (ix2 j k))) + biasRow V c (((cfg0.win 3).blk t).view.emb (ix2 0 k))) _
        * wConv V c (((cfg0.win 4).blk t).view.emb (ix2 k q))) * dcolArr V c (((cfg0.win 1).blk t).view.emb (ix2 p 0))
    = scaledFeat V c (((cfg0.win 5).blk t).view.emb (ix2 p q))
  unfold scaledFeat
  have h0 : ∀ j : Fin 64, featArr V c (((cfg0.win 0).blk t).view.emb (ix2 p j)) = featArr V c (ix2 ((((cfg0.win 5).blk t).view.emb (ix2 p q)) 0) j) := fun j => by
    refine congrArg (featArr V c) ?_
    funext a; apply Fin.ext
    match a with
    | ⟨0, _⟩ => show win0_0.index t (0 : Fin 2) * 8192 + 1 * p.val = win0_5.index t (0 : Fin 2) * 8192 + 1 * p.val; omega
    | ⟨1, _⟩ => show win0_0.index t (1 : Fin 2) * 64 + 1 * j.val = j.val; omega
  have h1 : dcolArr V c (((cfg0.win 1).blk t).view.emb (ix2 p 0)) = dcolArr V c (ix2 ((((cfg0.win 5).blk t).view.emb (ix2 p q)) 0) 0) := by
    refine congrArg (dcolArr V c) ?_
    funext a; apply Fin.ext
    match a with
    | ⟨0, _⟩ => show win0_1.index t (0 : Fin 2) * 8192 + 1 * p.val = win0_5.index t (0 : Fin 2) * 8192 + 1 * p.val; omega
    | ⟨1, _⟩ => show win0_1.index t (1 : Fin 2) * 1 + 1 * 0 = 0; omega
  have h2 : ∀ j k : Fin 64, wProj V c (((cfg0.win 2).blk t).view.emb (ix2 j k)) = wProj V c (ix2 j k) := fun j k => by
    refine congrArg (wProj V c) ?_
    funext a; apply Fin.ext
    match a with
    | ⟨0, _⟩ => show win0_2.index t (0 : Fin 2) * 64 + 1 * j.val = j.val; omega
    | ⟨1, _⟩ => show win0_2.index t (1 : Fin 2) * 64 + 1 * k.val = k.val; omega
  have h3 : ∀ k : Fin 64, biasRow V c (((cfg0.win 3).blk t).view.emb (ix2 0 k)) = biasRow V c (ix2 0 k) := fun k => by
    refine congrArg (biasRow V c) ?_
    funext a; apply Fin.ext
    match a with
    | ⟨0, _⟩ => show win0_3.index t (0 : Fin 2) * 1 + 1 * 0 = 0; omega
    | ⟨1, _⟩ => show win0_3.index t (1 : Fin 2) * 64 + 1 * k.val = k.val; omega
  have h4 : ∀ k : Fin 64, wConv V c (((cfg0.win 4).blk t).view.emb (ix2 k q)) = wConv V c (ix2 k ((((cfg0.win 5).blk t).view.emb (ix2 p q)) 1)) := fun k => by
    refine congrArg (wConv V c) ?_
    funext a; apply Fin.ext
    match a with
    | ⟨0, _⟩ => show win0_4.index t (0 : Fin 2) * 64 + 1 * k.val = k.val; omega
    | ⟨1, _⟩ => show win0_4.index t (1 : Fin 2) * 64 + 1 * q.val = win0_5.index t (1 : Fin 2) * 64 + 1 * q.val; omega
  rw [h1]
  refine congrArg (· * dcolArr V c (ix2 ((((cfg0.win 5).blk t).view.emb (ix2 p q)) 0) 0)) (Finset.sum_congr rfl fun k _ => ?_)
  rw [h3 k, h4 k, Finset.sum_congr rfl fun j _ => congrArg₂ (· * ·) (h0 j) (h2 j k)]

/-- An index of the output array is in point t's block iff each coordinate is in the block's range on its axis. -/
theorem mem_blk (t : Fin cfg0.N) (i : S262144x64.Idx) :
    i ∈ ((cfg0.win 5).blk t).view.set ↔ ∀ a : Fin 2, win0_5.index t a * S8192x64.size a ≤ (i a).val ∧ (i a).val < win0_5.index t a * S8192x64.size a + S8192x64.size a := by
  show i ∈ ((View.whole main_v16).slice (win0_5.rect t)).set ↔ _
  rw [View.set_slice_whole, Rect.mem_set_unit]
  exact Iff.rfl

/-- The blocks tile the array: row r is in the block of point r / 8192. -/
theorem cover (i : S262144x64.Idx) : ∃ t : Fin cfg0.N, (cfg0.win 5).flush t = true ∧ i ∈ ((cfg0.win 5).blk t).view.set := by
  have hi0 : (i 0).val < 262144 := (i 0).isLt
  have hi1 : (i 1).val < 64 := (i 1).isLt
  let t : Fin cfg0.N := ⟨(i 0).val / 8192, by rw [show cfg0.N = 32 from N_0]; omega⟩
  obtain ⟨-, -, -, -, -, -, -, -, -, -, e50, e51⟩ := idx_facts t
  have tv : t.val = (i 0).val / 8192 := rfl
  refine ⟨t, flush0_5 t, ?_⟩
  rw [mem_blk]
  intro a
  match a with
  | ⟨0, _⟩ => show win0_5.index t (0 : Fin 2) * 8192 ≤ (i 0).val ∧ (i 0).val < win0_5.index t (0 : Fin 2) * 8192 + 8192; omega
  | ⟨1, _⟩ => show win0_5.index t (1 : Fin 2) * 64 ≤ (i 1).val ∧ (i 1).val < win0_5.index t (1 : Fin 2) * 64 + 64; omega

/-- THE REGION'S OUTPUT ARRAY after its last point: the scaled node features. -/
theorem array_eq (c : Dev nD) : (dat0 V c).arrAt 5 cfg0.N = scaledFeat V c :=
  (dat0 V c).arrAt_eq_of_cover 5 (scaledFeat V c) (fun t _ => flushed_eq V c t) cover

end Cert.KernelIdeal.Region0

end
-- ==== Proof.Region1.lean ====
/-
  The node-update region's output array, as one function of the arrays the region finds.

  The region walks the nodes in 32 blocks of 8192 rows.  At each point the body reads the block of aggregated
  messages, the block of scaled features, the block's column of normalising factors and the bias row, and stores
  max(factor · (message + scaled feature) + bias, 0) into the output block.  Every block is the restriction of one
  whole-array function to its rows, and the blocks tile the array, so the array ends holding that function.
-/
import proofs.«416833_j33122787786760_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- A column [8192 × 1] broadcast along the lanes, read at (p, q): the column's entry p. -/
theorem bcast_col (x : FVec Ideal S8192x1 .f32) (h : S8192x1.Broadcasts S8192x64) (p : Fin 8192) (q : Fin 64) :
    broadcastTo S8192x64 x h (ix2 p q) = x (ix2 p 0) := by
  refine broadcastTo_apply x h (ix2 p q) (ix2 p 0) fun a => ?_
  match a with
  | ⟨0, _⟩ => show p.val = if (8192 : ℕ) = 1 then 0 else p.val; rw [if_neg (by decide)]
  | ⟨1, _⟩ => show (0 : ℕ) = if (1 : ℕ) = 1 then 0 else q.val; rw [if_pos rfl]

/-- A row [1 × 64] broadcast along the sublanes, read at (p, q): the row's entry q. -/
theorem bcast_row (x : FVec Ideal S1x64 .f32) (h : S1x64.Broadcasts S8192x64) (p : Fin 8192) (q : Fin 64) :
    broadcastTo S8192x64 x h (ix2 p q) = x (ix2 0 q) := by
  refine broadcastTo_apply x h (ix2 p q) (ix2 0 q) fun a => ?_
  match a with
  | ⟨0, _⟩ => show (0 : ℕ) = if (1 : ℕ) = 1 then 0 else p.val; rw [if_pos rfl]
  | ⟨1, _⟩ => show q.val = if (64 : ℕ) = 1 then 0 else q.val; rw [if_neg (by decide)]

/-- The body's stored value at row p, lane q of the block. -/
theorem pay_apply (x0 : Vec Ideal S8192x64 .f32) (x1 : Vec Ideal S8192x64 .bf16) (x2 : Vec Ideal S8192x1 .f32)
    (x3 : Vec Ideal S1x64 .f32) (p : Fin 8192) (q : Fin 64) :
    (k1_pay1 (F := Ideal) x0 x1 x2 x3) (ix2 p q)
      = max (x2 (ix2 p 0) * (x0 (ix2 p q) + x1 (ix2 p q)) + x3 (ix2 0 q)) (Ideal.ofBits .f32 0x00000000#32) := by
  unfold k1_pay1
  simp only [shapeCast_self]
  rw [maximumf_apply, addf_apply, mulf_apply, addf_apply, extf_apply, bcast_col, bcast_row]
  rfl

/-! ## From the blocks to the array -/

variable (V : (c : Dev nD) → (b : Ref sig .tc) → Buf (Elt Ideal) ((c : Thread nD τ).loc b))

/-- The region's five arrays as it finds them, under their literal types: the aggregated messages, the scaled
    features, the column of factors, the bias row. -/
abbrev aggArr (c : Dev nD) : S262144x64.Idx → EReal := V c main_v27
abbrev xwsArr (c : Dev nD) : S262144x64.Idx → EReal := V c main_v16
abbrev dcolArr (c : Dev nD) : S262144x1.Idx → EReal := V c main_v14
abbrev biasRow (c : Dev nD) : S1x64.Idx → EReal := V c main_v28

/-- The new node states as one function of those arrays. -/
def nodeState (c : Dev nD) : S262144x64.Idx → EReal := fun i =>
  max (dcolArr V c (ix2 (i 0) 0) * (aggArr V c i + xwsArr V c i) + biasRow V c (ix2 0 (i 1))) (Ideal.ofBits .f32 0x00000000#32)

/-- The printed index maps over the grid: the three row-blocked windows and the output sit at row block t, the
    column window at row block t, the bias row at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of `nodeState`. -/
theorem flushed_eq (c : Dev nD) (t : Fin cfg1.N) :
    (dat1 V c).flushed 4 t = ((cfg1.win 4).blk t).view.read (Elt Ideal) (nodeState V c) := by
  show (cfg1.win 4).cut (grid1.coords t) ((dat1 V c).after 4 t) = _
  rw [after1_4]
  unfold out1_4
  rw [View.canon_unit_zero hz]
  simp only [View.ld_unit_zero (S := S8192x64) hz, View.ld_unit_zero (S := S8192x1) hz, View.ld_unit_zero (S := S1x64) hz]
  obtain ⟨e00, e01, e10, e11, e20, e21, e30, e31, e40, e41⟩ := idx_facts t
  funext j
  obtain ⟨p, q, rfl⟩ : ∃ (p : Fin 8192) (q : Fin 64), j = ix2 p q := ⟨j 0, j 1, eq_ix2 j⟩
  refine (pay_apply (iblk1 V c 0 t) (iblk1 V c 1 t) (iblk1 V c 2 t) (iblk1 V c 3 t) p q).trans ?_
  show max (dcolArr V c (((cfg1.win 2).blk t).view.emb (ix2 p 0)) * (aggArr V c (((cfg1.win 0).blk t).view.emb (ix2 p q)) + xwsArr V c (((cfg1.win 1).blk t).view.emb (ix2 p q))) + biasRow V c (((cfg1.win 3).blk t).view.emb (ix2 0 q))) _
    = nodeState V c (((cfg1.win 4).blk t).view.emb (ix2 p q))
  unfold nodeState
  have h0 : ((cfg1.win 0).blk t).view.emb (ix2 p q) = ((cfg1.win 4).blk t).view.emb (ix2 p q) := by
    funext a; apply Fin.ext
    match a with
    | ⟨0, _⟩ => show win1_0.index t (0 : Fin 2) * 8192 + 1 * p.val = win1_4.index t (0 : Fin 2) * 8192 + 1 * p.val; omega
    | ⟨1, _⟩ => show win1_0.index t (1 : Fin 2) * 64 + 1 * q.val = win1_4.index t (1 : Fin 2) * 64 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 8192 + 1 * p.val = win1_4.index t (0 : Fin 2) * 8192 + 1 * p.val; omega
    | ⟨1, _⟩ => show win1_1.index t (1 : Fin 2) * 64 + 1 * q.val = win1_4.index t (1 : Fin 2) * 64 + 1 * q.val; omega
  have h2 : dcolArr V c (((cfg1.win 2).blk t).view.emb (ix2 p 0)) = dcolArr V c (ix2 ((((cfg1.win 4).blk t).view.emb (ix2 p q)) 0) 0) := by
    refine congrArg (dcolArr V c) ?_
    funext a; apply Fin.ext
    match a with
    | ⟨0, _⟩ => show win1_2.index t (0 : Fin 2) * 8192 + 1 * p.val = win1_4.index t (0 : Fin 2) * 8192 + 1 * p.val; omega
    | ⟨1, _⟩ => show win1_2.index t (1 : Fin 2) * 1 + 1 * 0 = 0; omega
  have h3 : biasRow V c (((cfg1.win 3).blk t).view.emb (ix2 0 q)) = biasRow V c (ix2 0 ((((cfg1.win 4).blk t).view.emb (ix2 p q)) 1)) := by
    refine congrArg (biasRow V c) ?_
    funext a; apply Fin.ext
    match a with
    | ⟨0, _⟩ => show win1_3.index t (0 : Fin 2) * 1 + 1 * 0 = 0; omega
    | ⟨1, _⟩ => show win1_3.index t (1 : Fin 2) * 64 + 1 * q.val = win1_4.index t (1 : Fin 2) * 64 + 1 * q.val; omega
  rw [h0, h1, h2, h3]

/-- An index of the output array is in point t's block iff each coordinate is in the block's range on its axis. -/
theorem mem_blk (t : Fin cfg1.N) (i : S262144x64.Idx) :
    i ∈ ((cfg1.win 4).blk t).view.set ↔ ∀ a : Fin 2, win1_4.index t a * S8192x64.size a ≤ (i a).val ∧ (i a).val < win1_4.index t a * S8192x64.size a + S8192x64.size a := by
  show i ∈ ((View.whole main_v29).slice (win1_4.rect t)).set ↔ _
  rw [View.set_slice_whole, Rect.mem_set_unit]
  exact Iff.rfl

/-- The blocks tile the array: row r is in the block of point r / 8192. -/
theorem cover (i : S262144x64.Idx) : ∃ t : Fin cfg1.N, (cfg1.win 4).flush t = true ∧ i ∈ ((cfg1.win 4).blk t).view.set := by
  have hi0 : (i 0).val < 262144 := (i 0).isLt
  have hi1 : (i 1).val < 64 := (i 1).isLt
  let t : Fin cfg1.N := ⟨(i 0).val / 8192, by rw [show cfg1.N = 32 from N_1]; omega⟩
  obtain ⟨-, -, -, -, -, -, -, -, e40, e41⟩ := idx_facts t
  have tv : t.val = (i 0).val / 8192 := rfl
  refine ⟨t, flush1_4 t, ?_⟩
  rw [mem_blk]
  intro a
  match a with
  | ⟨0, _⟩ => show win1_4.index t (0 : Fin 2) * 8192 ≤ (i 0).val ∧ (i 0).val < win1_4.index t (0 : Fin 2) * 8192 + 8192; omega
  | ⟨1, _⟩ => show win1_4.index t (1 : Fin 2) * 64 ≤ (i 1).val ∧ (i 1).val < win1_4.index t (1 : Fin 2) * 64 + 64; omega

/-- THE REGION'S OUTPUT ARRAY after its last point: the new node states. -/
theorem array_eq (c : Dev nD) : (dat1 V c).arrAt 4 cfg1.N = nodeState V c :=
  (dat1 V c).arrAt_eq_of_cover 4 (nodeState V c) (fun t _ => flushed_eq V c t) cover

end Cert.KernelIdeal.Region1

end
-- ==== Proof.Region2.lean ====
/-
  The classifier region's two output arrays, as functions of the arrays the region finds.

  The region has one grid point, and every window's block is its whole array.  The body's two stores write the
  logits column and the loss cell, each a pure function of the twelve input arrays, so the two output arrays end
  holding those functions of the arrays as the region finds them.
-/
import proofs.«416833_j33122787786760_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The hidden layer's rectified activations (in the matrix unit's input format) from the region's arrays. -/
abbrev hiddenOf (c : Dev nD) : FVec Ideal S64x64 .bf16 :=
  k2_pay3 (F := Ideal) (V c main_arg0) (V c main_arg8) (V c main_v40) (V c main_arg1) (V c main_arg10) (V c main_v41)
    (V c main_v39) (V c main_arg16) (V c main_v42)

theorem hz : (![0, 0] : Fin 2 → Nat) = fun _ => 0 := funext fun a => by fin_cases a <;> rfl

/-! ## Every window's block is its whole array

The region has one grid point and every index map sends it to the origin, so a block index y of a window sits at
array index 0 · size + y = y. -/

theorem idx2_0 : ∀ t : Fin cfg2.N, win2_0.index t (0 : Fin 2) = 0 ∧ win2_0.index t (1 : Fin 2) = 0 :=
  (by decide +kernel : ∀ t : Fin grid2.N, _)

theorem emb2_0 (t : Fin cfg2.N) (y : S64x512.Idx) : ((cfg2.win 0).blk t).view.emb y = y := by
  obtain ⟨e0, e1⟩ := idx2_0 t
  funext a; apply Fin.ext
  match a with
  | ⟨0, _⟩ => show win2_0.index t (0 : Fin 2) * 64 + 1 * (y 0).val = (y 0).val; omega
  | ⟨1, _⟩ => show win2_0.index t (1 : Fin 2) * 512 + 1 * (y 1).val = (y 1).val; omega

theorem iblk2_0 (c : Dev nD) (t : Fin cfg2.N) : iblk2 V c 0 t = V c main_arg0 := by
  funext y
  show V c main_arg0 (((cfg2.win 0).blk t).view.emb y) = V c main_arg0 y
  rw [emb2_0]

theorem idx2_1 : ∀ t : Fin cfg2.N, win2_1.index t (0 : Fin 2) = 0 ∧ win2_1.index t (1 : Fin 2) = 0 :=
  (by decide +kernel : ∀ t : Fin grid2.N, _)

theorem emb2_1 (t : Fin cfg2.N) (y : S64x512.Idx) : ((cfg2.win 1).blk t).view.emb y = y := by
  obtain ⟨e0, e1⟩ := idx2_1 t
  funext a; apply Fin.ext
  match a with
  | ⟨0, _⟩ => show win2_1.index t (0 : Fin 2) * 64 + 1 * (y 0).val = (y 0).val; omega
  | ⟨1, _⟩ => show win2_1.index t (1 : Fin 2) * 512 + 1 * (y 1).val = (y 1).val; omega

theorem iblk2_1 (c : Dev nD) (t : Fin cfg2.N) : iblk2 V c 1 t = V c main_arg1 := by
  funext y
  show V c main_arg1 (((cfg2.win 1).blk t).view.emb y) = V c main_arg1 y
  rw [emb2_1]

theorem idx2_2 : ∀ t : Fin cfg2.N, win2_2.index t (0 : Fin 2) = 0 ∧ win2_2.index t (1 : Fin 2) = 0 :=
  (by decide +kernel : ∀ t : Fin grid2.N, _)

theorem emb2_2 (t : Fin cfg2.N) (y : S64x64.Idx) : ((cfg2.win 2).blk t).view.emb y = y := by
  obtain ⟨e0, e1⟩ := idx2_2 t
  funext a; apply Fin.ext
  match a with
  | ⟨0, _⟩ => show win2_2.index t (0 : Fin 2) * 64 + 1 * (y 0).val = (y 0).val; omega
  | ⟨1, _⟩ => show win2_2.index t (1 : Fin 2) * 64 + 1 * (y 1).val = (y 1).val; omega

theorem iblk2_2 (c : Dev nD) (t : Fin cfg2.N) : iblk2 V c 2 t = V c main_v39 := by
  funext y
  show V c main_v39 (((cfg2.win 2).blk t).view.emb y) = V c main_v39 y
  rw [emb2_2]

theorem idx2_3 : ∀ t : Fin cfg2.N, win2_3.index t (0 : Fin 2) = 0 ∧ win2_3.index t (1 : Fin 2) = 0 :=
  (by decide +kernel : ∀ t : Fin grid2.N, _)

theorem emb2_3 (t : Fin cfg2.N) (y : S512x64.Idx) : ((cfg2.win 3).blk t).view.emb y = y := by
  obtain ⟨e0, e1⟩ := idx2_3 t
  funext a; apply Fin.ext
  match a with
  | ⟨0, _⟩ => show win2_3.index t (0 : Fin 2) * 512 + 1 * (y 0).val = (y 0).val; omega
  | ⟨1, _⟩ => show win2_3.index t (1 : Fin 2) * 64 + 1 * (y 1).val = (y 1).val; omega

theorem iblk2_3 (c : Dev nD) (t : Fin cfg2.N) : iblk2 V c 3 t = V c main_arg8 := by
  funext y
  show V c main_arg8 (((cfg2.win 3).blk t).view.emb y) = V c main_arg8 y
  rw [emb2_3]

theorem idx2_4 : ∀ t : Fin cfg2.N, win2_4.index t (0 : Fin 2) = 0 ∧ win2_4.index t (1 : Fin 2) = 0 :=
  (by decide +kernel : ∀ t : Fin grid2.N, _)

theorem emb2_4 (t : Fin cfg2.N) (y : S1x64.Idx) : ((cfg2.win 4).blk t).view.emb y = y := by
  obtain ⟨e0, e1⟩ := idx2_4 t
  funext a; apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega

theorem iblk2_4 (c : Dev nD) (t : Fin cfg2.N) : iblk2 V c 4 t = V c main_v40 := by
  funext y
  show V c main_v40 (((cfg2.win 4).blk t).view.emb y) = V c main_v40 y
  rw [emb2_4]

theorem idx2_5 : ∀ t : Fin cfg2.N, win2_5.index t (0 : Fin 2) = 0 ∧ win2_5.index t (1 : Fin 2) = 0 :=
  (by decide +kernel : ∀ t : Fin grid2.N, _)

theorem emb2_5 (t : Fin cfg2.N) (y : S512x64.Idx) : ((cfg2.win 5).blk t).view.emb y = y := by
  obtain ⟨e0, e1⟩ := idx2_5 t
  funext a; apply Fin.ext
  match a with
  | ⟨0, _⟩ => show win2_5.index t (0 : Fin 2) * 512 + 1 * (y 0).val = (y 0).val; omega
  | ⟨1, _⟩ => show win2_5.index t (1 : Fin 2) * 64 + 1 * (y 1).val = (y 1).val; omega

theorem iblk2_5 (c : Dev nD) (t : Fin cfg2.N) : iblk2 V c 5 t = V c main_arg10 := by
  funext y
  show V c main_arg10 (((cfg2.win 5).blk t).view.emb y) = V c main_arg10 y
  rw [emb2_5]

theorem idx2_6 : ∀ t : Fin cfg2.N, win2_6.index t (0 : Fin 2) = 0 ∧ win2_6.index t (1 : Fin 2) = 0 :=
  (by decide +kernel : ∀ t : Fin grid2.N, _)

theorem emb2_6 (t : Fin cfg2.N) (y : S1x64.Idx) : ((cfg2.win 6).blk t).view.emb y = y := by
  obtain ⟨e0, e1⟩ := idx2_6 t
  funext a; apply Fin.ext
  match a with
  | ⟨0, _⟩ => show win2_6.index t (0 : Fin 2) * 1 + 1 * (y 0).val = (y 0).val; omega
  | ⟨1, _⟩ => show win2_6.index t (1 : Fin 2) * 64 + 1 * (y 1).val = (y 1).val; omega

theorem iblk2_6 (c : Dev nD) (t : Fin cfg2.N) : iblk2 V c 6 t = V c main_v41 := by
  funext y
  show V c main_v41 (((cfg2.win 6).blk t).view.emb y) = V c main_v41 y
  rw [emb2_6]

theorem idx2_7 : ∀ t : Fin cfg2.N, win2_7.index t (0 : Fin 2) = 0 ∧ win2_7.index t (1 : Fin 2) = 0 :=
  (by decide +kernel : ∀ t : Fin grid2.N, _)

theorem emb2_7 (t : Fin cfg2.N) (y : S192x64.Idx) : ((cfg2.win 7).blk t).view.emb y = y := by
  obtain ⟨e0, e1⟩ := idx2_7 t
  funext a; apply Fin.ext
  match a with
  | ⟨0, _⟩ => show win2_7.index t (0 : Fin 2) * 192 + 1 * (y 0).val = (y 0).val; omega
  | ⟨1, _⟩ => show win2_7.index t (1 : Fin 2) * 64 + 1 * (y 1).val = (y 1).val; omega

theorem iblk2_7 (c : Dev nD) (t : Fin cfg2.N) : iblk2 V c 7 t = V c main_arg16 := by
  funext y
  show V c main_arg16 (((cfg2.win 7).blk t).view.emb y) = V c main_arg16 y
  rw [emb2_7]

theorem idx2_8 : ∀ t : Fin cfg2.N, win2_8.index t (0 : Fin 2) = 0 ∧ win2_8.index t (1 : Fin 2) = 0 :=
  (by decide +kernel : ∀ t : Fin grid2.N, _)

theorem emb2_8 (t : Fin cfg2.N) (y : S1x64.Idx) : ((cfg2.win 8).blk t).view.emb y = y := by
  obtain ⟨e0, e1⟩ := idx2_8 t
  funext a; apply Fin.ext
  match a with
  | ⟨0, _⟩ => show win2_8.index t (0 : Fin 2) * 1 + 1 * (y 0).val = (y 0).val; omega
  | ⟨1, _⟩ => show win2_8.index t (1 : Fin 2) * 64 + 1 * (y 1).val = (y 1).val; omega

theorem iblk2_8 (c : Dev nD) (t : Fin cfg2.N) : iblk2 V c 8 t = V c main_v42 := by
  funext y
  show V c main_v42 (((cfg2.win 8).blk t).view.emb y) = V c main_v42 y
  rw [emb2_8]

theorem idx2_9 : ∀ t : Fin cfg2.N, win2_9.index t (0 : Fin 2) = 0 ∧ win2_9.index t (1 : Fin 2) = 0 :=
  (by decide +kernel : ∀ t : Fin grid2.N, _)

theorem emb2_9 (t : Fin cfg2.N) (y : S64x1.Idx) : ((cfg2.win 9).blk t).view.emb y = y := by
  obtain ⟨e0, e1⟩ := idx2_9 t
  funext a; apply Fin.ext
  match a with
  | ⟨0, _⟩ => show win2_9.index t (0 : Fin 2) * 64 + 1 * (y 0).val = (y 0).val; omega
  | ⟨1, _⟩ => show win2_9.index t (1 : Fin 2) * 1 + 1 * (y 1).val = (y 1).val; omega

theorem iblk2_9 (c : Dev nD) (t : Fin cfg2.N) : iblk2 V c 9 t = V c main_arg18 := by
  funext y
  show V c main_arg18 (((cfg2.win 9).blk t).view.emb y) = V c main_arg18 y
  rw [emb2_9]

theorem idx2_10 : ∀ t : Fin cfg2.N, win2_10.index t (0 : Fin 2) = 0 ∧ win2_10.index t (1 : Fin 2) = 0 :=
  (by decide +kernel : ∀ t : Fin grid2.N, _)

theorem emb2_10 (t : Fin cfg2.N) (y : S1x1.Idx) : ((cfg2.win 10).blk t).view.emb y = y := by
  obtain ⟨e0, e1⟩ := idx2_10 t
  funext a; apply Fin.ext
  match a with
  | ⟨0, _⟩ => show win2_10.index t (0 : Fin 2) * 1 + 1 * (y 0).val = (y 0).val; omega
  | ⟨1, _⟩ => show win2_10.index t (1 : Fin 2) * 1 + 1 * (y 1).val = (y 1).val; omega

theorem iblk2_10 (c : Dev nD) (t : Fin cfg2.N) : iblk2 V c 10 t = V c main_v43 := by
  funext y
  show V c main_v43 (((cfg2.win 10).blk t).view.emb y) = V c main_v43 y
  rw [emb2_10]

theorem idx2_11 : ∀ t : Fin cfg2.N, win2_11.index t (0 : Fin 2) = 0 ∧ win2_11.index t (1 : Fin 2) = 0 :=
  (by decide +kernel : ∀ t : Fin grid2.N, _)

theorem emb2_11 (t : Fin cfg2.N) (y : S64x1.Idx) : ((cfg2.win 11).blk t).view.emb y = y := by
  obtain ⟨e0, e1⟩ := idx2_11 t
  funext a; apply Fin.ext
  match a with
  | ⟨0, _⟩ => show win2_11.index t (0 : Fin 2) * 64 + 1 * (y 0).val = (y 0).val; omega
  | ⟨1, _⟩ => show win2_11.index t (1 : Fin 2) * 1 + 1 * (y 1).val = (y 1).val; omega

theorem iblk2_11 (c : Dev nD) (t : Fin cfg2.N) : iblk2 V c 11 t = V c main_v44 := by
  funext y
  show V c main_v44 (((cfg2.win 11).blk t).view.emb y) = V c main_v44 y
  rw [emb2_11]

theorem idx2_12 : ∀ t : Fin cfg2.N, win2_12.index t (0 : Fin 2) = 0 ∧ win2_12.index t (1 : Fin 2) = 0 :=
  (by decide +kernel : ∀ t : Fin grid2.N, _)

theorem emb2_12 (t : Fin cfg2.N) (y : S64x1.Idx) : ((cfg2.win 12).blk t).view.emb y = y := by
  obtain ⟨e0, e1⟩ := idx2_12 t
  funext a; apply Fin.ext
  match a with
  | ⟨0, _⟩ => show win2_12.index t (0 : Fin 2) * 64 + 1 * (y 0).val = (y 0).val; omega
  | ⟨1, _⟩ => show win2_12.index t (1 : Fin 2) * 1 + 1 * (y 1).val = (y 1).val; omega

theorem idx2_13 : ∀ t : Fin cfg2.N, win2_13.index t (0 : Fin 2) = 0 ∧ win2_13.index t (1 : Fin 2) = 0 :=
  (by decide +kernel : ∀ t : Fin grid2.N, _)

theorem emb2_13 (t : Fin cfg2.N) (y : S1x1.Idx) : ((cfg2.win 13).blk t).view.emb y = y := by
  obtain ⟨e0, e1⟩ := idx2_13 t
  funext a; apply Fin.ext
  match a with
  | ⟨0, _⟩ => show win2_13.index t (0 : Fin 2) * 1 + 1 * (y 0).val = (y 0).val; omega
  | ⟨1, _⟩ => show win2_13.index t (1 : Fin 2) * 1 + 1 * (y 1).val = (y 1).val; omega

/-! ## From the one block to the array -/

/-- An output block written back whole: cutting the buffer to the block and reading the block off an array agree. -/
theorem cut2_12 (t : Fin cfg2.N) (P : Vec Ideal S64x1 .f32) :
    (cfg2.win 12).cut (grid2.coords t) P = ((cfg2.win 12).blk t).view.read (Elt Ideal) P := by
  funext j
  show P j = P (((cfg2.win 12).blk t).view.emb j)
  rw [emb2_12]

/-- What the one point writes back through window 12 is the whole-array block of the stored value. -/
theorem flushed2_12 (c : Dev nD) (t : Fin cfg2.N) :
    (dat2 V c).flushed 12 t = ((cfg2.win 12).blk t).view.read (Elt Ideal)
      (k2_pay1 (F := Ideal) (hiddenOf V c) (k2_pay4 (F := Ideal) (V c main_arg18)) (constant S64x1 .f32 0x00000000#32) (V c main_v43)) := by
  show (cfg2.win 12).cut (grid2.coords t) ((dat2 V c).after 12 t) = _
  rw [after2_12]
  unfold out2_12
  rw [View.canon_unit_zero hz]
  simp only [View.ld_unit_zero (S := S64x512) hz, View.ld_unit_zero (S := S512x64) hz, View.ld_unit_zero (S := S1x64) hz,
    View.ld_unit_zero (S := S64x64) hz, View.ld_unit_zero (S := S192x64) hz, View.ld_unit_zero (S := S64x1) hz,
    View.ld_unit_zero (S := S1x1) hz]
  rw [iblk2_0 V c t, iblk2_1 V c t, iblk2_2 V c t, iblk2_3 V c t, iblk2_4 V c t, iblk2_5 V c t, iblk2_6 V c t, iblk2_7 V c t, iblk2_8 V c t, iblk2_9 V c t, iblk2_10 V c t]
  exact cut2_12 t _

/-- An index of window 12's array is in the point's block iff each coordinate is in the block's range on its axis. -/
theorem mem_blk2_12 (t : Fin cfg2.N) (i : S64x1.Idx) :
    i ∈ ((cfg2.win 12).blk t).view.set ↔ ∀ a : Fin 2, win2_12.index t a * S64x1.size a ≤ (i a).val ∧ (i a).val < win2_12.index t a * S64x1.size a + S64x1.size a := by
  show i ∈ ((View.whole main_v45_0).slice (win2_12.rect t)).set ↔ _
  rw [View.set_slice_whole, Rect.mem_set_unit]
  exact Iff.rfl

/-- The one block is the whole array. -/
theorem cover2_12' (i : S64x1.Idx) : ∃ t : Fin cfg2.N, (cfg2.win 12).flush t = true ∧ i ∈ ((cfg2.win 12).blk t).view.set := by
  have hi0 : (i 0).val < 64 := (i 0).isLt
  have hi1 : (i 1).val < 1 := (i 1).isLt
  obtain ⟨e0, e1⟩ := idx2_12 t2_0
  refine ⟨t2_0, flush2_12 t2_0, ?_⟩
  rw [mem_blk2_12]
  intro a
  match a with
  | ⟨0, _⟩ => show win2_12.index t2_0 (0 : Fin 2) * 64 ≤ (i 0).val ∧ (i 0).val < win2_12.index t2_0 (0 : Fin 2) * 64 + 64; omega
  | ⟨1, _⟩ => show win2_12.index t2_0 (1 : Fin 2) * 1 ≤ (i 1).val ∧ (i 1).val < win2_12.index t2_0 (1 : Fin 2) * 1 + 1; omega

/-- An output block written back whole: cutting the buffer to the block and reading the block off an array agree. -/
theorem cut2_13 (t : Fin cfg2.N) (P : Vec Ideal S1x1 .f32) :
    (cfg2.win 13).cut (grid2.coords t) P = ((cfg2.win 13).blk t).view.read (Elt Ideal) P := by
  funext j
  show P j = P (((cfg2.win 13).blk t).view.emb j)
  rw [emb2_13]

/-- What the one point writes back through window 13 is the whole-array block of the stored value. -/
theorem flushed2_13 (c : Dev nD) (t : Fin cfg2.N) :
    (dat2 V c).flushed 13 t = ((cfg2.win 13).blk t).view.read (Elt Ideal)
      (k2_pay2 (F := Ideal) (hiddenOf V c) (k2_pay4 (F := Ideal) (V c main_arg18)) (constant S64x1 .f32 0x00000000#32) (V c main_v43) (V c main_v44)) := by
  show (cfg2.win 13).cut (grid2.coords t) ((dat2 V c).after 13 t) = _
  rw [after2_13]
  unfold out2_13
  rw [View.canon_unit_zero hz]
  simp only [View.ld_unit_zero (S := S64x512) hz, View.ld_unit_zero (S := S512x64) hz, View.ld_unit_zero (S := S1x64) hz,
    View.ld_unit_zero (S := S64x64) hz, View.ld_unit_zero (S := S192x64) hz, View.ld_unit_zero (S := S64x1) hz,
    View.ld_unit_zero (S := S1x1) hz]
  rw [iblk2_0 V c t, iblk2_1 V c t, iblk2_2 V c t, iblk2_3 V c t, iblk2_4 V c t, iblk2_5 V c t, iblk2_6 V c t, iblk2_7 V c t, iblk2_8 V c t, iblk2_9 V c t, iblk2_10 V c t, iblk2_11 V c t]
  exact cut2_13 t _

/-- An index of window 13's array is in the point's block iff each coordinate is in the block's range on its axis. -/
theorem mem_blk2_13 (t : Fin cfg2.N) (i : S1x1.Idx) :
    i ∈ ((cfg2.win 13).blk t).view.set ↔ ∀ a : Fin 2, win2_13.index t a * S1x1.size a ≤ (i a).val ∧ (i a).val < win2_13.index t a * S1x1.size a + S1x1.size a := by
  show i ∈ ((View.whole main_v45_1).slice (win2_13.rect t)).set ↔ _
  rw [View.set_slice_whole, Rect.mem_set_unit]
  exact Iff.rfl

/-- The one block is the whole array. -/
theorem cover2_13' (i : S1x1.Idx) : ∃ t : Fin cfg2.N, (cfg2.win 13).flush t = true ∧ i ∈ ((cfg2.win 13).blk t).view.set := by
  have hi0 : (i 0).val < 1 := (i 0).isLt
  have hi1 : (i 1).val < 1 := (i 1).isLt
  obtain ⟨e0, e1⟩ := idx2_13 t2_0
  refine ⟨t2_0, flush2_13 t2_0, ?_⟩
  rw [mem_blk2_13]
  intro a
  match a with
  | ⟨0, _⟩ => show win2_13.index t2_0 (0 : Fin 2) * 1 ≤ (i 0).val ∧ (i 0).val < win2_13.index t2_0 (0 : Fin 2) * 1 + 1; omega
  | ⟨1, _⟩ => show win2_13.index t2_0 (1 : Fin 2) * 1 ≤ (i 1).val ∧ (i 1).val < win2_13.index t2_0 (1 : Fin 2) * 1 + 1; omega

/-- THE LOGITS COLUMN after the region's one point. -/
theorem logits_eq (c : Dev nD) :
    (dat2 V c).arrAt 12 cfg2.N
      = k2_pay1 (F := Ideal) (hiddenOf V c) (k2_pay4 (F := Ideal) (V c main_arg18)) (constant S64x1 .f32 0x00000000#32) (V c main_v43) := by
  exact (dat2 V c).arrAt_eq_of_cover 12 _ (fun t _ => flushed2_12 V c t) cover2_12'

/-- THE LOSS CELL after the region's one point. -/
theorem loss_eq (c : Dev nD) :
    (dat2 V c).arrAt 13 cfg2.N
      = k2_pay2 (F := Ideal) (hiddenOf V c) (k2_pay4 (F := Ideal) (V c main_arg18)) (constant S64x1 .f32 0x00000000#32) (V c main_v43) (V c main_v44) := by
  exact (dat2 V c).arrAt_eq_of_cover 13 _ (fun t _ => flushed2_13 V c t) cover2_13'

end Cert.KernelIdeal.Region2

end
-- ==== Proof.Scaled.lean ====
/-
  The first region's scaled features are the reference's features times the node's factor.

  With the gathered rows, the two weights, the bias and the column of factors what the reference reads, the sum over
  the hidden index of  max(Σ_j feature·W₁ + bias, 0) · W₂,  scaled by the node's factor, is the reference's doubly
  projected feature (a dot product, a bias broadcast, a rectifier, a dot product) times that factor.
-/
import proofs.«416833_j33122787786760_3_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Scaled

open Idealize.ShloMosaic Idealize.ShloMosaic.TcCoe Idealize.SL.Sem Idealize.ShloMosaic.ValueIdx
open Cert.KernelIdeal Cert.KernelIdeal.Stages

variable (m : (ℓ : Loc nD τ sig) → Buf (Elt Ideal) ℓ) (c : Dev nD)

/-! ## The reference's index maps at a point (p, q)

Each contraction reads its left operand along row p and its right operand down column q; the bias is read at
the lane alone. -/

theorem lidx20 (p : Fin 262144) (q k : Fin 64) : Cert.ReferenceIdeal.Read.lidx_main_v20 (ix2 p q) k = ix2 p k :=
  funext fun a => Fin.ext (by match a with | ⟨0, _⟩ => rfl | ⟨1, _⟩ => rfl)
theorem ridx20 (p : Fin 262144) (q k : Fin 64) : Cert.ReferenceIdeal.Read.ridx_main_v20 (ix2 p q) k = ix2 k q :=
  funext fun a => Fin.ext (by match a with | ⟨0, _⟩ => rfl | ⟨1, _⟩ => rfl)
theorem lidx15 (p : Fin 262144) (k j : Fin 64) : Cert.ReferenceIdeal.Read.lidx_main_v15 (ix2 p k) j = ix2 p j :=
  funext fun a => Fin.ext (by match a with | ⟨0, _⟩ => rfl | ⟨1, _⟩ => rfl)
theorem ridx15 (p : Fin 262144) (k j : Fin 64) : Cert.ReferenceIdeal.Read.ridx_main_v15 (ix2 p k) j = ix2 j k :=
  funext fun a => Fin.ext (by match a with | ⟨0, _⟩ => rfl | ⟨1, _⟩ => rfl)
theorem idx1617 (p : Fin 262144) (k : Fin 64) : Cert.ReferenceIdeal.Read.idx_main_v16 (Cert.ReferenceIdeal.Read.idx_main_v17 (ix2 p k)) = ix1 k :=
  funext fun a => Fin.ext (by match a with | ⟨0, _⟩ => rfl)

/-- The reference's rectified hidden layer at node p, hidden index k: the first projection's dot product plus the
    bias at k, against zero. -/
theorem hidden_apply (x2 : (⟨S500000x64, .f32⟩ : BufTy).Contents (Elt Ideal)) (x3 : (⟨S262144, .i32⟩ : BufTy).Contents (Elt Ideal))
    (x12 : (⟨S64x64, .f32⟩ : BufTy).Contents (Elt Ideal)) (x13 : (⟨S64, .f32⟩ : BufTy).Contents (Elt Ideal)) (p : Fin 262144) (k : Fin 64) :
    Cert.ReferenceIdeal.Read.val_main_v19 (F := Ideal) x2 x3 x12 x13 (ix2 p k)
      = max ((∑ j : Fin 64, Cert.ReferenceIdeal.Read.val_main_v14 (F := Ideal) x2 x3 (ix2 p j) * x12 (ix2 j k)) + x13 (ix1 k))
          (Ideal.ofBits .f32 0x00000000#32) := by
  rw [Cert.ReferenceIdeal.Read.val_main_v19_apply, Cert.ReferenceIdeal.Read.val_main_v18_apply, Cert.ReferenceIdeal.Read.val_main_v15_apply, Cert.ReferenceIdeal.Read.val_main_v17_apply,
    Cert.ReferenceIdeal.Read.val_main_v16_apply, Cert.ReferenceIdeal.Read.val_main_call0_v0_apply, Cert.ReferenceIdeal.Read.val_main_call0_cst_apply, idx1617]
  have hs : (∑ j : Fin 64, Cert.ReferenceIdeal.Read.val_main_v14 (F := Ideal) x2 x3 (Cert.ReferenceIdeal.Read.lidx_main_v15 (ix2 p k) j) * x12 (Cert.ReferenceIdeal.Read.ridx_main_v15 (ix2 p k) j))
      = ∑ j : Fin 64, Cert.ReferenceIdeal.Read.val_main_v14 (F := Ideal) x2 x3 (ix2 p j) * x12 (ix2 j k) :=
    Finset.sum_congr rfl fun j _ => by rw [lidx15, ridx15]
  rw [hs]
  rfl

/-- The reference's doubly projected feature at node p, lane q, as sums over the two hidden indices. -/
theorem refXW_apply (p : Fin 262144) (q : Fin 64) :
    refXW m c (ix2 p q)
      = ∑ k : Fin 64, max ((∑ j : Fin 64, Cert.ReferenceIdeal.Read.val_main_v14 (F := Ideal) (a2 m c) (a3 m c) (ix2 p j) * a12 m c (ix2 j k)) + a13 m c (ix1 k))
          (Ideal.ofBits .f32 0x00000000#32) * a14 m c (ix2 k q) := by
  show Cert.ReferenceIdeal.Read.val_main_v20 (F := Ideal) (a2 m c) (a3 m c) (a12 m c) (a13 m c) (a14 m c) (ix2 p q) = _
  rw [Cert.ReferenceIdeal.Read.val_main_v20_apply]
  refine Finset.sum_congr rfl fun k _ => ?_
  rw [lidx20, ridx20, hidden_apply]

/-- THE SCALED FEATURES: the region's function of arrays that hold what the reference reads is `scaled`. -/
theorem scaled_of (feat : S262144x64.Idx → EReal) (dcol : S262144x1.Idx → EReal) (wp wc : S64x64.Idx → EReal) (brow : S1x64.Idx → EReal)
    (hfeat : feat = Cert.ReferenceIdeal.Read.val_main_v14 (F := Ideal) (a2 m c) (a3 m c))
    (hdcol : ∀ p : Fin 262144, dcol (ix2 p 0) = refDinv m c (ix1 p))
    (hwp : wp = a12 m c) (hwc : wc = a14 m c) (hbrow : ∀ k : Fin 64, brow (ix2 0 k) = a13 m c (ix1 k)) :
    (fun i : S262144x64.Idx => (∑ k : Fin 64, max ((∑ j : Fin 64, feat (ix2 (i 0) j) * wp (ix2 j k)) + brow (ix2 0 k))
        (Ideal.ofBits .f32 0x00000000#32) * wc (ix2 k (i 1))) * dcol (ix2 (i 0) 0)) = scaled m c := by
  subst hfeat hwp hwc
  funext i
  obtain ⟨p, q, rfl⟩ : ∃ (p : Fin 262144) (q : Fin 64), i = ix2 p q := ⟨i 0, i 1, eq_ix2 i⟩
  show (∑ k : Fin 64, max ((∑ j : Fin 64, Cert.ReferenceIdeal.Read.val_main_v14 (F := Ideal) (a2 m c) (a3 m c) (ix2 p j) * a12 m c (ix2 j k)) + brow (ix2 0 k))
        (Ideal.ofBits .f32 0x00000000#32) * a14 m c (ix2 k q)) * dcol (ix2 p 0) = scaled m c (ix2 p q)
  rw [scaled_apply, refXW_apply, hdcol p]
  refine congrArg (· * refDinv m c (ix1 p)) ?_
  exact Finset.sum_congr rfl fun k _ => by rw [hbrow k]

end Cert.KernelIdeal.Scaled

end
-- ==== Proof.RefNode.lean ====
/-
  The reference's new node state, read at one node and one lane.

  The state of node p at lane q is  max(Σ_e x[s(e), q]·(d[s(e)]·d[r(e)]) + x[p, q]·(d[p]·d[p]) + bias[q], 0),  the sum
  over the edges e whose message lands on p and started from zero, with x the doubly projected features, d the nodes'
  factors, s(e) the node edge e's sender word gathers and r(e) the node its receiver word gathers.
-/
import proofs.«416833_j33122787786760_3_alg».proof.Proof.Stages
import proofs.«416833_j33122787786760_3_alg».proof.Proof.Edges
import proofs.«416833_j33122787786760_3_alg».proof.Proof.LibScatterGather
import Idealize.ShloMosaic.Lib.StableHlo.Predicate
import Idealize.ShloMosaic.Lib.Pipeline.Value
import Idealize.ShloMosaic.Lib.ValueIdx
import Idealize.ShloMosaic.PureOps.Ideal.Laws

set_option maxRecDepth 16384

noncomputable section

namespace Cert.KernelIdeal.RefNode

open Idealize.ShloMosaic Idealize.ShloMosaic.TcCoe Idealize.SL.Sem Idealize.ShloMosaic.ValueIdx
open Idealize.ShloMosaic.StableHlo.Predicate
open Cert.KernelIdeal Cert.KernelIdeal.Stages Cert.KernelIdeal.Edges

variable (m : (ℓ : Loc nD τ sig) → Buf (Elt Ideal) ℓ) (c : Dev nD)

/-! ## The pieces, one operation at a time -/

/-- A rank-1 index written either way is the same index. -/
theorem ofFin_eq_ix1 {n : ℕ} (e : Fin n) : (Shape.Idx.ofFin e : (⟨1, ![n]⟩ : Shape).Idx) = ix1 e :=
  funext fun a => match a with | ⟨0, _⟩ => rfl

/-- The sender column is printed twice, once per gather that reads it: one column. -/
theorem srcCol_eq : Cert.ReferenceIdeal.Read.val_main_v33 (F := Ideal) (a4 m c) = srcCol m c := rfl

/-- The factor gathered at edge e's sender word: the factor of the node that word gathers. -/
theorem dinv_src (e : Fin 2097152) :
    Cert.ReferenceIdeal.Read.val_main_v34 (F := Ideal) (a4 m c) (a5 m c) (ix1 e) = refDinv m c (ix1 (srow m c e)) := by
  unfold Cert.ReferenceIdeal.Read.val_main_v34
  rw [srcCol_eq, ← ofFin_eq_ix1 e]
  refine (gather_take Cert.ReferenceIdeal.gather_S262144_S2097152x1_S2097152_n_0_n_n_0_1_1 rfl rfl rfl rfl
    (Cert.ReferenceIdeal.Read.val_main_v27 (F := Ideal) (a5 m c)) (srcCol m c) e (by decide)).trans ?_
  rw [ofFin_eq_ix1]
  rfl

/-- The factor gathered at edge e's receiver word: the factor of the node that word gathers. -/
theorem dinv_dst (e : Fin 2097152) :
    Cert.ReferenceIdeal.Read.val_main_v41 (F := Ideal) (a5 m c) (ix1 e) = refDinv m c (ix1 (drow m c e)) := by
  unfold Cert.ReferenceIdeal.Read.val_main_v41
  rw [← ofFin_eq_ix1 e]
  refine (gather_take Cert.ReferenceIdeal.gather_S262144_S2097152x1_S2097152_n_0_n_n_0_1_1 rfl rfl rfl rfl
    (Cert.ReferenceIdeal.Read.val_main_v27 (F := Ideal) (a5 m c)) (dstColW m c) e (by decide)).trans ?_
  rw [ofFin_eq_ix1]
  rfl

/-- The feature row gathered at edge e's sender word, at lane q. -/
theorem xw_src (e : Fin 2097152) (q : Fin 64) :
    Cert.ReferenceIdeal.Read.val_main_v49 (F := Ideal) (a2 m c) (a3 m c) (a4 m c) (a12 m c) (a13 m c) (a14 m c) (ix2 e q) = refXW m c (ix2 (srow m c e) q) := by
  unfold Cert.ReferenceIdeal.Read.val_main_v49
  refine (Cert.LibSG.gather_rows Cert.ReferenceIdeal.gather_S262144x64_S2097152x1_S2097152x64_1_0_n_n_0_1_164 rfl rfl rfl rfl rfl rfl rfl
    (Cert.ReferenceIdeal.Read.val_main_v20 (F := Ideal) (a2 m c) (a3 m c) (a12 m c) (a13 m c) (a14 m c)) (srcCol m c) e q (by decide)).trans ?_
  rfl

/-- Edge e's message at lane q: the sender's feature times the two factors. -/
theorem msg_apply (e : Fin 2097152) (q : Fin 64) :
    Cert.ReferenceIdeal.Read.val_main_v52 (F := Ideal) (a2 m c) (a3 m c) (a4 m c) (a5 m c) (a12 m c) (a13 m c) (a14 m c) (ix2 e q)
      = refXW m c (ix2 (srow m c e) q) * (refDinv m c (ix1 (srow m c e)) * refDinv m c (ix1 (drow m c e))) := by
  rw [Cert.ReferenceIdeal.Read.val_main_v52_apply, xw_src, Cert.ReferenceIdeal.Read.val_main_v51_apply, Cert.ReferenceIdeal.Read.val_main_v50_apply, Cert.ReferenceIdeal.Read.val_main_v42_apply]
  have hidx : Cert.ReferenceIdeal.Read.idx_main_v50 (Cert.ReferenceIdeal.Read.idx_main_v51 (ix2 e q)) = ix1 e := funext fun a => match a with | ⟨0, _⟩ => rfl
  rw [hidx, dinv_src, dinv_dst]
  rfl

/-- The accumulated messages at node p, lane q: from zero, the messages of the edges that land on p. -/
theorem agg_apply (p : Fin 262144) (q : Fin 64) :
    Cert.ReferenceIdeal.Read.val_main_v55 (F := Ideal) (a2 m c) (a3 m c) (a4 m c) (a5 m c) (a12 m c) (a13 m c) (a14 m c) (ix2 p q)
      = Ideal.ofBits .f32 0x00000000#32
        + ∑ e ∈ landing m c p, refXW m c (ix2 (srow m c e) q) * (refDinv m c (ix1 (srow m c e)) * refDinv m c (ix1 (drow m c e))) := by
  unfold Cert.ReferenceIdeal.Read.val_main_v55
  rw [Cert.LibSG.scatterAdd_rows Cert.ReferenceIdeal.scatter_S262144x64_S2097152x1_S2097152x64_1_0_0_1 rfl rfl rfl rfl
    (Cert.ReferenceIdeal.Read.val_main_v53 (F := Ideal)) (dstCol m c) (Cert.ReferenceIdeal.Read.val_main_v52 (F := Ideal) (a2 m c) (a3 m c) (a4 m c) (a5 m c) (a12 m c) (a13 m c) (a14 m c)) p q,
    Cert.ReferenceIdeal.Read.val_main_v53_apply, Cert.ReferenceIdeal.Read.val_main_cst_9_apply]
  refine congrArg₂ (· + ·) rfl ?_
  exact Finset.sum_congr rfl fun e _ => msg_apply m c e q

/-- The node's own term at (p, q): its feature times its factor twice. -/
theorem self_apply (p : Fin 262144) (q : Fin 64) :
    Cert.ReferenceIdeal.Read.val_main_v59 (F := Ideal) (a2 m c) (a3 m c) (a5 m c) (a12 m c) (a13 m c) (a14 m c) (ix2 p q)
      = refXW m c (ix2 p q) * (refDinv m c (ix1 p) * refDinv m c (ix1 p)) := by
  rw [Cert.ReferenceIdeal.Read.val_main_v59_apply, Cert.ReferenceIdeal.Read.val_main_v58_apply, Cert.ReferenceIdeal.Read.val_main_v57_apply, Cert.ReferenceIdeal.Read.val_main_v56_apply]
  have hidx : Cert.ReferenceIdeal.Read.idx_main_v57 (Cert.ReferenceIdeal.Read.idx_main_v58 (ix2 p q)) = ix1 p := funext fun a => match a with | ⟨0, _⟩ => rfl
  rw [hidx]
  rfl

/-- The bias broadcast over the nodes, at (p, q): the bias at lane q. -/
theorem bias_apply (p : Fin 262144) (q : Fin 64) :
    Cert.ReferenceIdeal.Read.val_main_v62 (F := Ideal) (a15 m c) (ix2 p q) = a15 m c (ix1 q) := by
  rw [Cert.ReferenceIdeal.Read.val_main_v62_apply, Cert.ReferenceIdeal.Read.val_main_v61_apply]
  exact congrArg (a15 m c) (funext fun a => match a with | ⟨0, _⟩ => rfl)

/-- THE REFERENCE'S NODE STATE at node p, lane q. -/
theorem refH_apply (p : Fin 262144) (q : Fin 64) :
    refH m c (ix2 p q)
      = max (((Ideal.ofBits .f32 0x00000000#32
                + ∑ e ∈ landing m c p, refXW m c (ix2 (srow m c e) q) * (refDinv m c (ix1 (srow m c e)) * refDinv m c (ix1 (drow m c e))))
              + refXW m c (ix2 p q) * (refDinv m c (ix1 p) * refDinv m c (ix1 p)))
            + a15 m c (ix1 q))
          (Ideal.ofBits .f32 0x00000000#32) := by
  show Cert.ReferenceIdeal.Read.val_main_v64 (F := Ideal) (a2 m c) (a3 m c) (a4 m c) (a5 m c) (a12 m c) (a13 m c) (a14 m c) (a15 m c) (ix2 p q) = _
  rw [Cert.ReferenceIdeal.Read.val_main_v64_apply, Cert.ReferenceIdeal.Read.val_main_v63_apply, Cert.ReferenceIdeal.Read.val_main_v60_apply, agg_apply, self_apply, bias_apply,
    Cert.ReferenceIdeal.Read.val_main_call1_v0_apply, Cert.ReferenceIdeal.Read.val_main_call1_cst_apply]
  rfl

end Cert.KernelIdeal.RefNode

end
-- ==== Proof.NodeAlgebra.lean ====
/-
  The algebra, on the extended reals, behind one graph-convolution layer with symmetric normalisation.

  A node's new state adds, over the edges that end at it, the sender's feature times the two ends' normalising
  factors, and the node's own feature times its factor squared.  Scaling every feature by its own node's factor
  first, summing the scaled features, and multiplying the receiver's factor in once at the end gives the same
  number.  That is the distributive law, which on the extended reals needs the factor pulled out to be
  non-negative and finite; a node's factor is the inverse square root of (its in-degree plus one), which is both.
-/
import Idealize.ShloMosaic.PureOps.Ideal
import Idealize.ShloMosaic.PureOps.Ideal.Laws

noncomputable section

open scoped BigOperators

namespace Cert.NodeAlgebra

open Idealize.ShloMosaic

/-- The word of the float one denotes the real one. -/
theorem one_word : Ideal.ofBits .f32 0x3F800000#32 = 1 := by
  simp [Ideal.ofBits, Ideal.ieee, -EReal.coe_mul]; norm_num

/-- A non-negative finite factor distributes over a finite sum. -/
theorem mul_sum_of_nonneg_ne_top {ι : Type*} (s : Finset ι) (r : EReal) (h0 : 0 ≤ r) (ht : r ≠ ⊤) (f : ι → EReal) :
    r * ∑ i ∈ s, f i = ∑ i ∈ s, r * f i := by
  classical
  induction s using Finset.induction_on with
  | empty => simp
  | insert a s ha ih =>
    rw [Finset.sum_insert ha, Finset.sum_insert ha, EReal.left_distrib_of_nonneg_of_ne_top h0 ht, ih]

/-- The inverse square root of a non-negative quantity plus one is non-negative and finite. -/
theorem rsqrt_succ (x : EReal) (hx : 0 ≤ x) : 0 ≤ Ideal.rsqrt (x + 1) ∧ Ideal.rsqrt (x + 1) ≠ ⊤ := by
  induction x using EReal.rec with
  | bot => exact absurd hx (by simp)
  | top =>
    have h : (⊤ : EReal) + 1 = ⊤ := EReal.top_add_of_ne_bot (EReal.coe_ne_bot 1)
    rw [h, Ideal.rsqrt_top]
    exact ⟨le_refl _, by simp⟩
  | coe r =>
    have hr : (0 : ℝ) ≤ r := by exact_mod_cast hx
    have h1 : ((r : EReal) + 1) = ((r + 1 : ℝ) : EReal) := by norm_cast
    rw [h1, Ideal.rsqrt_coe, if_neg (by linarith), if_neg (by linarith)]
    refine ⟨?_, EReal.coe_ne_top _⟩
    exact_mod_cast inv_nonneg.mpr (Real.sqrt_nonneg _)

/-- THE LAW.  With `r` the receiving node's factor (non-negative, finite), `xw i` the sender's feature along edge
    `i`, `ds i` the sender's factor and `x` the node's own feature:
    `Σ xw·(ds·r) + x·(r·r) = r·(Σ xw·ds + x·r)`, each sum started from zero. -/
theorem aggregate {ι : Type*} (s : Finset ι) (r : EReal) (h0 : 0 ≤ r) (ht : r ≠ ⊤) (xw ds : ι → EReal) (x : EReal) :
    (0 + ∑ i ∈ s, xw i * (ds i * r)) + x * (r * r) = r * ((0 + ∑ i ∈ s, xw i * ds i) + x * r) := by
  rw [zero_add, zero_add, EReal.left_distrib_of_nonneg_of_ne_top h0 ht, mul_sum_of_nonneg_ne_top s r h0 ht]
  congr 1
  · refine Finset.sum_congr rfl fun i _ => ?_
    rw [← mul_assoc, mul_comm]
  · rw [mul_left_comm]

end Cert.NodeAlgebra

end
-- ==== Proof.KernelNode.lean ====
/-
  Two reads the node-state comparison needs.

  The kernel program's aggregated messages at node p, lane q: zero plus the sum, over the edges that land on p, of
  the gathered row's entry — the accumulating scatter and the row gather read at one element.  And a node's factor:
  the inverse square root of (zero plus one per edge that lands on the node, plus one) is a non-negative, finite
  number, which is what lets it be pulled out of a sum on the extended reals.
-/
import proofs.«416833_j33122787786760_3_alg».proof.Proof.Stages
import proofs.«416833_j33122787786760_3_alg».proof.Proof.Edges
import proofs.«416833_j33122787786760_3_alg».proof.Proof.LibScatterGather
import proofs.«416833_j33122787786760_3_alg».proof.Proof.NodeAlgebra
import Idealize.ShloMosaic.Lib.StableHlo.Predicate
import Idealize.ShloMosaic.Lib.Pipeline.Value
import Idealize.ShloMosaic.Lib.ValueIdx
import Idealize.ShloMosaic.PureOps.Ideal.Laws

set_option maxRecDepth 16384

noncomputable section

namespace Cert.KernelIdeal.KernelNode

open Idealize.ShloMosaic Idealize.ShloMosaic.TcCoe Idealize.SL.Sem Idealize.ShloMosaic.ValueIdx
open Idealize.ShloMosaic.StableHlo.Predicate
open Cert.KernelIdeal Cert.KernelIdeal.Stages Cert.KernelIdeal.Edges

variable (m : (ℓ : Loc nD τ sig) → Buf (Elt Ideal) ℓ) (c : Dev nD)

/-- A node's in-degree as the reference counts it: the zero word plus the word of one per edge whose receiver word,
    read signed, is the node. -/
theorem deg_apply (x5 : (⟨S2097152, .i32⟩ : BufTy).Contents (Elt Ideal)) (p : Fin 262144) :
    Cert.ReferenceIdeal.Read.val_main_v24 (F := Ideal) x5 (ix1 p)
      = Ideal.ofBits .f32 0x00000000#32
        + ∑ e ∈ Finset.univ.filter (fun e : Fin 2097152 => ((Cert.ReferenceIdeal.Read.val_main_v23 (F := Ideal) x5) (ixP e)).toInt = (p.val : ℤ)),
            Ideal.ofBits .f32 0x3F800000#32 := by
  unfold Cert.ReferenceIdeal.Read.val_main_v24
  refine (Cert.LibSG.scatterAdd_flat _ rfl rfl rfl rfl _ _ _ p).trans ?_
  rw [Cert.ReferenceIdeal.Read.val_main_v22_apply, Cert.ReferenceIdeal.Read.val_main_cst_1_apply, Ideal.ofBits_def]
  refine congrArg (Ideal.ofBits .f32 0x00000000#32 + ·) ?_
  refine Finset.sum_congr rfl fun e _ => ?_
  rw [Cert.ReferenceIdeal.Read.val_main_v21_apply, Cert.ReferenceIdeal.Read.val_main_cst_apply, Ideal.ofBits_def]

/-- THE KERNEL PROGRAM'S AGGREGATED MESSAGES at node p, lane q, for any per-node array `xws` gathered at the senders. -/
theorem agg_apply (xws : S262144x64.Idx → EReal) (p : Fin 262144) (q : Fin 64) :
    Host.scatterAdd (F := Ideal) Cert.ReferenceIdeal.scatter_S262144x64_S2097152x1_S2097152x64_1_0_0_1
        (Cert.ReferenceIdeal.Read.val_main_v53 (F := Ideal)) (dstCol m c)
        (Host.gather Cert.ReferenceIdeal.gather_S262144x64_S2097152x1_S2097152x64_1_0_n_n_0_1_164 xws (srcCol m c)) (ix2 p q)
      = Ideal.ofBits .f32 0x00000000#32 + ∑ e ∈ landing m c p, xws (ix2 (srow m c e) q) := by
  refine (Cert.LibSG.scatterAdd_rows _ rfl rfl rfl rfl _ _ _ p q).trans ?_
  rw [Cert.ReferenceIdeal.Read.val_main_v53_apply, Cert.ReferenceIdeal.Read.val_main_cst_9_apply, Ideal.ofBits_def]
  refine congrArg (Ideal.ofBits .f32 0x00000000#32 + ·) ?_
  unfold landing
  refine Finset.sum_congr rfl fun e _ => ?_
  exact Cert.LibSG.gather_rows _ rfl rfl rfl rfl rfl rfl rfl xws (srcCol m c) e q (by decide)

/-- A NODE'S FACTOR is non-negative and finite. -/
theorem dinv_nonneg_ne_top (p : Fin 262144) : 0 ≤ refDinv m c (ix1 p) ∧ refDinv m c (ix1 p) ≠ ⊤ := by
  show 0 ≤ Cert.ReferenceIdeal.Read.val_main_v27 (F := Ideal) (a5 m c) (ix1 p) ∧ Cert.ReferenceIdeal.Read.val_main_v27 (F := Ideal) (a5 m c) (ix1 p) ≠ ⊤
  rw [Cert.ReferenceIdeal.Read.val_main_v27_apply, Ideal.hostUnary_rsqrt_def, Cert.ReferenceIdeal.Read.val_main_v26_apply, Ideal.addf_def,
    Cert.ReferenceIdeal.Read.val_main_v25_apply, Cert.ReferenceIdeal.Read.val_main_cst_2_apply, Ideal.ofBits_def, Cert.NodeAlgebra.one_word]
  refine Cert.NodeAlgebra.rsqrt_succ _ ?_
  rw [deg_apply, Ideal.ofBits_zero_f32, Cert.NodeAlgebra.one_word]
  exact add_nonneg (le_refl _) (Finset.sum_nonneg fun _ _ => zero_le_one)

end Cert.KernelIdeal.KernelNode

end
-- ==== Proof.NodeState.lean ====
/-
  The kernel program's new node states are the reference's.

  The kernel program keeps, per node, the feature already multiplied by the node's own factor d; it sums those
  over the edges that land on node p, adds node p's own scaled feature, and multiplies the total by d[p] once.
  The reference multiplies each edge's feature by d[sender]·d[receiver] before summing and adds the node's own
  feature times d[p]².  An edge that lands on p gathers p's own factor as its receiver factor, and d[p] is
  non-negative and finite, so it distributes over the sum: the two are the same extended real, and adding the bias
  and rectifying keeps them equal.
-/
import proofs.«416833_j33122787786760_3_alg».proof.Proof.Stages
import proofs.«416833_j33122787786760_3_alg».proof.Proof.Edges
import proofs.«416833_j33122787786760_3_alg».proof.Proof.RefNode
import proofs.«416833_j33122787786760_3_alg».proof.Proof.KernelNode
import proofs.«416833_j33122787786760_3_alg».proof.Proof.NodeAlgebra
import Idealize.ShloMosaic.Lib.ValueIdx
import Idealize.ShloMosaic.PureOps.Ideal.Laws

set_option maxRecDepth 16384

noncomputable section

namespace Cert.KernelIdeal.NodeState

open Idealize.ShloMosaic Idealize.ShloMosaic.TcCoe Idealize.SL.Sem Idealize.ShloMosaic.ValueIdx
open Cert.KernelIdeal Cert.KernelIdeal.Stages Cert.KernelIdeal.Edges

variable (m : (ℓ : Loc nD τ sig) → Buf (Elt Ideal) ℓ) (c : Dev nD)

/-- With the column of factors, the bias row, the scaled features and their aggregation over the edges what the
    kernel program holds when its second region starts, the region's whole-array function is the reference's node
    state. -/
theorem nodeState_of (dcol : S262144x1.Idx → EReal) (agg xws : S262144x64.Idx → EReal) (brow : S1x64.Idx → EReal)
    (hd : ∀ p : Fin 262144, dcol (ix2 p 0) = refDinv m c (ix1 p))
    (hagg : agg = Host.scatterAdd (F := Ideal) (φ := .f32) Cert.ReferenceIdeal.scatter_S262144x64_S2097152x1_S2097152x64_1_0_0_1
        (Cert.ReferenceIdeal.Read.val_main_v53 (F := Ideal)) (dstCol m c)
        (Host.gather Cert.ReferenceIdeal.gather_S262144x64_S2097152x1_S2097152x64_1_0_n_n_0_1_164 xws (srcCol m c)))
    (hx : xws = scaled m c)
    (hb : ∀ k : Fin 64, brow (ix2 0 k) = a15 m c (ix1 k)) :
    (fun i : S262144x64.Idx => max (dcol (ix2 (i 0) 0) * (agg i + xws i) + brow (ix2 0 (i 1))) (Ideal.ofBits .f32 0x00000000#32))
      = refH m c := by
  subst hagg hx
  funext i
  obtain ⟨p, q, rfl⟩ : ∃ (p : Fin 262144) (q : Fin 64), i = ix2 p q := ⟨i 0, i 1, eq_ix2 i⟩
  show max (dcol (ix2 p 0) * (_ + scaled m c (ix2 p q)) + brow (ix2 0 q)) _ = _
  rw [hd p, hb q, KernelNode.agg_apply, RefNode.refH_apply, scaled_apply]
  obtain ⟨h0, ht⟩ := KernelNode.dinv_nonneg_ne_top m c p
  have hs : ∑ e ∈ landing m c p, refXW m c (ix2 (srow m c e) q) * (refDinv m c (ix1 (srow m c e)) * refDinv m c (ix1 (drow m c e)))
      = ∑ e ∈ landing m c p, refXW m c (ix2 (srow m c e) q) * (refDinv m c (ix1 (srow m c e)) * refDinv m c (ix1 p)) :=
    Finset.sum_congr rfl fun e he => by rw [drow_of_landing m c he]
  have hk : ∑ e ∈ landing m c p, scaled m c (ix2 (srow m c e) q)
      = ∑ e ∈ landing m c p, refXW m c (ix2 (srow m c e) q) * refDinv m c (ix1 (srow m c e)) :=
    Finset.sum_congr rfl fun e _ => scaled_apply m c (srow m c e) q
  rw [hs, hk, Ideal.ofBits_zero_f32]
  rw [NodeAlgebra.aggregate (landing m c p) (refDinv m c (ix1 p)) h0 ht (fun e => refXW m c (ix2 (srow m c e) q))
    (fun e => refDinv m c (ix1 (srow m c e))) (refXW m c (ix2 p q))]

end Cert.KernelIdeal.NodeState

end
-- ==== Proof.Classifier.lean ====
/-
  The classifier body's two stored values are the reference's logits and loss.

  Both programs compute, per graph b: the image and text projections (a 512-term dot product each, plus a bias),
  their concatenation with the pooled graph features, a rectified 192-term dense layer, a 64-term dot product plus
  a bias (the logit), and the mean over the 64 graphs of  max(l, 0) − l·answer + log(1 + exp(−|l|)).  The kernel
  body spells the biases as [1 × n] rows broadcast down the sublanes, the negation as 0 − |l|, the sum as a lane
  reduction and the matrix products with a zero accumulator; the reference spells them as host broadcasts, a
  negation, a host sum from zero and dot products.  On the extended reals each pair is one function.
-/
import proofs.«416833_j33122787786760_3_alg».proof.Proof.Stages
import proofs.«416833_j33122787786760_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Classifier

open Idealize.ShloMosaic Idealize.ShloMosaic.TcCoe Idealize.SL.Sem Idealize.ShloMosaic.ValueIdx
open Cert.KernelIdeal Cert.KernelIdeal.Gen Cert.KernelIdeal.Stages

variable (m : (ℓ : Loc nD τ sig) → Buf (Elt Ideal) ℓ) (c : Dev nD)

/-- The hidden layer's rectified activations from the kernel's arguments, the pooled graph features `gf` and the three
    bias rows. -/
abbrev hiddenOf (gf : S64x64.Idx → EReal) (bi2 bt2 bc1 : S1x64.Idx → EReal) : FVec Ideal S64x64 .bf16 :=
  k2_pay3 (F := Ideal) (a0 m c) (a8 m c) bi2 (a1 m c) (a10 m c) bt2 gf (a16 m c) bc1

/-- On the extended reals a narrowing conversion of a whole array is the array itself. -/
theorem truncf_id {s : Shape} {φ ψ : FTy} (a : FVec Ideal s φ) (h : ψ.bits < φ.bits) :
    (truncf ψ a h : FVec Ideal s ψ) = a := rfl

/-- A matrix product into the zero accumulator and the host's dot product over the same dimension record are one
    function: each entry is the sum, over the contraction index, of the operands' products. -/
theorem matmul_zero_eq_dot {sl sr so : Shape} {φ₁ φ₂ ψ₁ ψ₂ : FTy} (d : DotDims sl sr so)
    (l : sl.Idx → EReal) (r : sr.Idx → EReal) :
    matmul (F := Ideal) (φ₁ := φ₁) (φ₂ := φ₂) d none l r (constant so .f32 0x00000000#32)
      = Host.dotGeneral (F := Ideal) (φ₁ := ψ₁) (φ₂ := ψ₂) d none l r := by
  funext j
  exact (Ideal.matmul_constant_zero_apply (φ₁ := φ₁) (φ₂ := φ₂) d none l r j).trans
    (Ideal.dotGeneral_apply (φ₁ := ψ₁) (φ₂ := ψ₂) d none .single l r j).symm

/-- A [1 × 64] row broadcast down 64 sublanes, read at (p, q): the row's entry q. -/
theorem bcast_row (x : FVec Ideal S1x64 .f32) (h : S1x64.Broadcasts S64x64) (p q : Fin 64) :
    broadcastTo S64x64 x h (ix2 p q) = x (ix2 0 q) := by
  refine broadcastTo_apply x h (ix2 p q) (ix2 0 q) fun a => ?_
  match a with
  | ⟨0, _⟩ => show (0 : ℕ) = if (1 : ℕ) = 1 then 0 else p.val; rw [if_pos rfl]
  | ⟨1, _⟩ => show q.val = if (64 : ℕ) = 1 then 0 else q.val; rw [if_neg (by decide)]

/-- A bias row that holds the vector x, broadcast down the sublanes, is any [64 × 64] array whose entry (p, q) is x q. -/
theorem bias_rows (x : S64.Idx → EReal) (b : S1x64.Idx → EReal) (hb : b = fun i => x (ix1 (i 1)))
    (hbr : S1x64.Broadcasts S64x64) (f : S64x64.Idx → EReal) (hf : ∀ p q : Fin 64, f (ix2 p q) = x (ix1 q)) :
    broadcastTo S64x64 b hbr = f := by
  funext j
  obtain ⟨p, q, rfl⟩ : ∃ (p : Fin 64) (q : Fin 64), j = ix2 p q := ⟨j 0, j 1, eq_ix2 j⟩
  rw [bcast_row, hb, hf]

/-- The reference's two-step broadcast of the image bias, read at (p, q). -/
theorem v2_at (x : S64.Idx → EReal) (p q : Fin 64) : Cert.ReferenceIdeal.Read.val_main_v2 (F := Ideal) x (ix2 p q) = x (ix1 q) := by
  rw [Cert.ReferenceIdeal.Read.val_main_v2_apply, Cert.ReferenceIdeal.Read.val_main_v1_apply]
  refine congrArg x ?_
  funext a; match a with | ⟨0, _⟩ => rfl

/-- The reference's two-step broadcast of the text bias, read at (p, q). -/
theorem v6_at (x : S64.Idx → EReal) (p q : Fin 64) : Cert.ReferenceIdeal.Read.val_main_v6 (F := Ideal) x (ix2 p q) = x (ix1 q) := by
  rw [Cert.ReferenceIdeal.Read.val_main_v6_apply, Cert.ReferenceIdeal.Read.val_main_v5_apply]
  refine congrArg x ?_
  funext a; match a with | ⟨0, _⟩ => rfl

/-- The reference's two-step broadcast of the hidden layer's bias, read at (p, q). -/
theorem v78_at (x : S64.Idx → EReal) (p q : Fin 64) : Cert.ReferenceIdeal.Read.val_main_v78 (F := Ideal) x (ix2 p q) = x (ix1 q) := by
  rw [Cert.ReferenceIdeal.Read.val_main_v78_apply, Cert.ReferenceIdeal.Read.val_main_v77_apply]
  refine congrArg x ?_
  funext a; match a with | ⟨0, _⟩ => rfl

/-- THE IMAGE AND TEXT PROJECTIONS: a 512-term product into the zero accumulator plus the broadcast bias row is the host's
    dot product plus any array the broadcast row equals. -/
theorem proj_eq (x : S64x512.Idx → EReal) (w : S512x64.Idx → EReal) (b : S1x64.Idx → EReal)
    (h1 : FTy.bits .bf16 < FTy.bits .f32) (hs : S1x64.ShapeCasts S1x64) (hbr : S1x64.Broadcasts S64x64) (f : S64x64.Idx → EReal)
    (hf : broadcastTo S64x64 b hbr = f) :
    addf (matmul dot_S64x512_S512x64_S64x64_1_0_0_1_n_n none (truncf .bf16 x h1 : FVec Ideal S64x512 .bf16) (truncf .bf16 w h1 : FVec Ideal S512x64 .bf16) (constant S64x64 .f32 0x00000000#32)) (broadcastTo S64x64 (shapeCast S1x64 b hs) hbr)
      = addf (Host.dotGeneral (F := Ideal) (φ₁ := .f32) (φ₂ := .f32) Cert.ReferenceIdeal.dot_S64x512_S512x64_S64x64_1_0_0_1_n_n none x w) f := by
  rw [shapeCast_self, hf, truncf_id, truncf_id]
  exact congrArg (fun t => addf t f) (matmul_zero_eq_dot dot_S64x512_S512x64_S64x64_1_0_0_1_n_n x w)

/-- Three pieces joined along the lanes: equal pieces give equal joins. -/
theorem concat_eq (i1 i2 i3 j1 j2 j3 : S64x64.Idx → EReal) (h1 : i1 = j1) (h2 : i2 = j2) (h3 : i3 = j3)
    (hc : Shape.Concatenates [S64x64, S64x64, S64x64] S64x192 1) :
    concatenate (α := EReal) S64x192 1 [⟨S64x64, i1⟩, ⟨S64x64, i2⟩, ⟨S64x64, i3⟩] hc
      = concatenate (α := EReal) S64x192 1 [⟨S64x64, j1⟩, ⟨S64x64, j2⟩, ⟨S64x64, j3⟩] hc := by
  subst h1 h2 h3; rfl

/-- The reference's rectifier threshold, a scalar zero broadcast to [64 × 64], is the kernel's splat of the zero word. -/
theorem zero_splat : broadcast S64x64 (FloatOps.ofBits (F := Ideal) .f32 0x00000000#32) = Cert.ReferenceIdeal.Read.val_main_call2_v0 (F := Ideal) := by
  funext i
  rw [Cert.ReferenceIdeal.Read.val_main_call2_v0_apply]
  rfl

/-- THE HIDDEN LAYER over any joined input z: a 192-term product into the zero accumulator, plus the bias row, rectified
    against the zero word, is the host's dot product plus its bias, rectified against its zero array. -/
theorem dense_eq (z z' : S64x192.Idx → EReal) (hz : z = z') (w : S192x64.Idx → EReal) (b : S1x64.Idx → EReal)
    (h1 : FTy.bits .bf16 < FTy.bits .f32) (hbr : S1x64.Broadcasts S64x64) (f : S64x64.Idx → EReal)
    (hf : broadcastTo S64x64 b hbr = f) :
    (truncf .bf16 (maximumf (addf (matmul dot_S64x192_S192x64_S64x64_1_0_0_1_n_n none (truncf .bf16 z h1 : FVec Ideal S64x192 .bf16) (truncf .bf16 w h1 : FVec Ideal S192x64 .bf16) (constant S64x64 .f32 0x00000000#32)) (broadcastTo S64x64 b hbr)) (broadcast S64x64 (FloatOps.ofBits (F := Ideal) .f32 0x00000000#32))) h1 : FVec Ideal S64x64 .bf16)
      = maximumf (addf (Host.dotGeneral (F := Ideal) (φ₁ := .f32) (φ₂ := .f32) Cert.ReferenceIdeal.dot_S64x192_S192x64_S64x64_1_0_0_1_n_n none z' w) f) (Cert.ReferenceIdeal.Read.val_main_call2_v0 (F := Ideal)) := by
  subst hz
  rw [hf, zero_splat, truncf_id, truncf_id, truncf_id]
  exact congrArg (fun t => maximumf (addf t f) (Cert.ReferenceIdeal.Read.val_main_call2_v0 (F := Ideal))) (matmul_zero_eq_dot dot_S64x192_S192x64_S64x64_1_0_0_1_n_n z w)

/-- THE HIDDEN LAYER of the kernel body is the reference's rectified dense layer. -/
theorem hidden_eq (gf : S64x64.Idx → EReal) (bi2 bt2 bc1 : S1x64.Idx → EReal)
    (hgf : gf = refGF m c) (hbi : bi2 = fun i => a9 m c (ix1 (i 1))) (hbt : bt2 = fun i => a11 m c (ix1 (i 1)))
    (hbc1 : bc1 = fun i => a17 m c (ix1 (i 1))) :
    hiddenOf m c gf bi2 bt2 bc1 = Cert.ReferenceIdeal.Read.val_main_v80 (F := Ideal) (a0 m c) (a1 m c) (a2 m c) (a3 m c) (a4 m c) (a5 m c) (a6 m c) (a8 m c) (a9 m c) (a10 m c) (a11 m c) (a12 m c) (a13 m c) (a14 m c) (a15 m c) (a16 m c) (a17 m c) := by
  unfold hiddenOf k2_pay3
  simp only [shapeCast_self]
  refine (dense_eq _ (Cert.ReferenceIdeal.Read.val_main_v75 (F := Ideal) (a0 m c) (a1 m c) (a2 m c) (a3 m c) (a4 m c) (a5 m c) (a6 m c) (a8 m c) (a9 m c) (a10 m c) (a11 m c) (a12 m c) (a13 m c) (a14 m c) (a15 m c)) ?_ (a16 m c) bc1 _ _ (Cert.ReferenceIdeal.Read.val_main_v78 (F := Ideal) (a17 m c)) (bias_rows (a17 m c) bc1 hbc1 _ _ (v78_at (a17 m c)))).trans ?_
  · unfold Cert.ReferenceIdeal.Read.val_main_v75
    refine concat_eq _ _ _ _ _ _ ?_ ?_ ?_ _
    · exact proj_eq (a0 m c) (a8 m c) bi2 _ _ _ _ (bias_rows (a9 m c) bi2 hbi _ _ (v2_at (a9 m c)))
    · exact proj_eq (a1 m c) (a10 m c) bt2 _ _ _ _ (bias_rows (a11 m c) bt2 hbt _ _ (v6_at (a11 m c)))
    · rw [shapeCast_self, hgf]
  · rfl

/-- A [1 × 1] cell broadcast down 64 sublanes, read at (p, q): the cell. -/
theorem bcast_cell (x : FVec Ideal S1x1 .f32) (h : S1x1.Broadcasts S64x1) (p : Fin 64) (q : Fin 1) :
    broadcastTo S64x1 x h (ix2 p q) = x (ix2 0 0) := by
  refine broadcastTo_apply x h (ix2 p q) (ix2 0 0) fun a => ?_
  match a with
  | ⟨0, _⟩ => show (0 : ℕ) = if (1 : ℕ) = 1 then 0 else p.val; rw [if_pos rfl]
  | ⟨1, _⟩ => show (0 : ℕ) = if (1 : ℕ) = 1 then 0 else q.val; rw [if_pos rfl]

/-- The kernel's bias cell broadcast down the sublanes is the reference's two-step broadcast of the one-entry bias
    vector. -/
theorem bias_cell (x : S1.Idx → EReal) (b : S1x1.Idx → EReal) (hb : b = fun _ => x (ix1 0))
    (hs : S1x1.ShapeCasts S1x1) (hbr : S1x1.Broadcasts S64x1) :
    broadcastTo S64x1 (shapeCast S1x1 b hs) hbr = Cert.ReferenceIdeal.Read.val_main_v83 (F := Ideal) x := by
  funext j
  obtain ⟨p, q, rfl⟩ : ∃ (p : Fin 64) (q : Fin 1), j = ix2 p q := ⟨j 0, j 1, eq_ix2 j⟩
  rw [shapeCast_self, bcast_cell, hb, Cert.ReferenceIdeal.Read.val_main_v83_apply, Cert.ReferenceIdeal.Read.val_main_v82_apply]
  refine congrArg x ?_
  funext a; match a with | ⟨0, _⟩ => rfl

/-- THE LOGITS COLUMN over any hidden activations v: a 64-term product into the zero accumulator plus the bias cell is
    the host's dot product plus any array the broadcast cell equals. -/
theorem col_eq (v v' : S64x64.Idx → EReal) (hv : v = v') (w : S64x1.Idx → EReal) (b : S1x1.Idx → EReal)
    (f : S64x1.Idx → EReal) (hf : broadcastTo S64x1 (shapeCast S1x1 b shapeCasts_S1x1_S1x1) broadcasts_S1x1_S64x1 = f) :
    k2_pay1 (F := Ideal) v (k2_pay4 (F := Ideal) w) (constant S64x1 .f32 0x00000000#32) b
      = addf (Host.dotGeneral (F := Ideal) (φ₁ := .f32) (φ₂ := .f32) Cert.ReferenceIdeal.dot_S64x64_S64x1_S64x1_1_0_0_1_n_n none v' w) f := by
  subst hv
  show addf (matmul (F := Ideal) (φ₁ := .bf16) (φ₂ := .bf16) dot_S64x64_S64x1_S64x1_1_0_0_1_n_n none v (truncf .bf16 w bitsLt_bf16_f32) (constant S64x1 .f32 0x00000000#32)) (broadcastTo S64x1 (shapeCast S1x1 b shapeCasts_S1x1_S1x1) broadcasts_S1x1_S64x1) = _
  rw [hf, truncf_id]
  exact congrArg (fun t => addf t f) (matmul_zero_eq_dot dot_S64x64_S64x1_S64x1_1_0_0_1_n_n v w)

/-- The reference's logits as the [64 × 1] column they are computed in. -/
abbrev refCol : S64x1.Idx → EReal := Cert.ReferenceIdeal.Read.val_main_v84 (F := Ideal) (a0 m c) (a1 m c) (a2 m c) (a3 m c) (a4 m c) (a5 m c) (a6 m c) (a8 m c) (a9 m c) (a10 m c) (a11 m c) (a12 m c) (a13 m c) (a14 m c) (a15 m c) (a16 m c) (a17 m c) (a18 m c) (a19 m c)

/-- THE LOGITS COLUMN of the kernel body is the reference's. -/
theorem logits_col (gf : S64x64.Idx → EReal) (bi2 bt2 bc1 : S1x64.Idx → EReal) (bc2 : S1x1.Idx → EReal)
    (hgf : gf = refGF m c) (hbi : bi2 = fun i => a9 m c (ix1 (i 1))) (hbt : bt2 = fun i => a11 m c (ix1 (i 1)))
    (hbc1 : bc1 = fun i => a17 m c (ix1 (i 1))) (hbc2 : bc2 = fun _ => a19 m c (ix1 0)) :
    k2_pay1 (F := Ideal) (hiddenOf m c gf bi2 bt2 bc1) (k2_pay4 (F := Ideal) (a18 m c)) (constant S64x1 .f32 0x00000000#32) bc2
      = refCol m c :=
  col_eq _ _ (hidden_eq m c gf bi2 bt2 bc1 hgf hbi hbt hbc1) (a18 m c) bc2 _ (bias_cell (a19 m c) bc2 hbc2 _ _)

/-- The reference's logit of graph p is entry (p, 0) of the column: the reshape keeps the row-major position. -/
theorem refLogits_at (p : Fin 64) (q : Fin 1) : refLogits m c (ix1 p) = refCol m c (ix2 p q) := by
  show Cert.ReferenceIdeal.Read.val_main_v85 (F := Ideal) (a0 m c) (a1 m c) (a2 m c) (a3 m c) (a4 m c) (a5 m c) (a6 m c) (a8 m c) (a9 m c) (a10 m c) (a11 m c) (a12 m c) (a13 m c) (a14 m c) (a15 m c) (a16 m c) (a17 m c) (a18 m c) (a19 m c) (ix1 p) = _
  rw [Cert.ReferenceIdeal.Read.val_main_v85_apply]
  refine congrArg (refCol m c) ?_
  funext a; apply Fin.ext
  match a with
  | ⟨0, _⟩ => exact Nat.div_one p.val
  | ⟨1, _⟩ => show (0 : ℕ) = q.val; omega

/-- The kernel body's per-graph loss terms as a column, from the logits column l and the answers column a:
    max(l, 0) − l·a + log1p(exp(0 − |l|)). -/
abbrev lossCol (l a : FVec Ideal S64x1 .f32) : FVec Ideal S64x1 .f32 :=
  addf (subf (maximumf l (broadcast S64x1 (FloatOps.ofBits (F := Ideal) .f32 0x00000000#32))) (mulf l a))
    (log1p (exp (subf (broadcast S64x1 (FloatOps.ofBits (F := Ideal) .f32 0x00000000#32)) (absf l))))

/-- THE KERNEL'S MEAN: the lane sum of a [64 × 1] column, recast to the [1 × 1] cell and divided by the splat word, is
    the sum of the column's 64 entries divided by that word. -/
theorem cell_mean (v : FVec Ideal S64x1 .f32) (i : S1x1.Idx) (hr : S64x1.Reduces [0] S1) (hφ : FKind.Formats .f32)
    (hacc : (0x00000000#32 : BitVec FTy.f32.bits) = FKind.neutral .add .f32 hφ) (hs : S1.ShapeCasts S1x1) (w : BitVec 32) :
    divf (shapeCast S1x1 (multiReduction .add [0] S1 v 0x00000000#32 hr hφ hacc) hs) (broadcast S1x1 (FloatOps.ofBits (F := Ideal) .f32 w)) i
      = Ideal.div (∑ k : Fin 64, v (ix2 k 0)) (Ideal.ofBits .f32 w) := by
  obtain ⟨p, q, rfl⟩ : ∃ (p : Fin 1) (q : Fin 1), i = ix2 p q := ⟨i 0, i 1, eq_ix2 i⟩
  obtain rfl : p = 0 := Subsingleton.elim _ _
  obtain rfl : q = 0 := Subsingleton.elim _ _
  rw [divf_apply, shapeCast_apply _ hs (ix2 0 0) (ix1 0) rfl, Ideal.multiReduction_add_single]
  show Ideal.div (∑ k : Fin 64, v (hr.lift (ix1 0) k)) (Ideal.ofBits .f32 w) = _
  refine congrArg (fun s => Ideal.div s (Ideal.ofBits .f32 w)) (Finset.sum_congr rfl fun k _ => congrArg v ?_)
  funext a; apply Fin.ext
  match a with
  | ⟨0, _⟩ => rfl
  | ⟨1, _⟩ => rfl

/-- A rank-1 index over 64 entries is its coordinate. -/
def idx64 : S64.Idx ≃ Fin 64 where
  toFun i := i 0
  invFun := ix1
  left_inv i := (eq_ix1 i).symm
  right_inv _ := rfl

/-- The reference's per-graph loss terms, [64]. -/
abbrev refTerms : S64.Idx → EReal := Cert.ReferenceIdeal.Read.val_main_v94 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c)

/-- THE REFERENCE'S MEAN: its host sum from the zero word over the 64 terms, divided by the word 64.0. -/
theorem refLoss_eq : refLoss m c ix0 = Ideal.div (∑ k : Fin 64, refTerms m c (ix1 k)) (Ideal.ofBits .f32 0x42800000#32) := by
  show Ideal.div (Cert.ReferenceIdeal.Read.val_main_v95 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) ix0) (Ideal.ofBits .f32 0x42800000#32) = _
  rw [Cert.ReferenceIdeal.Read.val_main_v95_apply]
  show Ideal.div (Ideal.ofBits .f32 0x00000000#32 + ∑ j : S64.Idx, refTerms m c j) (Ideal.ofBits .f32 0x42800000#32) = _
  rw [Ideal.ofBits_zero_f32, zero_add]
  exact congrArg (fun s => Ideal.div s (Ideal.ofBits .f32 0x42800000#32)) (Equiv.sum_comp idx64.symm (refTerms m c)).symm

/-- The reference's loss term of graph k from its logit l and answer a: max(l, 0) − l·a + log1p(exp(−|l|)). -/
theorem ref_term (k : Fin 64) :
    refTerms m c (ix1 k)
      = max (refLogits m c (ix1 k)) (Ideal.ofBits .f32 0x00000000#32) - refLogits m c (ix1 k) * a7 m c (ix1 k)
          + Ideal.log1p (Ideal.exp (-(FloatOps.absf (F := Ideal) (φ := .f32) (refLogits m c (ix1 k))))) := by
  unfold refTerms
  rw [Cert.ReferenceIdeal.Read.val_main_v94_apply, Cert.ReferenceIdeal.Read.val_main_v89_apply, Cert.ReferenceIdeal.Read.val_main_v87_apply, Cert.ReferenceIdeal.Read.val_main_v88_apply, Cert.ReferenceIdeal.Read.val_main_v93_apply, Cert.ReferenceIdeal.Read.val_main_v92_apply, Cert.ReferenceIdeal.Read.val_main_v91_apply, Cert.ReferenceIdeal.Read.val_main_v90_apply, Cert.ReferenceIdeal.Read.val_main_v86_apply, Cert.ReferenceIdeal.Read.val_main_cst_13_apply]
  rfl

/-- THE LOGITS: when the pooled features are the reference's and each bias row holds its argument vector, the stored
    logits column holds the reference's logits. -/
theorem logits_value (gf : S64x64.Idx → EReal) (bi2 bt2 bc1 : S1x64.Idx → EReal) (bc2 : S1x1.Idx → EReal)
    (hgf : gf = refGF m c) (hbi : bi2 = fun i => a9 m c (ix1 (i 1))) (hbt : bt2 = fun i => a11 m c (ix1 (i 1)))
    (hbc1 : bc1 = fun i => a17 m c (ix1 (i 1))) (hbc2 : bc2 = fun _ => a19 m c (ix1 0)) :
    k2_pay1 (F := Ideal) (hiddenOf m c gf bi2 bt2 bc1) (k2_pay4 (F := Ideal) (a18 m c)) (constant S64x1 .f32 0x00000000#32) bc2
      = fun i => refLogits m c (ix1 (i 0)) := by
  rw [logits_col m c gf bi2 bt2 bc1 bc2 hgf hbi hbt hbc1 hbc2]
  funext i
  obtain ⟨p, q, rfl⟩ : ∃ (p : Fin 64) (q : Fin 1), i = ix2 p q := ⟨i 0, i 1, eq_ix2 i⟩
  exact (refLogits_at m c p q).symm

/-- THE LOSS: under the same hypotheses, and the answers column holding the answers vector, the stored loss cell
    holds the reference's loss. -/
theorem loss_value (gf : S64x64.Idx → EReal) (bi2 bt2 bc1 : S1x64.Idx → EReal) (bc2 : S1x1.Idx → EReal) (ans2 : S64x1.Idx → EReal)
    (hgf : gf = refGF m c) (hbi : bi2 = fun i => a9 m c (ix1 (i 1))) (hbt : bt2 = fun i => a11 m c (ix1 (i 1)))
    (hbc1 : bc1 = fun i => a17 m c (ix1 (i 1))) (hbc2 : bc2 = fun _ => a19 m c (ix1 0))
    (hans : ans2 = fun i => a7 m c (ix1 (i 0))) :
    k2_pay2 (F := Ideal) (hiddenOf m c gf bi2 bt2 bc1) (k2_pay4 (F := Ideal) (a18 m c)) (constant S64x1 .f32 0x00000000#32) bc2 ans2
      = fun _ => refLoss m c ix0 := by
  funext i
  unfold k2_pay2
  rw [logits_col m c gf bi2 bt2 bc1 bc2 hgf hbi hbt hbc1 hbc2, shapeCast_self]
  refine (cell_mean (lossCol (refCol m c) ans2) i _ _ _ _ _).trans ?_
  rw [refLoss_eq]
  refine congrArg (fun s => Ideal.div s (Ideal.ofBits .f32 0x42800000#32)) (Finset.sum_congr rfl fun k _ => ?_)
  rw [ref_term, refLogits_at m c k 0, hans]
  show max (refCol m c (ix2 k 0)) (Ideal.ofBits .f32 0x00000000#32) - refCol m c (ix2 k 0) * a7 m c (ix1 k)
      + Ideal.log1p (Ideal.exp (Ideal.ofBits .f32 0x00000000#32 - FloatOps.absf (F := Ideal) (φ := .f32) (refCol m c (ix2 k 0)))) = _
  rw [Ideal.ofBits_zero_f32, zero_sub]

end Cert.KernelIdeal.Classifier

end
-- ==== Proof.KernelValue.lean ====
/-
  The kernel program's two results are the reference's logits and loss.

  Region by region: the first region leaves the reference's doubly projected features scaled by each node's own
  factor; the second host stretch aggregates them over the edges and the second region turns them into the
  reference's node states; the third stretch pools them into the reference's graph features; the classifier region
  leaves the reference's logits (as a column) and loss (as a cell), which the last stretch flattens.
-/
import proofs.«416833_j33122787786760_3_alg».proof.Proof.Stages
import proofs.«416833_j33122787786760_3_alg».proof.Proof.HostValues
import proofs.«416833_j33122787786760_3_alg».proof.Proof.HostTail
import proofs.«416833_j33122787786760_3_alg».proof.Proof.Region0
import proofs.«416833_j33122787786760_3_alg».proof.Proof.Region1
import proofs.«416833_j33122787786760_3_alg».proof.Proof.Region2
import proofs.«416833_j33122787786760_3_alg».proof.Proof.Scaled
import proofs.«416833_j33122787786760_3_alg».proof.Proof.NodeState
import proofs.«416833_j33122787786760_3_alg».proof.Proof.Classifier
import Idealize.ShloMosaic.Lib.ValueIdx

set_option maxRecDepth 16384

noncomputable section

namespace Cert.KernelIdeal.KernelValue

open Idealize.ShloMosaic Idealize.ShloMosaic.TcCoe Idealize.SL.Sem Idealize.ShloMosaic.ValueIdx
open Cert.KernelIdeal Cert.KernelIdeal.Gen Cert.KernelIdeal.Stages

variable (m : (ℓ : Loc nD τ sig) → Buf (Elt Ideal) ℓ) (ρ : Dev nD → PrngReg) (c : Dev nD)

/-- A [1 × n] row that holds a vector entry by entry is that vector read at the lane. -/
theorem row_ext {n : ℕ} (x : (⟨2, ![1, n]⟩ : Shape).Idx → EReal) (y : (⟨1, ![n]⟩ : Shape).Idx → EReal)
    (h : ∀ k : Fin n, x (ix2 0 k) = y (ix1 k)) : x = fun i => y (ix1 (i 1)) := by
  funext i
  obtain ⟨u, k, rfl⟩ : ∃ (u : Fin 1) (k : Fin n), i = ix2 u k := ⟨i 0, i 1, eq_ix2 i⟩
  obtain rfl : u = 0 := Subsingleton.elim _ _
  exact h k

/-- An [n × 1] column that holds a vector entry by entry is that vector read at the row. -/
theorem col_ext {n : ℕ} (x : (⟨2, ![n, 1]⟩ : Shape).Idx → EReal) (y : (⟨1, ![n]⟩ : Shape).Idx → EReal)
    (h : ∀ (b : Fin n) (u : Fin 1), x (ix2 b u) = y (ix1 b)) : x = fun i => y (ix1 (i 0)) := by
  funext i
  obtain ⟨b, u, rfl⟩ : ∃ (b : Fin n) (u : Fin 1), i = ix2 b u := ⟨i 0, i 1, eq_ix2 i⟩
  exact h b u

/-- After the first region: the scaled features. -/
theorem xws_eq : (V2 m ρ c main_v16 : S262144x64.Idx → EReal) = scaled m c := by
  rw [HostValues.V2_xws, Region0.array_eq]
  exact Scaled.scaled_of m c _ _ _ _ _ (HostValues.V1_feat m ρ c) (HostValues.V1_dcol m ρ c) (HostValues.V1_wProj m ρ c)
    (HostValues.V1_wConv m ρ c) (HostValues.V1_brow m ρ c)

/-- After the second region: the reference's node states. -/
theorem h_eq : (V4 m ρ c main_v29 : S262144x64.Idx → EReal) = refH m c := by
  rw [HostValues.V4_h, Region1.array_eq]
  exact NodeState.nodeState_of m c _ _ _ _ (HostValues.V3_dcol m ρ c)
    ((HostValues.V3_agg m ρ c).trans (by
      rw [show Region1.xwsArr (V3 m ρ) c = V2 m ρ c main_v16 from HostValues.V3_xws m ρ c]))
    ((HostValues.V3_xws m ρ c).trans (xws_eq m ρ c)) (HostValues.V3_brow m ρ c)

/-- Entering the classifier: the reference's pooled graph features. -/
theorem gf_eq : (V5 m ρ c main_v39 : S64x64.Idx → EReal) = refGF m c := HostTail.V5_gf m ρ c (h_eq m ρ c)

/-- After the classifier region: the logits column. -/
theorem logits2d_eq : (V6 m ρ c main_v45_0 : S64x1.Idx → EReal) = fun i => refLogits m c (ix1 (i 0)) := by
  rw [HostTail.V6_logits, Region2.logits_eq]
  show k2_pay1 (F := Ideal) (k2_pay3 (F := Ideal) (V5 m ρ c main_arg0) (V5 m ρ c main_arg8) (V5 m ρ c main_v40) (V5 m ρ c main_arg1)
      (V5 m ρ c main_arg10) (V5 m ρ c main_v41) (V5 m ρ c main_v39) (V5 m ρ c main_arg16) (V5 m ρ c main_v42))
      (k2_pay4 (F := Ideal) (V5 m ρ c main_arg18)) (constant S64x1 .f32 0x00000000#32) (V5 m ρ c main_v43) = _
  rw [HostTail.V5_arg0, HostTail.V5_arg8, HostTail.V5_arg1, HostTail.V5_arg10, HostTail.V5_arg16, HostTail.V5_arg18]
  exact Classifier.logits_value m c _ _ _ _ _ (gf_eq m ρ c) (row_ext _ _ (HostTail.V5_bi m ρ c)) (row_ext _ _ (HostTail.V5_bt m ρ c))
    (row_ext _ _ (HostTail.V5_bc1 m ρ c)) (funext fun i => by
      obtain ⟨u, v, rfl⟩ : ∃ (u v : Fin 1), i = ix2 u v := ⟨i 0, i 1, eq_ix2 i⟩
      exact HostTail.V5_bc2 m ρ c u v)

/-- After the classifier region: the loss cell. -/
theorem loss2d_eq : (V6 m ρ c main_v45_1 : S1x1.Idx → EReal) = fun _ => refLoss m c ix0 := by
  rw [HostTail.V6_loss, Region2.loss_eq]
  show k2_pay2 (F := Ideal) (k2_pay3 (F := Ideal) (V5 m ρ c main_arg0) (V5 m ρ c main_arg8) (V5 m ρ c main_v40) (V5 m ρ c main_arg1)
      (V5 m ρ c main_arg10) (V5 m ρ c main_v41) (V5 m ρ c main_v39) (V5 m ρ c main_arg16) (V5 m ρ c main_v42))
      (k2_pay4 (F := Ideal) (V5 m ρ c main_arg18)) (constant S64x1 .f32 0x00000000#32) (V5 m ρ c main_v43) (V5 m ρ c main_v44) = _
  rw [HostTail.V5_arg0, HostTail.V5_arg8, HostTail.V5_arg1, HostTail.V5_arg10, HostTail.V5_arg16, HostTail.V5_arg18]
  exact Classifier.loss_value m c _ _ _ _ _ _ (gf_eq m ρ c) (row_ext _ _ (HostTail.V5_bi m ρ c)) (row_ext _ _ (HostTail.V5_bt m ρ c))
    (row_ext _ _ (HostTail.V5_bc1 m ρ c)) (funext fun i => by
      obtain ⟨u, v, rfl⟩ : ∃ (u v : Fin 1), i = ix2 u v := ⟨i 0, i 1, eq_ix2 i⟩
      exact HostTail.V5_bc2 m ρ c u v) (col_ext _ _ (HostTail.V5_ans m ρ c))

/-- THE FIRST RESULT at the return: the reference's logits. -/
theorem logits_final : (W7 m ρ c (Proc.devRef .tc main_v46) : S64.Idx → EReal) = refLogits m c := by
  funext i
  obtain ⟨b, rfl⟩ : ∃ b : Fin 64, i = ix1 b := ⟨i 0, eq_ix1 i⟩
  rw [HostTail.W7_logits, logits2d_eq]
  rfl

/-- THE SECOND RESULT at the return: the reference's loss. -/
theorem loss_final : (W7 m ρ c (Proc.devRef .tc main_v47) : S_.Idx → EReal) = refLoss m c := by
  funext i
  rw [eq_ix0 i, HostTail.W7_loss, loss2d_eq]

end Cert.KernelIdeal.KernelValue

end
-- ==== Proof.lean ====
/-
  The certificate: a graph-convolution classifier written as three kernel regions among host operations against its
  plain reference.

  The three programs' frames are their generated runs.  The idealization changes nothing (its ledger is empty).  For
  the value claim both programs are read on the extended reals from memories that agree on the twenty arguments: the
  reference's run ends with its two results at its own composed terms, the logits and the loss as functions of the
  arguments; the kernel program's run ends with its two results at what its last segment boundary holds, and region
  by region that is the same pair of functions: the dense layers are the same sums, and the one rearrangement —
  each node's normalising factor multiplied into the features before the edges are summed and once more afterwards,
  instead of a product of two factors per edge — is the distributive law for a non-negative finite factor.
-/
import proofs.«416833_j33122787786760_3_alg».proof.Defs
import proofs.«416833_j33122787786760_3_alg».proof.Proof.Gen.Kernel
import proofs.«416833_j33122787786760_3_alg».proof.Proof.Gen.Kernel.Skeleton
import proofs.«416833_j33122787786760_3_alg».proof.Proof.Gen.Kernel.Launch
import proofs.«416833_j33122787786760_3_alg».proof.Proof.Gen.Kernel.Points
import proofs.«416833_j33122787786760_3_alg».proof.Proof.Gen.Kernel.Frame
import proofs.«416833_j33122787786760_3_alg».proof.Proof.Gen.KernelIdeal
import proofs.«416833_j33122787786760_3_alg».proof.Proof.Gen.KernelIdeal.Skeleton
import proofs.«416833_j33122787786760_3_alg».proof.Proof.Gen.KernelIdeal.Launch
import proofs.«416833_j33122787786760_3_alg».proof.Proof.Gen.KernelIdeal.Points
import proofs.«416833_j33122787786760_3_alg».proof.Proof.Gen.KernelIdeal.Frame
import proofs.«416833_j33122787786760_3_alg».proof.Proof.Gen.ReferenceIdeal
import proofs.«416833_j33122787786760_3_alg».proof.Proof.Gen.Pre_finite_inputs
import proofs.«416833_j33122787786760_3_alg».proof.Proof.Gen.ReferenceIdeal.Run
import proofs.«416833_j33122787786760_3_alg».proof.Proof.Gen.ReferenceIdeal.Read
import proofs.«416833_j33122787786760_3_alg».proof.Proof.Stages
import proofs.«416833_j33122787786760_3_alg».proof.Proof.KernelRun
import proofs.«416833_j33122787786760_3_alg».proof.Proof.KernelValue
import Idealize.ShloMosaic.Adequacy
import Idealize.ShloMosaic.Init

noncomputable section

namespace Cert.Proof

open Idealize.ShloMosaic Idealize.SL.Sem

/-- The word-level kernel program's frame: its generated run. -/
theorem frame_k : Cert.frame_Kernel := fun m ρ _ => Cert.Kernel.Gen.frame m ρ

/-- The idealized kernel program's frame: its generated run. -/
theorem frame_ki : Cert.frame_KernelIdeal := fun m ρ _ => Cert.KernelIdeal.Gen.frame m ρ

/-- The reference's frame: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- On the extended reals, from memories that agree on the arguments, both programs end with the reference's logits
    and loss of those arguments. -/
theorem algebraic : Cert.algebraic_KernelIdeal_ReferenceIdeal := by
  intro m ρ m' ρ' _ hagree
  refine ⟨fun c => Cert.KernelIdeal.Stages.refLogits m c, fun c => Cert.KernelIdeal.Stages.refLoss m c, ?_, ?_⟩
  · refine (θ_run Cert.KernelIdeal.defs _ _).mono (fun r h c => ?_) (Cert.KernelIdeal.Gen.run_results (F := Ideal) m ρ)
    exact ⟨(h c).1.trans (Cert.KernelIdeal.KernelValue.logits_final m ρ c),
      (h c).2.1.trans (Cert.KernelIdeal.KernelValue.loss_final m ρ c), (h c).2.2⟩
  · refine (θ_run Cert.ReferenceIdeal.defs _ _).mono (fun r h c => ?_) (Cert.ReferenceIdeal.Value.run (F := Ideal) m' ρ')
    obtain ⟨h0, h1, h2, h3, h4, h5, h6, h7, h8, h9, h10, h11, h12, h13, h14, h15, h16, h17, h18, h19⟩ := hagree c
    refine ⟨(h c).1.trans ?_, (h c).2.1.trans ?_, (h c).2.2⟩
    · rw [Cert.ReferenceIdeal.Read.val_main_v85_eq, h0, h1, h2, h3, h4, h5, h6, h8, h9, h10, h11, h12, h13, h14, h15, h16, h17, h18, h19]
    · rw [Cert.ReferenceIdeal.Read.val_main_v96_eq, h0, h1, h2, h3, h4, h5, h6, h7, h8, h9, h10, h11, h12, h13, h14, h15, h16, h17, h18, h19]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
